-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S51200x128 : Shape := ⟨2, ![51200, 128]⟩
abbrev S512000 : Shape := ⟨1, ![512000]⟩
abbrev S128x256 : Shape := ⟨2, ![128, 256]⟩
abbrev S256x256 : Shape := ⟨2, ![256, 256]⟩
abbrev S256x1 : Shape := ⟨2, ![256, 1]⟩
abbrev S2x512000 : Shape := ⟨2, ![2, 512000]⟩
abbrev S_ : Shape := ⟨0, ![]⟩
abbrev S1x512000 : Shape := ⟨2, ![1, 512000]⟩

class Facts : Prop where
  bcast_S_S51200x128 : S_.BroadcastsInDim S51200x128 (![] : Fin 0 → Fin S51200x128.rank)
  reducesTo_S51200x128_S_d0_1 : S51200x128.ReducesTo [0, 1] S_
  h_S_ : 0 < S_.numel
  bcast_S_S512000 : S_.BroadcastsInDim S512000 (![] : Fin 0 → Fin S512000.rank)
  reducesTo_S512000_S_d0 : S512000.ReducesTo [0] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S2x512000 : S_.BroadcastsInDim S2x512000 (![] : Fin 0 → Fin S2x512000.rank)
  reducesTo_S2x512000_S_d0_1 : S2x512000.ReducesTo [0, 1] S_
  slices_S2x512000_S1x512000_0_0 : S2x512000.Slices ![0, 0] S1x512000
  shapeCasts_S1x512000_S512000 : S1x512000.ShapeCasts S512000
  slices_S2x512000_S1x512000_1_0 : S2x512000.Slices ![1, 0] S1x512000

variable [Facts]

def fn_part2 {F : FTy → Type} [FloatOps F] (main_arg5 : IVec S2x512000 32) (main_v31 : IVec S_ 1) (main_v33 : IVec S512000 32) : IVec S_ 1 :=
  let main_c_12 : IVec S_ 32 := constantI S_ 32 25#32
  let main_v34 : IVec S512000 32 := broadcastInDim S512000 ![] bcast_S_S512000 main_c_12
  let main_v35 : IVec S512000 32 := Host.divsi main_v33 main_v34
  let main_v36 : IVec S1x512000 32 := (extractStridedSlice S1x512000 ![1, 0] · slices_S2x512000_S1x512000_1_0) main_arg5
  let main_v37 : IVec S512000 32 := shapeCast S512000 main_v36 shapeCasts_S1x512000_S512000
  let main_c_13 : IVec S_ 32 := constantI S_ 32 25#32
  let main_v38 : IVec S512000 32 := broadcastInDim S512000 ![] bcast_S_S512000 main_c_13
  let main_v39 : IVec S512000 32 := Host.divsi main_v37 main_v38
  let main_v40 : IVec S512000 1 := cmpi .eq main_v35 main_v39
  let main_c_14 : IVec S_ 1 := constantI S_ 1 1#1
  let main_v41 : IVec S_ 1 := (fun x v => Host.reduce IntOp.andi x v reducesTo_S512000_S_d0 h_S_) main_v40 main_c_14
  let main_v42 : IVec S_ 1 := andi main_v31 main_v41
  main_v42

def fn_part1 {F : FTy → Type} [FloatOps F] (main_arg4 : FVec F S256x1 .f32) (main_arg5 : IVec S2x512000 32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_c_8 : IVec S_ 32 := constantI S_ 32 0#32
  let main_v24 : IVec S2x512000 32 := broadcastInDim S2x512000 ![] bcast_S_S2x512000 main_c_8
  let main_v25 : IVec S2x512000 1 := cmpi .sge main_arg5 main_v24
  let main_c_9 : IVec S_ 1 := constantI S_ 1 1#1
  let main_v26 : IVec S_ 1 := (fun x v => Host.reduce IntOp.andi x v reducesTo_S2x512000_S_d0_1 h_S_) main_v25 main_c_9
  let main_v27 : IVec S_ 1 := andi main_v23 main_v26
  let main_c_10 : IVec S_ 32 := constantI S_ 32 51200#32
  let main_v28 : IVec S2x512000 32 := broadcastInDim S2x512000 ![] bcast_S_S2x512000 main_c_10
  let main_v29 : IVec S2x512000 1 := cmpi .slt main_arg5 main_v28
  let main_c_11 : IVec S_ 1 := constantI S_ 1 1#1
  let main_v30 : IVec S_ 1 := (fun x v => Host.reduce IntOp.andi x v reducesTo_S2x512000_S_d0_1 h_S_) main_v29 main_c_11
  let main_v31 : IVec S_ 1 := andi main_v27 main_v30
  let main_v32 : IVec S1x512000 32 := (extractStridedSlice S1x512000 ![0, 0] · slices_S2x512000_S1x512000_0_0) main_arg5
  let main_v33 : IVec S512000 32 := shapeCast S512000 main_v32 shapeCasts_S1x512000_S512000
  fn_part2 (F := F) main_arg5 main_v31 main_v33

def fn {F : FTy → Type} [FloatOps F] (main_arg0 : FVec F S51200x128 .f32) (main_arg1 : FVec F S512000 .f32) (main_arg2 : FVec F S128x256 .f32) (main_arg3 : FVec F S256x256 .f32) (main_arg4 : FVec F S256x1 .f32) (main_arg5 : IVec S2x512000 32) : IVec S_ 1 :=
  let main_v0 : FVec F S51200x128 .f32 := Host.absf main_arg0
  let main_cst : FVec F S_ .f32 := constant S_ .f32 0x7F800000#32
  let main_v1 : FVec F S51200x128 .f32 := broadcastInDim S51200x128 ![] bcast_S_S51200x128 main_cst
  let main_v2 : IVec S51200x128 1 := cmpf .olt main_v0 main_v1
  let main_c : IVec S_ 1 := constantI S_ 1 1#1
  let main_v3 : IVec S_ 1 := (fun x v => Host.reduce IntOp.andi x v reducesTo_S51200x128_S_d0_1 h_S_) main_v2 main_c
  let main_v4 : FVec F S512000 .f32 := Host.absf main_arg1
  let main_cst_0 : FVec F S_ .f32 := constant S_ .f32 0x7F800000#32
  let main_v5 : FVec F S512000 .f32 := broadcastInDim S512000 ![] bcast_S_S512000 main_cst_0
  let main_v6 : IVec S512000 1 := cmpf .olt main_v4 main_v5
  let main_c_1 : IVec S_ 1 := constantI S_ 1 1#1
  let main_v7 : IVec S_ 1 := (fun x v => Host.reduce IntOp.andi x v reducesTo_S512000_S_d0 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S51200x128 : Shape := ⟨2, ![51200, 128]⟩
abbrev S512000 : Shape := ⟨1, ![512000]⟩
abbrev S128x256 : Shape := ⟨2, ![128, 256]⟩
abbrev S256x256 : Shape := ⟨2, ![256, 256]⟩
abbrev S256x1 : Shape := ⟨2, ![256, 1]⟩
abbrev S2x512000 : Shape := ⟨2, ![2, 512000]⟩
abbrev S1x512000 : Shape := ⟨2, ![1, 512000]⟩
abbrev S_ : Shape := ⟨0, ![]⟩
abbrev S2048x25x25 : Shape := ⟨3, ![2048, 25, 25]⟩
abbrev S512000x1 : Shape := ⟨2, ![512000, 1]⟩
abbrev S512000x3 : Shape := ⟨2, ![512000, 3]⟩
abbrev S2048x25 : Shape := ⟨2, ![2048, 25]⟩
abbrev S2048x25x1 : Shape := ⟨3, ![2048, 25, 1]⟩
abbrev S2048x1x25 : Shape := ⟨3, ![2048, 1, 25]⟩
abbrev S2048x32x32 : Shape := ⟨3, ![2048, 32, 32]⟩
abbrev S2048x25x128 : Shape := ⟨3, ![2048, 25, 128]⟩
abbrev S2048x32x128 : Shape := ⟨3, ![2048, 32, 128]⟩
abbrev S2048x1 : Shape := ⟨2, ![2048, 1]⟩
abbrev S128x32x128 : Shape := ⟨3, ![128, 32, 128]⟩
abbrev S128x32x32 : Shape := ⟨3, ![128, 32, 32]⟩
abbrev S128x1 : Shape := ⟨2, ![128, 1]⟩
abbrev S4096x128 : Shape := ⟨2, ![4096, 128]⟩
abbrev S4096x256 : Shape := ⟨2, ![4096, 256]⟩
abbrev S128x32x256 : Shape := ⟨3, ![128, 32, 256]⟩
abbrev S128x1x256 : Shape := ⟨3, ![128, 1, 256]⟩

abbrev nBuf : Space → Nat
  | .hbm => 133
  | .vmem => 9
  | .smem => 0
  | _ => 0

abbrev hbmTy0_0 (i : Nat) : BufTy := match i % 128 with
  | 0 => ⟨S51200x128, .f32⟩
  | 1 => ⟨S512000, .f32⟩
  | 2 => ⟨S128x256, .f32⟩
  | 3 => ⟨S256x256, .f32⟩
  | 4 => ⟨S256x1, .f32⟩
  | 5 => ⟨S2x512000, .i32⟩
  | 6 => ⟨S1x512000, .i32⟩
  | 7 => ⟨S512000, .i32⟩
  | 8 => ⟨S1x512000, .i32⟩
  | 9 => ⟨S512000, .i32⟩
  | 10 => ⟨S_, .i32⟩
  | 11 => ⟨S_, .i32⟩
  | 12 => ⟨S512000, .i32⟩
  | 13 => ⟨S512000, .i32⟩
  | 14 => ⟨S512000, .i32⟩
  | 15 => ⟨S_, .i32⟩
  | 16 => ⟨S512000, .i32⟩
  | 17 => ⟨S512000, .i1⟩
  | 18 => ⟨S512000, .i32⟩
  | 19 => ⟨S512000, .i32⟩
  | 20 => ⟨S_, .i32⟩
  | 21 => ⟨S512000, .i32⟩
  | 22 => ⟨S512000, .i1⟩
  | 23 => ⟨S512000, .i1⟩
  | 24 => ⟨S_, .i32⟩
  | 25 => ⟨S512000, .i32⟩
  | 26 => ⟨S512000, .i32⟩
  | 27 => ⟨S512000, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S512000, .i32⟩
  | 35 => ⟨S512000, .i32⟩
  | 36 => ⟨S_, .i32⟩
  | 37 => ⟨S512000, .i32⟩
  | 38 => ⟨S512000, .i1⟩
  | 39 => ⟨S_, .i32⟩
  | 40 => ⟨S512000, .i32⟩
  | 41 => ⟨S512000, .i1⟩
  | 42 => ⟨S_, .i32⟩
  | 43 => ⟨S_, .i1⟩
  | 44 => ⟨S512000, .i1⟩
  | 45 => ⟨S512000, .i1⟩
  | 46 => ⟨S512000, .i1⟩
  | 47 => ⟨S512000, .i32⟩
  | 48 => ⟨S512000, .i32⟩
  | 49 => ⟨S512000, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S512000, .i32⟩
  | 57 => ⟨S512000, .i32⟩
  | 58 => ⟨S_, .i32⟩
  | 59 => ⟨S512000, .i32⟩
  | 60 => ⟨S512000, .i1⟩
  | 61 => ⟨S_, .i32⟩
  | 62 => ⟨S512000, .i32⟩
  | 63 => ⟨S512000, .i1⟩
  | 64 => ⟨S_, .i32⟩
  | 65 => ⟨S_, .i1⟩
  | 66 => ⟨S512000, .i1⟩
  | 67 => ⟨S512000, .i1⟩
  | 68 => ⟨S512000, .i1⟩
  | 69 => ⟨S512000, .i32⟩
  | 70 => ⟨S512000, .i32⟩
  | 71 => ⟨S512000, .i32⟩
  | 72 => ⟨S_, .f32⟩
  | 73 => ⟨S2048x25x25, .f32⟩
  | 74 => ⟨S_, .i32⟩
  | 75 => ⟨S512000, .i32⟩
  | 76 => ⟨S512000, .i1⟩
  | 77 => ⟨S_, .i32⟩
  | 78 => ⟨S512000, .i32⟩
  | 79 => ⟨S512000, .i32⟩
  | 80 => ⟨S512000, .i32⟩
  | 81 => ⟨S_, .i32⟩
  | 82 => ⟨S512000, .i32⟩
  | 83 => ⟨S512000, .i1⟩
  | 84 => ⟨S_, .i32⟩
  | 85 => ⟨S512000, .i32⟩
  | 86 => ⟨S512000, .i32⟩
  | 87 => ⟨S512000, .i32⟩
  | 88 => ⟨S_, .i32⟩
  | 89 => ⟨S512000, .i32⟩
  | 90 => ⟨S512000, .i1⟩
  | 91 => ⟨S_, .i32⟩
  | 92 => ⟨S512000, .i32⟩
  | 93 => ⟨S512000, .i32⟩
  | 94 => ⟨S512000, .i32⟩
  | 95 => ⟨S512000x1, .i32⟩
  | 96 => ⟨S512000x1, .i32⟩
  | 97 => ⟨S512000x1, .i32⟩
  | 98 => ⟨S512000x3, .i32⟩
  | 99 => ⟨S2048x25x25, .f32⟩
  | 100 => ⟨S_, .f32⟩
  | 101 => ⟨S2048x25, .f32⟩
  | 102 => ⟨S_, .f32⟩
  | 103 => ⟨S2048x25, .f32⟩
  | 104 => ⟨S2048x25, .i1⟩
  | 105 => ⟨S_, .f32⟩
  | 106 => ⟨S2048x25, .f32⟩
  | 107 => ⟨S2048x25, .i1⟩
  | 108 => ⟨S_, .f32⟩
  | 109 => ⟨S_, .f32⟩
  | 110 => ⟨S2048x25, .f32⟩
  | 111 => ⟨S2048x25, .f32⟩
  | 112 => ⟨S_, .f32⟩
  | 113 => ⟨S2048x25, .f32⟩
  | 114 => ⟨S2048x25, .f32⟩
  | 115 => ⟨S_, .f32⟩
  | 116 => ⟨S_, .f32⟩
  | 117 => ⟨S2048x25, .f32⟩
  | 118 => ⟨S2048x25, .f32⟩
  | 119 => ⟨S2048x25x1, .f32⟩
  | 120 => ⟨S2048x25x25, .f32⟩
  | 121 => ⟨S2048x25x25, .f32⟩
  | 122 => ⟨S2048x1x25, .f32⟩
  | 123 => ⟨S2048x25x25, .f32⟩
  | 124 => ⟨S2048x25x25, .f32⟩
  | 125 => ⟨S_, .i32⟩
  | 126 => ⟨S_, .f32⟩
  | 127 => ⟨S2048x32x32, .f32⟩
  | _ => ⟨S51200x128, .f32⟩

abbrev hbmTy0_1 (i : Nat) : BufTy := match i % 128 with
  | 0 => ⟨S2048x25x128, .f32⟩
  | 1 => ⟨S_, .i32⟩
  | 2 => ⟨S_, .f32⟩
  | 3 => ⟨S2048x32x128, .f32⟩
  | 4 => ⟨S2048x1, .f32⟩
  | _ => ⟨S51200x128, .f32⟩

abbrev hbmTy (i : Nat) : BufTy := match i / 128 with
  | 0 => hbmTy0_0 i
  | 1 => hbmTy0_1 i
  | _ => ⟨S51200x128, .f32⟩

abbrev bufTy : (tb : Table) → Fin (tcTables nBuf tb) → BufTy
  | .hbm, ⟨i, _⟩ => hbmTy i
  | .local _ .vmem, ⟨0, _⟩ => ⟨S128x32x128, .f32⟩
  | .local _ .vmem, ⟨1, _⟩ => ⟨S128x32x128, .f32⟩
  | .local _ .vmem, ⟨2, _⟩ => ⟨S128x32x32, .f32⟩
  | .local _ .vmem, ⟨3, _⟩ => ⟨S128x32x32, .f32⟩
  | .local _ .vmem, ⟨4, _⟩ => ⟨S128x256, .f32⟩
  | .local _ .vmem, ⟨5, _⟩ => ⟨S256x256, .f32⟩
  | .local _ .vmem, ⟨6, _⟩ => ⟨S256x1, .f32⟩
  | .local _ .vmem, ⟨7, _⟩ => ⟨S128x1, .f32⟩
  | .local _ .vmem, ⟨8, _⟩ => ⟨S128x1, .f32⟩
  | _, _ => ⟨S51200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v6 : Ref sig .tc := ⟨.hbm, 71, rfl⟩
abbrev main_cst : Ref sig .tc := ⟨.hbm, 72, rfl⟩
abbrev main_v7 : Ref sig .tc := ⟨.hbm, 73, rfl⟩
abbrev main_c_2 : Ref sig .tc := ⟨.hbm, 74, rfl⟩
abbrev main_v8 : Ref sig .tc := ⟨.hbm, 75, rfl⟩
abbrev main_v9 : Ref sig .tc := ⟨.hbm, 76, rfl⟩
abbrev main_c_3 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_c_4 : Ref sig .tc := ⟨.hbm, 81, rfl⟩
abbrev main_v13 : Ref sig .tc := ⟨.hbm, 82, rfl⟩
abbrev main_v14 : Ref sig .tc := ⟨.hbm, 83, rfl⟩
abbrev main_c_5 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_c_6 : Ref sig .tc := ⟨.hbm, 88, rfl⟩
abbrev main_v18 : Ref sig .tc := ⟨.hbm, 89, rfl⟩
abbrev main_v19 : Ref sig .tc := ⟨.hbm, 90, rfl⟩
abbrev main_c_7 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_cst_8 : Ref sig .tc := ⟨.hbm, 100, rfl⟩
abbrev main_v28 : Ref sig .tc := ⟨.hbm, 101, rfl⟩
abbrev main_cst_9 : Ref sig .tc := ⟨.hbm, 102, rfl⟩
abbrev main_v29 : Ref sig .tc := ⟨.hbm, 103, rfl⟩
abbrev main_v30 : Ref sig .tc := ⟨.hbm, 104, rfl⟩
abbrev main_cst_10 : Ref sig .tc := ⟨.hbm, 105, rfl⟩
abbrev main_v31 : Ref sig .tc := ⟨.hbm, 106, rfl⟩
abbrev main_v32 : Ref sig .tc := ⟨.hbm, 107, rfl⟩
abbrev main_cst_11 : Ref sig .tc := ⟨.hbm, 108, rfl⟩
abbrev main_call3_v0 : Ref sig .tc := ⟨.hbm, 109, rfl⟩
abbrev main_call3_v1 : Ref sig .tc := ⟨.hbm, 110, rfl⟩
abbrev main_v33 : Ref sig .tc := ⟨.hbm, 111, rfl⟩
abbrev main_cst_12 : Ref sig .tc := ⟨.hbm, 112, rfl⟩
abbrev main_v34 : Ref sig .tc := ⟨.hbm, 113, rfl⟩
abbrev main_v35 : Ref sig .tc := ⟨.hbm, 114, rfl⟩
abbrev main_cst_13 : Ref sig .tc := ⟨.hbm, 115, rfl⟩
abbrev main_call4_v0 : Ref sig .tc := ⟨.hbm, 116, rfl⟩
abbrev main_call4_v1 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_c_14 : Ref sig .tc := ⟨.hbm, 125, rfl⟩
abbrev main_call5_v0 : Ref sig .tc := ⟨.hbm, 126, rfl⟩
abbrev main_v43 : Ref sig .tc := ⟨.hbm, 127, rfl⟩
abbrev main_v44 : Ref sig .tc := ⟨.hbm, 128, rfl⟩
abbrev main_c_15 : Ref sig .tc := ⟨.hbm, 129, rfl⟩
abbrev main_call6_v0 : Ref sig .tc := ⟨.hbm, 130, rfl⟩
abbrev main_v45 : Ref sig .tc := ⟨.hbm, 131, rfl⟩
abbrev main_v46 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S512000 : S_.BroadcastsInDim S512000 (![] : Fin 0 → Fin S512000.rank)
  bcast_S_S2048x25x25 : S_.BroadcastsInDim S2048x25x25 (![] : Fin 0 → Fin S2048x25x25.rank)
  bcast_S512000_S512000x1_0 : S512000.BroadcastsInDim S512000x1 (![0] : Fin 1 → Fin S512000x1.rank)
  concatenates_S512000x1_S512000x1_S512000x1_S512000x3_d1 : Shape.Concatenates [S512000x1, S512000x1, S512000x1] S512000x3 1
  reducesTo_S2048x25x25_S2048x25_d1 : S2048x25x25.ReducesTo [1] S2048x25
  h_S_ : 0 < S_.numel
  bcast_S_S2048x25 : S_.BroadcastsInDim S2048x25 (![] : Fin 0 → Fin S2048x25.rank)
  bcast_S2048x25_S2048x25x1_0_1 : S2048x25.BroadcastsInDim S2048x25x1 (![0, 1] : Fin 2 → Fin S2048x25x1.rank)
  bcast_S2048x25x1_S2048x25x25_0_1_2 : S2048x25x1.BroadcastsInDim S2048x25x25 (![0, 1, 2] : Fin 3 → Fin S2048x25x25.rank)
  bcast_S2048x25_S2048x1x25_0_2 : S2048x25.BroadcastsInDim S2048x1x25 (![0, 2] : Fin 2 → Fin S2048x1x25.rank)
  bcast_S2048x1x25_S2048x25x25_0_1_2 : S2048x1x25.BroadcastsInDim S2048x25x25 (![0, 1, 2] : Fin 3 → Fin S2048x25x25.rank)
  pads_S2048x25x25_S2048x32x32_000_070_070 : S2048x25x25.Pads (![0, 0, 0] : Fin 3 → Nat) ![0, 7, 7] ![0, 0, 0] S2048x32x32
  shapeCasts_S51200x128_S2048x25x128 : S51200x128.ShapeCasts S2048x25x128
  pads_S2048x25x128_S2048x32x128_000_070_000 : S2048x25x128.Pads (![0, 0, 0] : Fin 3 → Nat) ![0, 7, 0] ![0, 0, 0] S2048x32x128
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  bitsLt_bf16_f32 : FTy.bits .bf16 < FTy.bits .f32
  inb_S128x32x32_S128x32x32_0_0_0 : ∀ a, (![0, 0, 0] : Fin 3 → Nat) a + S128x32x32.size a ≤ S128x32x32.size a
  h_S128x32x32 : 0 < S128x32x32.numel
  shapeCasts_S128x32x32_S128x32x32 : S128x32x32.ShapeCasts S128x32x32
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  shapeCasts_S128x32x128_S4096x128 : S128x32x128.ShapeCasts S4096x128
  shapeCasts_S4096x256_S128x32x256 : S4096x256.ShapeCasts S128x32x256
  shapeCasts_S128x32x256_S4096x256 : S128x32x256.ShapeCasts S4096x256
  slices_S128x32x256_o0_0_0_S128x1x256 : S128x32x256.Slices ![0, 0, 0] S128x1x256
  shapeCasts_S128x1x256_S128x256 : S128x1x256.ShapeCasts S128x256
  inb_S128x1_S128x1_0_0 : ∀ a, (![0, 0] : Fin 2 → Nat) a + S128x1.size a ≤ S128x1.size a
  h_S128x1 : 0 < S128x1.numel
  scatter_S2048x25x25_S512000x3_S512000_n_012_012_1_wf : ScatterDims.WF S2048x25x25 S512000x3 S512000 [] [0, 1, 2] [0, 1, 2] 1
  dot_S4096x128_S128x256_S4096x256_1_0_0_1_n_n_wf : DotDims.WF S4096x128 S128x256 S4096x256 [1] [0] [0] [1] [] []
  dot_S128x32x32_S128x32x256_S128x32x256_1_1_2_2_0_0_wf : DotDims.WF S128x32x32 S128x32x256 S128x32x256 [1] [1] [2] [2] [0] [0]
  dot_S4096x256_S256x256_S4096x256_1_0_0_1_n_n_wf : DotDims.WF S4096x256 S256x256 S4096x256 [1] [0] [0] [1] [] []
  dot_S128x256_S256x1_S128x1_1_0_0_1_n_n_wf : DotDims.WF S128x256 S256x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S2048x32x128.size a
  hwx0_0 : ∀ i : grid0.Coords, EltTy.bits .f32 = 32 ∨ (Rect.block (s := S2048x32x128) S128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x32.size a ≤ S2048x32x32.size a
  hwx0_1 : ∀ i : grid0.Coords, EltTy.bits .f32 = 32 ∨ (Rect.block (s := S2048x32x32) S128x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S2048x1.size a
  hwx0_5 : ∀ i : grid0.Coords, EltTy.bits .f32 = 32 ∨ (Rect.block (s := S2048x1) S128x1.size (cc0_transform_5 i) (hinb0_5 i)).WholeWords (EltTy.packing .f32)

variable [Facts₀]

def scatter_S2048x25x25_S512000x3_S512000_n_012_012_1 : ScatterDims S2048x25x25 S512000x3 S512000 where
  updateWindowDims := []
  insertedWindowDims := [0, 1, 2]
  scatterDimsToOperandDims := [0, 1, 2]
  indexVectorDim := 1
  wf := scatter_S2048x25x25_S512000x3_S512000_n_012_012_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S128x32x32_S128x32x256_S128x32x256_1_1_2_2_0_0 : DotDims S128x32x32 S128x32x256 S128x32x256 where
  lhsContracting := [1]
  rhsContracting := [1]
  lhsNonContracting := [2]
  rhsNonContracting := [2]
  lhsBatch := [0]
  rhsBatch := [0]
  wf := dot_S128x32x32_S128x32x256_S128x32x256_1_1_2_2_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

abbrev win0_0 : Pipeline.Window sig grid0 :=
  Pipeline.Window.ofSpec (Memref.whole main_v45) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S51200x128 : Shape := ⟨2, ![51200, 128]⟩
abbrev S512000 : Shape := ⟨1, ![512000]⟩
abbrev S128x256 : Shape := ⟨2, ![128, 256]⟩
abbrev S256x256 : Shape := ⟨2, ![256, 256]⟩
abbrev S256x1 : Shape := ⟨2, ![256, 1]⟩
abbrev S2x512000 : Shape := ⟨2, ![2, 512000]⟩
abbrev S1x512000 : Shape := ⟨2, ![1, 512000]⟩
abbrev S_ : Shape := ⟨0, ![]⟩
abbrev S51200 : Shape := ⟨1, ![51200]⟩
abbrev S512000x1 : Shape := ⟨2, ![512000, 1]⟩
abbrev S51200x256 : Shape := ⟨2, ![51200, 256]⟩
abbrev S512000x256 : Shape := ⟨2, ![512000, 256]⟩
abbrev S2048x25x256 : Shape := ⟨3, ![2048, 25, 256]⟩
abbrev S2048x1x256 : Shape := ⟨3, ![2048, 1, 256]⟩
abbrev S2048x256 : Shape := ⟨2, ![2048, 256]⟩
abbrev S2048x1 : Shape := ⟨2, ![2048, 1]⟩

abbrev nBuf : Space → Nat
  | .hbm => 95
  | .vmem => 0
  | .smem => 0
  | _ => 0

abbrev bufTy : (tb : Table) → Fin (tcTables nBuf tb) → BufTy
  | .hbm, ⟨0, _⟩ => ⟨S51200x128, .f32⟩
  | .hbm, ⟨1, _⟩ => ⟨S512000, .f32⟩
  | .hbm, ⟨2, _⟩ => ⟨S128x256, .f32⟩
  | .hbm, ⟨3, _⟩ => ⟨S256x256, .f32⟩
  | .hbm, ⟨4, _⟩ => ⟨S256x1, .f32⟩
  | .hbm, ⟨5, _⟩ => ⟨S2x512000, .i32⟩
  | .hbm, ⟨6, _⟩ => ⟨S1x512000, .i32⟩
  | .hbm, ⟨7, _⟩ => ⟨S512000, .i32⟩
  | .hbm, ⟨8, _⟩ => ⟨S1x512000, .i32⟩
  | .hbm, ⟨9, _⟩ => ⟨S512000, .i32⟩
  | .hbm, ⟨10, _⟩ => ⟨S_, .f32⟩
  | .hbm, ⟨11, _⟩ => ⟨S51200, .f32⟩
  | .hbm, ⟨12, _⟩ => ⟨S512000x1, .i32⟩
  | .hbm, ⟨13, _⟩ => ⟨S51200, .f32⟩
  | .hbm, ⟨14, _⟩ => ⟨S_, .f32⟩
  | .hbm, ⟨15, _⟩ => ⟨S51200, .f32⟩
  | .hbm, ⟨16, _⟩ => ⟨S51200, .i1⟩
  | .hbm, ⟨17, _⟩ => ⟨S_, .f32⟩
  | .hbm, ⟨18, _⟩ => ⟨S51200, .f32⟩
  | .hbm, ⟨19, _⟩ => ⟨S51200, .i1⟩
  | .hbm, ⟨20, _⟩ => ⟨S_, .f32⟩
  | .hbm, ⟨21, _⟩ => ⟨S_, .f32⟩
  | .hbm, ⟨22, _⟩ => ⟨S51200, .f32⟩
  | .hbm, ⟨23, _⟩ => ⟨S51200, .f32⟩
  | .hbm, ⟨24, _⟩ => ⟨S_, .f32⟩
  | .hbm, ⟨25, _⟩ => ⟨S51200, .f32⟩
  | .hbm, ⟨26, _⟩ => ⟨S51200, .f32⟩
  | .hbm, ⟨27, _⟩ => ⟨S_, .f32⟩
  | .hbm, ⟨28, _⟩ => ⟨S_, .f32⟩
  | .hbm, ⟨29, _⟩ => ⟨S51200, .f32⟩
  | .hbm, ⟨30, _⟩ => ⟨S51200, .f32⟩
  | .hbm, ⟨31, _⟩ => ⟨S_, .i32⟩
  | .hbm, ⟨32, _⟩ => ⟨S512000, .i32⟩
  | .hbm, ⟨33, _⟩ => ⟨S512000, .i1⟩
  | .hbm, ⟨34, _⟩ => ⟨S_, .i32⟩
  | .hbm, ⟨35, _⟩ => ⟨S512000, .i32⟩
  | .hbm, ⟨36, _⟩ => ⟨S512000, .i32⟩
  | .hbm, ⟨37, _⟩ => ⟨S512000, .i32⟩
  | .hbm, ⟨38, _⟩ => ⟨S512000x1, .i32⟩
  | .hbm, ⟨39, _⟩ => ⟨S512000, .f32⟩
  | .hbm, ⟨40, _⟩ => ⟨S512000, .f32⟩
  | .hbm, ⟨41, _⟩ => ⟨S_, .i32⟩
  | .hbm, ⟨42, _⟩ => ⟨S512000, .i32⟩
  | .hbm, ⟨43, _⟩ => ⟨S512000, .i1⟩
  | .hbm, ⟨44, _⟩ => ⟨S_, .i32⟩
  | .hbm, ⟨45, _⟩ => ⟨S512000, .i32⟩
  | .hbm, ⟨46, _⟩ => ⟨S512000, .i32⟩
  | .hbm, ⟨47, _⟩ => ⟨S512000, .i32⟩
  | .hbm, ⟨48, _⟩ => ⟨S512000x1, .i32⟩
  | .hbm, ⟨49, _⟩ => ⟨S512000, .f32⟩
  | .hbm, ⟨50, _⟩ => ⟨S512000, .f32⟩
  | .hbm, ⟨51, _⟩ => ⟨S51200x256, .f32⟩
  | .hbm, ⟨52, _⟩ => ⟨S_, .i32⟩
  | .hbm, ⟨53, _⟩ => ⟨S512000, .i32⟩
  | .hbm, ⟨54, _⟩ => ⟨S512000, .i1⟩
  | .hbm, ⟨55, _⟩ => ⟨S_, .i32⟩
  | .hbm, ⟨56, _⟩ => ⟨S512000, .i32⟩
  | .hbm, ⟨57, _⟩ => ⟨S512000, .i32⟩
  | .hbm, ⟨58, _⟩ => ⟨S512000, .i32⟩
  | .hbm, ⟨59, _⟩ => ⟨S512000x1, .i32⟩
  | .hbm, ⟨60, _⟩ => ⟨S512000x256, .f32⟩
  | .hbm, ⟨61, _⟩ => ⟨S512000x1, .f32⟩
  | .hbm, ⟨62, _⟩ => ⟨S512000x256, .f32⟩
  | .hbm, ⟨63, _⟩ => ⟨S512000x256, .f32⟩
  | .hbm, ⟨64, _⟩ => ⟨S_, .f32⟩
  | .hbm, ⟨65, _⟩ => ⟨S51200x256, .f32⟩
  | .hbm, ⟨66, _⟩ => ⟨S512000x1, .i32⟩
  | .hbm, ⟨67, _⟩ => ⟨S51200x256, .f32⟩
  | .hbm, ⟨68, _⟩ => ⟨S_, .f32⟩
  | .hbm, ⟨69, _⟩ => ⟨S51200x256, .f32⟩
  | .hbm, ⟨70, _⟩ => ⟨S51200x256, .f32⟩
  | .hbm, ⟨71, _⟩ => ⟨S51200x256, .f32⟩
  | .hbm, ⟨72, _⟩ => ⟨S_, .i32⟩
  | .hbm, ⟨73, _⟩ => ⟨S512000, .i32⟩
  | .hbm, ⟨74, _⟩ => ⟨S512000, .i1⟩
  | .hbm, ⟨75, _⟩ => ⟨S_, .i32⟩
  | .hbm, ⟨76, _⟩ => ⟨S512000, .i32⟩
  | .hbm, ⟨77, _⟩ => ⟨S512000, .i32⟩
  | .hbm, ⟨78, _⟩ => ⟨S512000, .i32⟩
  | .hbm, ⟨79, _⟩ => ⟨S512000x1, .i32⟩
  | .hbm, ⟨80, _⟩ => ⟨S512000x256, .f32⟩
  | .hbm, ⟨81, _⟩ => ⟨S512000x1, .f32⟩
  | .hbm, ⟨82, _⟩ => ⟨S512000x256, .f32⟩
  | .hbm, ⟨83, _⟩ => ⟨S512000x256, .f32⟩
  | .hbm, ⟨84, _⟩ => ⟨S_, .f32⟩
  | .hbm, ⟨85, _⟩ => ⟨S51200x256, .f32⟩
  | .hbm, ⟨86, _⟩ => ⟨S512000x1, .i32⟩
  | .hbm, ⟨87, _⟩ => ⟨S51200x256, .f32⟩
  | .hbm, ⟨88, _⟩ => ⟨S_, .f32⟩
  | .hbm, ⟨89, _⟩ => ⟨S51200x256, .f32⟩
  | .hbm, ⟨90, _⟩ => ⟨S51200x256, .f32⟩
  | .hbm, ⟨91, _⟩ => ⟨S2048x25x256, .f32⟩
  | .hbm, ⟨92, _⟩ => ⟨S2048x1x256, .f32⟩
  | .hbm, ⟨93, _⟩ => ⟨S2048x256, .f32⟩
  | .hbm, ⟨94, _⟩ => ⟨S2048x1, .f32⟩
  | _, _ => ⟨S51200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_cst : Ref sig .tc := ⟨.hbm, 68, rfl⟩
abbrev main_call2_v0 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S51200 : S_.BroadcastsInDim S51200 (![] : Fin 0 → Fin S51200.rank)
  bcast_S512000_S512000x1_0 : S512000.BroadcastsInDim S512000x1 (![0] : Fin 1 → Fin S512000x1.rank)
  bcast_S_S512000 : S_.BroadcastsInDim S512000 (![] : Fin 0 → Fin S512000.rank)
  bcast_S512000x1_S512000x256_0_1 : S512000x1.BroadcastsInDim S512000x256 (![0, 1] : Fin 2 → Fin S512000x256.rank)
  bcast_S_S51200x256 : S_.BroadcastsInDim S51200x256 (![] : Fin 0 → Fin S51200x256.rank)
  shapeCasts_S51200x256_S2048x25x256 : S51200x256.ShapeCasts S2048x25x256
  slices_S2048x25x256_S2048x1x256_0_0_0 : S2048x25x256.Slices ![0, 0, 0] S2048x1x256
  shapeCasts_S2048x1x256_S2048x256 : S2048x1x256.ShapeCasts S2048x256
  scatter_S51200_S512000x1_S512000_n_0_0_1_wf : ScatterDims.WF S51200 S512000x1 S512000 [] [0] [0] 1
  gather_S51200_S512000x1_S512000_n_0_n_n_0_1_1_wf : GatherDims.WF S51200 S512000x1 S512000 [] [0] [] [0] [] 1 ![1]
  dot_S51200x128_S128x256_S51200x256_1_0_0_1_n_n_wf : DotDims.WF S51200x128 S128x256 S51200x256 [1] [0] [0] [1] [] []
  gather_S51200x256_S512000x1_S512000x256_1_0_n_n_0_1_1256_wf : GatherDims.WF S51200x256 S512000x1 S512000x256 [1] [0] [] [0] [] 1 ![1, 256]
  scatter_S51200x256_S512000x1_S512000x256_1_0_0_1_wf : ScatterDims.WF S51200x256 S512000x1 S512000x256 [1] [0] [0] 1
  dot_S51200x256_S256x256_S51200x256_1_0_0_1_n_n_wf : DotDims.WF S51200x256 S256x256 S51200x256 [1] [0] [0] [1] [] []
  dot_S2048x256_S256x1_S2048x1_1_0_0_1_n_n_wf : DotDims.WF S2048x256 S256x1 S2048x1 [1] [0] [0] [1] [] []

variable [Facts₀]

def scatter_S51200_S512000x1_S512000_n_0_0_1 : ScatterDims S51200 S512000x1 S512000 where
  updateWindowDims := []
  insertedWindowDims := [0]
  scatterDimsToOperandDims := [0]
  indexVectorDim := 1
  wf := scatter_S51200_S512000x1_S512000_n_0_0_1_wf
def gather_S51200_S512000x1_S512000_n_0_n_n_0_1_1 : GatherDims S51200 S512000x1 S512000 where
  offsetDims := []
  collapsedSliceDims := [0]
  operandBatchingDims := []
  startIndicesBatchingDims := []
  startIndexMap := [0]
  indexVectorDim := 1
  sliceSizes := ![1]
  wf := gather_S51200_S512000x1_S512000_n_0_n_n_0_1_1_wf
def dot_S51200x128_S128x256_S51200x256_1_0_0_1_n_n : DotDims S51200x128 S128x256 S51200x256 where
  lhsContracting := [1]
  rhsContracting := [0]
  lhsNonContracting := [0]
  rhsNonContracting := [1]
  lhsBatch := []
  rhsBatch := []
  wf := dot_S51200x128_S128x256_S51200x256_1_0_0_1_n_n_wf
def gather_S51200x256_S512000x1_S512000x256_1_0_n_n_0_1_1256 : GatherDims S51200x256 S512000x1 S512000x256 where
  offsetDims := [1]
  collapsedSliceDims := [0]
  operandBatchingDims := []
  startIndicesBatchingDims := []
  startIndexMap := [0]
  indexVectorDim := 1
  sliceSizes := ![1, 256]
  wf := gather_S51200x256_S512000x1_S512000x256_1_0_n_n_0_1_1256_wf
def scatter_S51200x256_S512000x1_S512000x256_1_0_0_1 : ScatterDims S51200x256 S512000x1 S512000x256 where
  updateWindowDims := [1]
  insertedWindowDims := [0]
  scatterDimsToOperandDims := [0]
  indexVectorDim := 1
  wf := scatter_S51200x256_S512000x1_S512000x256_1_0_0_1_wf
def dot_S51200x256_S256x256_S51200x256_1_0_0_1_n_n : DotDims S51200x256 S256x256 S51200x256 where
  lhsContracting := [1]
  rhsContracting := [0]
  lhsNonContracting := [0]
  rhsNonContracting := [1]
  lhsBatch := []
  rhsBatch := []
  wf := dot_S51200x256_S256x256_S51200x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

class Facts : Prop extends Facts₀ where

variable [Facts]
-- ==== Proof.KEntry.lean ====
/-
  The arrays as the kernel region finds them: the host operations that come before the region (the edge table split,
  the dense matrix scattered, normalised and padded, the features regrouped and padded) applied to the launch memory.
-/
import proofs.«406615_j56642028699847_1_alg».proof.Proof.Gen.KernelIdeal.Launch

noncomputable section

namespace Cert.KernelIdeal.Entry

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- Core `c`'s TensorCore buffers when the region is entered: after the fourteen stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13]) (fun b => m (c, b)) b

end Cert.KernelIdeal.Entry

end
-- ==== Proof.KFrame.lean ====
/-
  The frame of the kernel program: @main's host operations run to the region, the region's sixteen grid points each
  load five input blocks and store the one output block, and nothing writes an argument array. What the output's
  staging buffer holds after a point is the body's one stored value of the point's input blocks (`out5`).
-/
import proofs.«406615_j56642028699847_1_alg».proof.Proof.Gen.KernelIdeal.Launch
import proofs.«406615_j56642028699847_1_alg».proof.Proof.Gen.KernelIdeal.Skeleton
import proofs.«406615_j56642028699847_1_alg».proof.Proof.Gen.KernelIdeal.Points
import proofs.«406615_j56642028699847_1_alg».proof.Proof.KEntry
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates a buffer of its own. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

abbrev r0 : Rect S128x32x128 := Rect.unit (s := S128x32x128) ![0, 0, 0] S128x32x128.size inb_S128x32x128_S128x32x128_0_0_0
abbrev r1 : Rect S128x32x32 := Rect.unit (s := S128x32x32) ![0, 0, 0] S128x32x32.size inb_S128x32x32_S128x32x32_0_0_0
abbrev r2 : Rect S128x256 := Rect.unit (s := S128x256) ![0, 0] S128x256.size inb_S128x256_S128x256_0_0
abbrev r3 : Rect S256x256 := Rect.unit (s := S256x256) ![0, 0] S256x256.size inb_S256x256_S256x256_0_0
abbrev r4 : Rect S256x1 := Rect.unit (s := S256x1) ![0, 0] S256x1.size inb_S256x1_S256x1_0_0
abbrev r5 : Rect S128x1 := Rect.unit (s := S128x1) ![0, 0] S128x1.size inb_S128x1_S128x1_0_0

/-- The output window's staging buffer after the body, from the input windows' blocks: its one store. -/
def out5 (x0 : Vec F S128x32x128 .f32) (x1 : Vec F S128x32x32 .f32) (x2 : Vec F S128x256 .f32) (x3 : Vec F S256x256 .f32)
    (x4 : Vec F S256x1 .f32) : Vec F S128x1 .f32 :=
  View.canon [⟨r5, k0_pay1 (View.ld x0 r0) (View.ld x1 r1) (View.ld x2 r2) (View.ld x3 r3) (View.ld x4 r4)⟩]

/-! ## The pipeline's proof data -/

/-- The proof data of the one pipeline on core `c`: the arrays as the region finds them; after the body at point `t`
    each input's buffer at its block and the output's at `out5` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_5 (c : Dev nD) (t : Fin cfg0.N) :
    (dats m 0 c).after 5 t = out5 (iblk m c 0 t) (iblk m c 1 t) (iblk m c 2 t) (iblk m c 3 t) (iblk m c 4 t) := by
  dsimp only [dats]

/-! ## The inputs' buffers hold their blocks -/

/-- What the body leaves in an input window's buffer: the block it found there. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- An input window's current staging buffer holds its block at every point, fetched there or not: a point that does
    not fetch it has the block index of the point before, and the body left the block in place. -/
theorem before0_0 (c : Dev nD) (t : Fin cfg0.N) (d) : (dats m 0 c).before 0 t d = iblk m c 0 t := by
  have hk : ∀ t, (cfg0.win 0).cut (cfg0.grid.coords t) ((dats m 0 c).after 0 t) = (dats m 0 c).blockOf 0 t := fun t => by
    rw [after0_0]; unfold Dat.blockOf iblk; rw [A_eq]; try rfl
  rw [(dats m 0 c).before_in_eq_fetched 0 rfl (fun _ => rfl) (fun _ _ _ => rfl) hk t d]
  unfold Dat.fetched Dat.blockOf iblk; rw [A_eq]; try rfl
theorem before0_1 (c : Dev nD) (t : Fin cfg0.N) (d) : (dats m 0 c).before 1 t d = iblk m c 1 t := by
  have hk : ∀ t, (cfg0.win 1).cut (cfg0.grid.coords t) ((dats m 0 c).after 1 t) = (dats m 0 c).blockOf 1 t := fun t => by
    rw [after0_1]; unfold Dat.blockOf iblk; rw [A_eq]; try rfl
  rw [(dats m 0 c).before_in_eq_fetched 1 rfl (fun _ => rfl) (fun _ _ _ => rfl) hk t d]
  unfold Dat.fetched Dat.blockOf iblk; rw [A_eq]; try rfl
theorem before0_2 (c : Dev nD) (t : Fin cfg0.N) (d) : (dats m 0 c).before 2 t d = iblk m c 2 t := by
  have hk : ∀ t, (cfg0.win 2).cut (cfg0.grid.coords t) ((dats m 0 c).after 2 t) = (dats m 0 c).blockOf 2 t := fun t => by
    rw [after0_2]; unfold Dat.blockOf iblk; rw [A_eq]; try rfl
  rw [(dats m 0 c).before_in_eq_fetched 2 rfl (fun _ => rfl) (fun _ _ _ => rfl) hk t d]
  unfold Dat.fetched Dat.blockOf iblk; rw [A_eq]; try rfl
theorem before0_3 (c : Dev nD) (t : Fin cfg0.N) (d) : (dats m 0 c).before 3 t d = iblk m c 3 t := by
  have hk : ∀ t, (cfg0.win 3).cut (cfg0.grid.coords t) ((dats m 0 c).after 3 t) = (dats m 0 c).blockOf 3 t := fun t => by
    rw [after0_3]; unfold Dat.blockOf iblk; rw [A_eq]; try rfl
  rw [(dats m 0 c).before_in_eq_fetched 3 rfl (fun _ => rfl) (fun _ _ _ => rfl) hk t d]
  unfold Dat.fetched Dat.blockOf iblk; rw [A_eq]; try rfl
theorem before0_4 (c : Dev nD) (t : Fin cfg0.N) (d) : (dats m 0 c).before 4 t d = iblk m c 4 t := by
  have hk : ∀ t, (cfg0.win 4).cut (cfg0.grid.coords t) ((dats m 0 c).after 4 t) = (dats m 0 c).blockOf 4 t := fun t => by
    rw [after0_4]; unfold Dat.blockOf iblk; rw [A_eq]; try rfl
  rw [(dats m 0 c).before_in_eq_fetched 4 rfl (fun _ => rfl) (fun _ _ _ => rfl) hk t d]
  unfold Dat.fetched Dat.blockOf iblk; rw [A_eq]; try rfl

/-! ## The body's triple -/

/-- The one store is the whole buffer, so it covers it. -/
theorem cover5 (p : Vec F S128x1 .f32) (y : S128x1.Idx) :
    ∃ pc ∈ ([⟨r5, p⟩] : List (View.Piece (Elt F) S128x1 .f32)), y ∈ pc.1.set :=
  View.cover_of_tiled [⟨r5, p⟩] S128x1.size (by rfl) y

set_option maxHeartbeats 1000000 in
/-- The body on whole staging memrefs, the five inputs' at contents `x0 … x4` and the output's at anything, runs to the
    continuation with the inputs' as they were and the output's at `out5` of them: five loads of the inputs, one load of
    the output's buffer whose value nothing reads, and the one store of the payload over the whole output buffer. -/
theorem sound_kernel (c : Dev nD) (E : Set ℕ) (i : grid0.Coords) (arg1 : Memref sig .tc .vmem S128x32x128 .f32) (harg1 : arg1.IsWhole) (arg2 : Memref sig .tc .vmem S128x32x32 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S128x1 .f32) (harg6 : arg6.IsWhole)
    (x0 : Vec F S128x32x128 .f32) (x1 : Vec F S128x32x32 .f32) (x2 : Vec F S128x256 .f32) (x3 : Vec F S256x256 .f32) (x4 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__kcn_block_kernel i arg1 harg1 arg2 harg2 arg3 harg3 arg4 harg4 arg5 harg5 arg6 harg6) K := by
  simp only [cc0__kcn_block_kernel_eq_skeleton]; unfold cc0__kcn_block_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`: an array no window stages is among the buffers the region passes by, a staged
    input array is what the region found, and the region found each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Frm

end
-- ==== Proof.KEntryBits.lean ====
/-
  The arrays as the kernel region finds them: the host operations that come before the region (the edge table split,
  the dense matrix scattered, normalised and padded, the features regrouped and padded) applied to the launch memory.
-/
import proofs.«406615_j56642028699847_1_alg».proof.Proof.Gen.Kernel.Launch

noncomputable section

namespace Cert.Kernel.Entry

open Idealize.ShloMosaic Idealize.ShloMosaic.TcCoe Idealize.SL.Sem Cert.Kernel Cert.Kernel.Gen

variable {F : FTy → Type} [FloatOps F]
variable (m : (ℓ : Loc nD τ sig) → Buf (Elt F) ℓ)

/-- Core `c`'s TensorCore buffers when the region is entered: after the fourteen stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13]) (fun b => m (c, b)) b

end Cert.Kernel.Entry

end
-- ==== Proof.KFrameBits.lean ====
/-
  The frame of the kernel program: @main's host operations run to the region, the region's sixteen grid points each
  load five input blocks and store the one output block, and nothing writes an argument array. What the output's
  staging buffer holds after a point is the body's one stored value of the point's input blocks (`out5`).
-/
import proofs.«406615_j56642028699847_1_alg».proof.Proof.Gen.Kernel.Launch
import proofs.«406615_j56642028699847_1_alg».proof.Proof.Gen.Kernel.Skeleton
import proofs.«406615_j56642028699847_1_alg».proof.Proof.Gen.Kernel.Points
import proofs.«406615_j56642028699847_1_alg».proof.Proof.KEntryBits
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates a buffer of its own. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

abbrev r0 : Rect S128x32x128 := Rect.unit (s := S128x32x128) ![0, 0, 0] S128x32x128.size inb_S128x32x128_S128x32x128_0_0_0
abbrev r1 : Rect S128x32x32 := Rect.unit (s := S128x32x32) ![0, 0, 0] S128x32x32.size inb_S128x32x32_S128x32x32_0_0_0
abbrev r2 : Rect S128x256 := Rect.unit (s := S128x256) ![0, 0] S128x256.size inb_S128x256_S128x256_0_0
abbrev r3 : Rect S256x256 := Rect.unit (s := S256x256) ![0, 0] S256x256.size inb_S256x256_S256x256_0_0
abbrev r4 : Rect S256x1 := Rect.unit (s := S256x1) ![0, 0] S256x1.size inb_S256x1_S256x1_0_0
abbrev r5 : Rect S128x1 := Rect.unit (s := S128x1) ![0, 0] S128x1.size inb_S128x1_S128x1_0_0

/-- The output window's staging buffer after the body, from the input windows' blocks: its one store. -/
def out5 (x0 : Vec F S128x32x128 .f32) (x1 : Vec F S128x32x32 .f32) (x2 : Vec F S128x256 .f32) (x3 : Vec F S256x256 .f32)
    (x4 : Vec F S256x1 .f32) : Vec F S128x1 .f32 :=
  View.canon [⟨r5, k0_pay1 (View.ld x0 r0) (View.ld x1 r1) (View.ld x2 r2) (View.ld x3 r3) (View.ld x4 r4)⟩]

/-! ## The pipeline's proof data -/

/-- The proof data of the one pipeline on core `c`: the arrays as the region finds them; after the body at point `t`
    each input's buffer at its block and the output's at `out5` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_5 (c : Dev nD) (t : Fin cfg0.N) :
    (dats m 0 c).after 5 t = out5 (iblk m c 0 t) (iblk m c 1 t) (iblk m c 2 t) (iblk m c 3 t) (iblk m c 4 t) := by
  dsimp only [dats]

/-! ## The inputs' buffers hold their blocks -/

/-- What the body leaves in an input window's buffer: the block it found there. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- An input window's current staging buffer holds its block at every point, fetched there or not: a point that does
    not fetch it has the block index of the point before, and the body left the block in place. -/
theorem before0_0 (c : Dev nD) (t : Fin cfg0.N) (d) : (dats m 0 c).before 0 t d = iblk m c 0 t := by
  have hk : ∀ t, (cfg0.win 0).cut (cfg0.grid.coords t) ((dats m 0 c).after 0 t) = (dats m 0 c).blockOf 0 t := fun t => by
    rw [after0_0]; unfold Dat.blockOf iblk; rw [A_eq]; try rfl
  rw [(dats m 0 c).before_in_eq_fetched 0 rfl (fun _ => rfl) (fun _ _ _ => rfl) hk t d]
  unfold Dat.fetched Dat.blockOf iblk; rw [A_eq]; try rfl
theorem before0_1 (c : Dev nD) (t : Fin cfg0.N) (d) : (dats m 0 c).before 1 t d = iblk m c 1 t := by
  have hk : ∀ t, (cfg0.win 1).cut (cfg0.grid.coords t) ((dats m 0 c).after 1 t) = (dats m 0 c).blockOf 1 t := fun t => by
    rw [after0_1]; unfold Dat.blockOf iblk; rw [A_eq]; try rfl
  rw [(dats m 0 c).before_in_eq_fetched 1 rfl (fun _ => rfl) (fun _ _ _ => rfl) hk t d]
  unfold Dat.fetched Dat.blockOf iblk; rw [A_eq]; try rfl
theorem before0_2 (c : Dev nD) (t : Fin cfg0.N) (d) : (dats m 0 c).before 2 t d = iblk m c 2 t := by
  have hk : ∀ t, (cfg0.win 2).cut (cfg0.grid.coords t) ((dats m 0 c).after 2 t) = (dats m 0 c).blockOf 2 t := fun t => by
    rw [after0_2]; unfold Dat.blockOf iblk; rw [A_eq]; try rfl
  rw [(dats m 0 c).before_in_eq_fetched 2 rfl (fun _ => rfl) (fun _ _ _ => rfl) hk t d]
  unfold Dat.fetched Dat.blockOf iblk; rw [A_eq]; try rfl
theorem before0_3 (c : Dev nD) (t : Fin cfg0.N) (d) : (dats m 0 c).before 3 t d = iblk m c 3 t := by
  have hk : ∀ t, (cfg0.win 3).cut (cfg0.grid.coords t) ((dats m 0 c).after 3 t) = (dats m 0 c).blockOf 3 t := fun t => by
    rw [after0_3]; unfold Dat.blockOf iblk; rw [A_eq]; try rfl
  rw [(dats m 0 c).before_in_eq_fetched 3 rfl (fun _ => rfl) (fun _ _ _ => rfl) hk t d]
  unfold Dat.fetched Dat.blockOf iblk; rw [A_eq]; try rfl
theorem before0_4 (c : Dev nD) (t : Fin cfg0.N) (d) : (dats m 0 c).before 4 t d = iblk m c 4 t := by
  have hk : ∀ t, (cfg0.win 4).cut (cfg0.grid.coords t) ((dats m 0 c).after 4 t) = (dats m 0 c).blockOf 4 t := fun t => by
    rw [after0_4]; unfold Dat.blockOf iblk; rw [A_eq]; try rfl
  rw [(dats m 0 c).before_in_eq_fetched 4 rfl (fun _ => rfl) (fun _ _ _ => rfl) hk t d]
  unfold Dat.fetched Dat.blockOf iblk; rw [A_eq]; try rfl

/-! ## The body's triple -/

/-- The one store is the whole buffer, so it covers it. -/
theorem cover5 (p : Vec F S128x1 .f32) (y : S128x1.Idx) :
    ∃ pc ∈ ([⟨r5, p⟩] : List (View.Piece (Elt F) S128x1 .f32)), y ∈ pc.1.set :=
  View.cover_of_tiled [⟨r5, p⟩] S128x1.size (by rfl) y

set_option maxHeartbeats 1000000 in
/-- The body on whole staging memrefs, the five inputs' at contents `x0 … x4` and the output's at anything, runs to the
    continuation with the inputs' as they were and the output's at `out5` of them: five loads of the inputs, one load of
    the output's buffer whose value nothing reads, and the one store of the payload over the whole output buffer. -/
theorem sound_kernel (c : Dev nD) (E : Set ℕ) (i : grid0.Coords) (arg1 : Memref sig .tc .vmem S128x32x128 .f32) (harg1 : arg1.IsWhole) (arg2 : Memref sig .tc .vmem S128x32x32 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S128x1 .f32) (harg6 : arg6.IsWhole)
    (x0 : Vec F S128x32x128 .f32) (x1 : Vec F S128x32x32 .f32) (x2 : Vec F S128x256 .f32) (x3 : Vec F S256x256 .f32) (x4 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc0__kcn_block_kernel i arg1 harg1 arg2 harg2 arg3 harg3 arg4 harg4 arg5 harg5 arg6 harg6) K := by
  simp only [cc0__kcn_block_kernel_eq_skeleton]; unfold cc0__kcn_block_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`: an array no window stages is among the buffers the region passes by, a staged
    input array is what the region found, and the region found each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.Kernel.Frm

end
-- ==== Proof.Spec.lean ====
/-
  The mathematics of the certificate, stated over the extended reals with no program in sight.

  A graph on 51200 nodes is given by 512000 directed edges (source row and target row of an integer table) with
  one weight each; the nodes come in 2048 consecutive groups of 25 (node `25·b + i` is node `i` of group `b`).
  Two formulas for a two-layer normalised graph convolution followed by a read-out at each group's first node:

  * the EDGE form: the weighted in-degree of a node is the sum of the weights of the edges that end there; an edge's
    coefficient is `dinv(source) · weight · dinv(target)` with `dinv = degree^(-1/2)` where the degree is positive
    and `0` elsewhere; a layer sends features `h` to `n ↦ Σ_{e → n} h(source e) · coefficient e`;

  * the BLOCK form: per group a dense 25 × 25 matrix `A b i j` collects the weights of the edges from node `i` to a
    node whose position in ITS group is `j`, its column sums are the degrees, the matrix is normalised on both
    sides, padded with zeros to 32 × 32, and a layer is a matrix product per group.

  The two agree when every edge stays inside one group and all numbers are finite (module `Agree`).
-/
import Idealize.ShloMosaic.PureOps.Ideal
import Idealize.ShloMosaic.Lib.ValueIdx

noncomputable section

namespace Cert.Graph

open Idealize.ShloMosaic Idealize.ShloMosaic.ValueIdx

abbrev SX : Shape := ⟨2, ![51200, 128]⟩
abbrev SE : Shape := ⟨1, ![512000]⟩
abbrev SW0 : Shape := ⟨2, ![128, 256]⟩
abbrev SW1 : Shape := ⟨2, ![256, 256]⟩
abbrev SWl : Shape := ⟨2, ![256, 1]⟩
abbrev SEI : Shape := ⟨2, ![2, 512000]⟩
abbrev SOut : Shape := ⟨2, ![2048, 1]⟩

/-- Every entry is a real number. -/
def IsReal {ι : Type} (f : ι → EReal) : Prop := ∀ i, ∃ r : ℝ, f i = (r : EReal)

/-- `max v 0`. -/
def relu (v : EReal) : EReal := max v 0

/-- `d ↦ d^(-1/2)` where `d > 0`, else `0`; the inner selection keeps the base of the power positive. The three
    constants are the words of `0`, `1` and `-1/2`. -/
def dinvOf (d : EReal) : EReal :=
  Scalar.select (Ideal.cmp .ogt d (Ideal.ofBits .f32 0x00000000#32))
    (Ideal.pow (Scalar.select (Ideal.cmp .ogt d (Ideal.ofBits .f32 0x00000000#32)) d (Ideal.ofBits .f32 0x3F800000#32))
      (Ideal.ofBits .f32 0xBF000000#32))
    (Ideal.ofBits .f32 0x00000000#32)

section
variable (x : SX.Idx → EReal) (w : SE.Idx → EReal) (W0 : SW0.Idx → EReal) (W1 : SW1.Idx → EReal)
  (Wl : SWl.Idx → EReal) (ei : IVec SEI 32)

/-- An edge's source node (the table's row 0), as a natural number. -/
def srcN (e : Fin 512000) : ℕ := (ei (ix2 (0 : Fin 2) e)).toNat
/-- An edge's target node (the table's row 1). -/
def tgtN (e : Fin 512000) : ℕ := (ei (ix2 (1 : Fin 2) e)).toNat

/-- The index table names nodes, and every edge joins two nodes of one group of 25. -/
structure EdgesOk : Prop where
  src_lt : ∀ e, srcN ei e < 51200
  tgt_lt : ∀ e, tgtN ei e < 51200
  same : ∀ e, srcN ei e / 25 = tgtN ei e / 25

def srcF (e : Fin 512000) : Fin 51200 := ⟨srcN ei e % 51200, Nat.mod_lt _ (by decide)⟩
def tgtF (e : Fin 512000) : Fin 51200 := ⟨tgtN ei e % 51200, Nat.mod_lt _ (by decide)⟩

/-- The group of a node and its position in the group. -/
def grp (n : Fin 51200) : Fin 2048 := ⟨n.val / 25, by have := n.isLt; omega⟩
def pos (n : Fin 51200) : Fin 25 := ⟨n.val % 25, Nat.mod_lt _ (by decide)⟩
/-- Node `i` of group `b`. -/
def node (b : Fin 2048) (i : Fin 25) : Fin 51200 := ⟨25 * b.val + i.val, by have := b.isLt; have := i.isLt; omega⟩

/-! ## The edge form -/

def degR (n : Fin 51200) : EReal := ∑ e ∈ Finset.univ.filter (fun e => tgtF ei e = n), w (ix1 e)
def dinvR (n : Fin 51200) : EReal := dinvOf (degR w ei n)
def normR (e : Fin 512000) : EReal := (dinvR w ei (srcF ei e) * w (ix1 e)) * dinvR w ei (tgtF ei e)
/-- One layer's aggregation of node features `h`. -/
def aggR (h : Fin 51200 → Fin 256 → EReal) (n : Fin 51200) (d : Fin 256) : EReal :=
  ∑ e ∈ Finset.univ.filter (fun e => tgtF ei e = n), h (srcF ei e) d * normR w ei e
def h0R (n : Fin 51200) (d : Fin 256) : EReal := ∑ k : Fin 128, x (ix2 n k) * W0 (ix2 k d)
def h1R (n : Fin 51200) (d : Fin 256) : EReal := relu (aggR w ei (h0R x W0) n d)
def h1pR (n : Fin 51200) (d : Fin 256) : EReal := ∑ k : Fin 256, h1R x w W0 ei n k * W1 (ix2 k d)
def h2R (n : Fin 51200) (d : Fin 256) : EReal := relu (aggR w ei (h1pR x w W0 W1 ei) n d)
def outR (b : Fin 2048) : EReal := ∑ d : Fin 256, h2R x w W0 W1 ei (node b 0) d * Wl (ix2 d (0 : Fin 1))
/-- The edge form's result array. -/
def GR : SOut.Idx → EReal := fun i => outR x w W0 W1 Wl ei (i 0)

/-! ## The block form -/

def AK (b : Fin 2048) (i j : Fin 25) : EReal :=
  ∑ e ∈ Finset.univ.filter (fun e => grp (srcF ei e) = b ∧ pos (srcF ei e) = i ∧ pos (tgtF ei e) = j), w (ix1 e)
def degK (b : Fin 2048) (j : Fin 25) : EReal := ∑ i : Fin 25, AK w ei b i j
def dinvK (b : Fin 2048) (j : Fin 25) : EReal := dinvOf (degK w ei b j)
def anorm (b : Fin 2048) (i j : Fin 25) : EReal := (dinvK w ei b i * AK w ei b i j) * dinvK w ei b j
/-- The normalised matrix padded with zeros to 32 × 32. -/
def anormP (b : Fin 2048) (i j : Fin 32) : EReal :=
  if h : i.val < 25 ∧ j.val < 25 then anorm w ei b ⟨i.val, h.1⟩ ⟨j.val, h.2⟩ else 0
/-- The features regrouped 2048 × 25 × 128 and padded with zero rows to 2048 × 32 × 128. -/
def xP (b : Fin 2048) (i : Fin 32) (k : Fin 128) : EReal :=
  if h : i.val < 25 then x (ix2 (node b ⟨i.val, h⟩) k) else 0
end

/-! ### The block form's layers, for any number `B` of groups (the whole array has 2048, one grid step sees 128) -/

section
variable {B : ℕ} (xp : Fin B → Fin 32 → Fin 128 → EReal) (ap : Fin B → Fin 32 → Fin 32 → EReal)
  (W0 : SW0.Idx → EReal) (W1 : SW1.Idx → EReal) (Wl : SWl.Idx → EReal)

/-- One layer's aggregation, per group: `Σ_i ap b i j · h b i d`. -/
def aggG (h : Fin B → Fin 32 → Fin 256 → EReal) (b : Fin B) (j : Fin 32) (d : Fin 256) : EReal :=
  ∑ i : Fin 32, ap b i j * h b i d
def h0G (b : Fin B) (i : Fin 32) (d : Fin 256) : EReal := ∑ k : Fin 128, xp b i k * W0 (ix2 k d)
def h1G (b : Fin B) (j : Fin 32) (d : Fin 256) : EReal := relu (aggG ap (h0G xp W0) b j d)
def h1pG (b : Fin B) (i : Fin 32) (d : Fin 256) : EReal := ∑ k : Fin 256, h1G xp ap W0 b i k * W1 (ix2 k d)
def h2G (b : Fin B) (j : Fin 32) (d : Fin 256) : EReal := relu (aggG ap (h1pG xp ap W0 W1) b j d)
def outG (b : Fin B) : EReal := ∑ d : Fin 256, h2G xp ap W0 W1 b (0 : Fin 32) d * Wl (ix2 d (0 : Fin 1))

/-- A group's result depends on that group's rows only. -/
theorem outG_congr {B' : ℕ} (xp' : Fin B' → Fin 32 → Fin 128 → EReal) (ap' : Fin B' → Fin 32 → Fin 32 → EReal)
    (b : Fin B) (b' : Fin B') (hx : xp b = xp' b') (ha : ap b = ap' b') :
    outG xp ap W0 W1 Wl b = outG xp' ap' W0 W1 Wl b' := by
  simp only [outG, h2G, aggG, h1pG, h1G, h0G, hx, ha]
end

/-- The block form's result array. -/
def GK (x : SX.Idx → EReal) (w : SE.Idx → EReal) (W0 : SW0.Idx → EReal) (W1 : SW1.Idx → EReal)
    (Wl : SWl.Idx → EReal) (ei : IVec SEI 32) : SOut.Idx → EReal :=
  fun i => outG (xP x) (anormP w ei) W0 W1 Wl (i 0)

end Cert.Graph

end
-- ==== Proof.KBody.lean ====
/-
  The kernel body's one stored value, read at an index: row `b` of the 128 × 1 block is the block form's read-out for
  group `b` of the 128 groups the grid step sees (matrix products as sums, format changes the identity, `max · 0`).
-/
import proofs.«406615_j56642028699847_1_alg».proof.Proof.Gen.KernelIdeal.Skeleton
import proofs.«406615_j56642028699847_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Graph

/-! ## A matrix product into the zero block, read at an entry -/

/-- `M × K` by `K × N` into zeros: the entry `(p, q)` is `Σ_k a(p, k) · c(k, q)`. -/
private theorem mm2 {M K N : ℕ} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (a : FVec Ideal ⟨2, ![M, K]⟩ φ₁) (c : FVec Ideal ⟨2, ![K, N]⟩ φ₂) (p : Fin M) (q : Fin N) :
    matmul D none a c (constant ⟨2, ![M, N]⟩ .f32 0x00000000#32) (ix2 p q) = ∑ k : Fin K, a (ix2 p k) * c (ix2 k q) := by
  obtain ⟨lc, rc, ln, rn, lb, rb, wf⟩ := D
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hlc : D.lhsContracting = [1] := by subst hD; rfl
  have hrc : D.rhsContracting = [0] := by subst hD; rfl
  have l0 : ∀ (j : (⟨2, ![M, N]⟩ : Shape).Idx) (k : D.contr.Idx), (D.lhsIdx j k 0).val = (j 0).val := by
    subst hD
    intro j k
    unfold DotDims.lhsIdx
    rw [dif_neg (by exact List.not_mem_nil), dif_pos (by exact List.mem_singleton.2 rfl)]
    rfl
  have r1 : ∀ (j : (⟨2, ![M, N]⟩ : Shape).Idx) (k : D.contr.Idx), (D.rhsIdx j k 1).val = (j 1).val := by
    subst hD
    intro j k
    unfold DotDims.rhsIdx
    rw [dif_neg (by exact List.not_mem_nil), dif_pos (by exact List.mem_singleton.2 rfl)]
    rfl
  have hr : D.contr.rank = 1 := by subst hD; rfl
  have hs : D.contr.size ⟨0, by omega⟩ = K := by subst hD; rfl
  refine (Ideal.matmul_constant_zero_apply D none a c (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact l0 _ _
    | ⟨1, _⟩ => exact (D.lhsIdx_val_of_single hlc _ _).trans hk)
  have er : D.rhsIdx (ix2 p q) ((contrEquiv1 D K hr hs).symm k) = ix2 k q := funext fun ax => Fin.ext (by
    match ax with
    | ⟨0, _⟩ => exact (D.rhsIdx_val_of_single hrc _ _).trans hk
    | ⟨1, _⟩ => exact r1 _ _)
  rw [el, er]

/-- A stack of products contracting the MIDDLE axis of both operands, into zeros: the entry `(b, j, d)` is
    `Σ_i a(b, i, j) · c(b, i, d)`. -/
private theorem bmm {B I J E : ℕ} {φ₁ φ₂ : FTy} (D : DotDims ⟨3, ![B, I, J]⟩ ⟨3, ![B, I, E]⟩ ⟨3, ![B, J, E]⟩)
    (hlc : D.lhsContracting = [1]) (hrc : D.rhsContracting = [1]) (hln : D.lhsNonContracting = [2])
    (hrn : D.rhsNonContracting = [2]) (hlb : D.lhsBatch = [0]) (hrb : D.rhsBatch = [0])
    (a : FVec Ideal ⟨3, ![B, I, J]⟩ φ₁) (c : FVec Ideal ⟨3, ![B, I, E]⟩ φ₂) (b : Fin B) (j : Fin J) (d : Fin E) :
    matmul D none a c (constant ⟨3, ![B, J, E]⟩ .f32 0x00000000#32) (ix3 b j d) = ∑ i : Fin I, a (ix3 b i j) * c (ix3 b i d) := by
  obtain ⟨lc, rc, ln, rn, lb, rb, wf⟩ := D
  dsimp only at hlc hrc hln hrn hlb hrb
  subst hlc hrc hln hrn hlb hrb
  generalize hD : (⟨[1], [1], [2], [2], [0], [0], wf⟩ : DotDims ⟨3, ![B, I, J]⟩ ⟨3, ![B, I, E]⟩ ⟨3, ![B, J, E]⟩) = D
  have hlc : D.lhsContracting = [1] := by subst hD; rfl
  have hrc : D.rhsContracting = [1] := by subst hD; rfl
  have n20 : (2 : Fin 3) ∉ [(0 : Fin 3)] := fun h => absurd (List.mem_singleton.1 h) (by decide)
  have l0 : ∀ (o : (⟨3, ![B, J, E]⟩ : Shape).Idx) (k : D.contr.Idx), (D.lhsIdx o k 0).val = (o 0).val := by
    subst hD
    intro o k
    unfold DotDims.lhsIdx
    rw [dif_pos (by exact List.mem_singleton.2 rfl)]
    rfl
  have l2 : ∀ (o : (⟨3, ![B, J, E]⟩ : Shape).Idx) (k : D.contr.Idx), (D.lhsIdx o k 2).val = (o 1).val := by
    subst hD
    intro o k
    unfold DotDims.lhsIdx
    rw [dif_neg (by exact n20), dif_pos (by exact List.mem_singleton.2 rfl)]
    rfl
  have r0 : ∀ (o : (⟨3, ![B, J, E]⟩ : Shape).Idx) (k : D.contr.Idx), (D.rhsIdx o k 0).val = (o 0).val := by
    subst hD
    intro o k
    unfold DotDims.rhsIdx
    rw [dif_pos (by exact List.mem_singleton.2 rfl)]
    rfl
  have r2 : ∀ (o : (⟨3, ![B, J, E]⟩ : Shape).Idx) (k : D.contr.Idx), (D.rhsIdx o k 2).val = (o 2).val := by
    subst hD
    intro o k
    unfold DotDims.rhsIdx
    rw [dif_neg (by exact n20), dif_pos (by exact List.mem_singleton.2 rfl)]
    rfl
  have hr : D.contr.rank = 1 := by subst hD; rfl
  have hs : D.contr.size ⟨0, by omega⟩ = I := by subst hD; rfl
  refine (Ideal.matmul_constant_zero_apply D none a c (ix3 b j d)).trans ?_
  rw [← Equiv.sum_comp (contrEquiv1 D I hr hs).symm]
  refine Finset.sum_congr rfl fun i _ => ?_
  have hi := contrEquiv1_symm_val D I hr hs i
  have el : D.lhsIdx (ix3 b j d) ((contrEquiv1 D I hr hs).symm i) = ix3 b i j := funext fun ax => Fin.ext (by
    match ax with
    | ⟨0, _⟩ => exact l0 _ _
    | ⟨1, _⟩ => exact (D.lhsIdx_val_of_single hlc _ _).trans hi
    | ⟨2, _⟩ => exact l2 _ _)
  have er : D.rhsIdx (ix3 b j d) ((contrEquiv1 D I hr hs).symm i) = ix3 b i d := funext fun ax => Fin.ext (by
    match ax with
    | ⟨0, _⟩ => exact r0 _ _
    | ⟨1, _⟩ => exact (D.rhsIdx_val_of_single hrc _ _).trans hi
    | ⟨2, _⟩ => exact r2 _ _)
  rw [el, er]

/-! ## The regroupings of rows, read at an entry -/

variable {α : Type}

/-- A cast to the same shape reads the same entry. -/
private theorem cast_same {s : Shape} (x : s.Idx → α) (h : s.ShapeCasts s) (j : s.Idx) : shapeCast s x h j = x j :=
  shapeCast_apply x h j j rfl

/-- `B × I × K` flattened to `R × K` (`R = B · I`): row `b · I + i` is row `i` of group `b`. -/
private theorem cast_flat {B I K R : ℕ} (x : (⟨3, ![B, I, K]⟩ : Shape).Idx → α)
    (h : (⟨3, ![B, I, K]⟩ : Shape).ShapeCasts ⟨2, ![R, K]⟩) (b : Fin B) (i : Fin I) (k : Fin K) (r : Fin R)
    (hr : r.val = b.val * I + i.val) : shapeCast ⟨2, ![R, K]⟩ x h (ix2 r k) = x (ix3 b i k) :=
  shapeCast_apply x h _ _ (by
    rw [Shape.rowMajor_val_three, Shape.rowMajor_val_two]
    show (b.val * I + i.val) * K + k.val = r.val * K + k.val
    rw [hr])

/-- `R × K` regrouped to `B × I × K`: row `i` of group `b` is row `b · I + i`. -/
private theorem cast_group {B I K R : ℕ} (y : (⟨2, ![R, K]⟩ : Shape).Idx → α)
    (h : (⟨2, ![R, K]⟩ : Shape).ShapeCasts ⟨3, ![B, I, K]⟩) (b : Fin B) (i : Fin I) (k : Fin K) (r : Fin R)
    (hr : r.val = b.val * I + i.val) : shapeCast ⟨3, ![B, I, K]⟩ y h (ix3 b i k) = y (ix2 r k) :=
  shapeCast_apply y h _ _ (by
    rw [Shape.rowMajor_val_three, Shape.rowMajor_val_two]
    show r.val * K + k.val = (b.val * I + i.val) * K + k.val
    rw [hr])

/-- `B × 1 × K` with the unit axis dropped. -/
private theorem cast_drop_mid {B K : ℕ} (x : (⟨3, ![B, 1, K]⟩ : Shape).Idx → α)
    (h : (⟨3, ![B, 1, K]⟩ : Shape).ShapeCasts ⟨2, ![B, K]⟩) (b : Fin B) (k : Fin K) :
    shapeCast ⟨2, ![B, K]⟩ x h (ix2 b k) = x (ix3 b (0 : Fin 1) k) :=
  shapeCast_apply x h _ _ (by
    rw [Shape.rowMajor_val_three, Shape.rowMajor_val_two]
    show (b.val * 1 + 0) * K + k.val = b.val * K + k.val
    rw [Nat.mul_one, Nat.add_zero])

/-! ## The kernel's stages, read at an entry -/

/-- Per-node features times a weight matrix: the 128 × 32 rows flattened, multiplied, regrouped. -/
private theorem feat_apply {K : ℕ} {φ₁ φ₂ : FTy} (D : DotDims ⟨2, ![4096, K]⟩ ⟨2, ![K, 256]⟩ ⟨2, ![4096, 256]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨3, ![128, 32, K]⟩ φ₁) (w : FVec Ideal ⟨2, ![K, 256]⟩ φ₂)
    (h1 : (⟨3, ![128, 32, K]⟩ : Shape).ShapeCasts ⟨2, ![4096, K]⟩)
    (h2 : (⟨2, ![4096, 256]⟩ : Shape).ShapeCasts ⟨3, ![128, 32, 256]⟩) (b : Fin 128) (i : Fin 32) (d : Fin 256) :
    shapeCast ⟨3, ![128, 32, 256]⟩
        (matmul D none (shapeCast ⟨2, ![4096, K]⟩ x h1) w (constant ⟨2, ![4096, 256]⟩ .f32 0x00000000#32)) h2 (ix3 b i d)
      = ∑ k : Fin K, x (ix3 b i k) * w (ix2 k d) := by
  have hlt : b.val * 32 + i.val < 4096 := by have := b.isLt; have := i.isLt; omega
  refine (cast_group _ h2 b i d ⟨b.val * 32 + i.val, hlt⟩ rfl).trans ?_
  refine (mm2 D hlc hrc hln hrn hlb hrb _ w _ d).trans ?_
  refine Finset.sum_congr rfl fun k _ => ?_
  rw [cast_flat x h1 b i k ⟨b.val * 32 + i.val, hlt⟩ rfl]

/-- One aggregation per group followed by `max · 0`. -/
private theorem agg_apply {φ₁ φ₂ : FTy} (D : DotDims ⟨3, ![128, 32, 32]⟩ ⟨3, ![128, 32, 256]⟩ ⟨3, ![128, 32, 256]⟩)
    (hlc : D.lhsContracting = [1]) (hrc : D.rhsContracting = [1]) (hln : D.lhsNonContracting = [2])
    (hrn : D.rhsNonContracting = [2]) (hlb : D.lhsBatch = [0]) (hrb : D.rhsBatch = [0])
    (a : FVec Ideal ⟨3, ![128, 32, 32]⟩ φ₁) (y : FVec Ideal ⟨3, ![128, 32, 256]⟩ φ₂) (b : Fin 128) (j : Fin 32) (d : Fin 256) :
    maximumf (matmul D none a y (constant ⟨3, ![128, 32, 256]⟩ .f32 0x00000000#32))
        (broadcast ⟨3, ![128, 32, 256]⟩ (Scalar.ofBits .f32 0x00000000#32)) (ix3 b j d)
      = relu (∑ i : Fin 32, a (ix3 b i j) * y (ix3 b i d)) := by
  show max (matmul D none a y (constant ⟨3, ![128, 32, 256]⟩ .f32 0x00000000#32) (ix3 b j d)) (Ideal.ofBits .f32 0x00000000#32) = _
  rw [bmm D hlc hrc hln hrn hlb hrb a y b j d, Ideal.ofBits_zero_f32]
  rfl

/-! ## The stored value -/

theorem pay_apply (v0 : Vec Ideal S128x32x128 .f32) (v3 : Vec Ideal S128x32x32 .f32) (v6 : Vec Ideal S128x256 .f32)
    (v8 : Vec Ideal S256x256 .f32) (v10 : Vec Ideal S256x1 .f32) (b : Fin 128) :
    k0_pay1 (F := Ideal) v0 v3 v6 v8 v10 (ix2 b (0 : Fin 1))
      = outG (fun b i k => v0 (ix3 b i k)) (fun b i j => v3 (ix3 b i j)) v6 v8 v10 b := by
  unfold k0_pay1
  unfold outG
  -- the read-out: row `b` of the last product
  refine (mm2 dot_S128x256_S256x1_S128x1_1_0_0_1_n_n rfl rfl rfl rfl rfl rfl _ _ b (0 : Fin 1)).trans ?_
  refine Finset.sum_congr rfl fun d _ => ?_
  refine congrArg₂ (· * ·) ?_ (truncf_apply (ψ := .bf16) v10 bitsLt_bf16_f32 _)
  refine (truncf_apply (ψ := .bf16) _ bitsLt_bf16_f32 _).trans ?_
  -- row 0 of each group of 32
  refine (cast_drop_mid _ shapeCasts_S128x1x256_S128x256 b d).trans ?_
  refine (slice3_axis1_apply 0 _ slices_S128x32x256_o0_0_0_S128x1x256 b (0 : Fin 1) d (0 : Fin 32) rfl).trans ?_
  -- the second aggregation
  refine (agg_apply dot_S128x32x32_S128x32x256_S128x32x256_1_1_2_2_0_0 rfl rfl rfl rfl rfl rfl _ _ b (0 : Fin 32) d).trans ?_
  unfold h2G aggG
  refine congrArg relu (Finset.sum_congr rfl fun i _ => ?_)
  refine congrArg₂ (· * ·) ((truncf_apply (ψ := .bf16) _ bitsLt_bf16_f32 _).trans (cast_same v3 _ _)) ?_
  refine (truncf_apply (ψ := .bf16) _ bitsLt_bf16_f32 _).trans ?_
  -- the second product with a weight matrix
  refine (feat_apply dot_S4096x256_S256x256_S4096x256_1_0_0_1_n_n rfl rfl rfl rfl rfl rfl _ _ _ _ b i d).trans ?_
  unfold h1pG
  refine Finset.sum_congr rfl fun k _ => ?_
  refine congrArg₂ (· * ·) ?_ (truncf_apply (ψ := .bf16) v8 bitsLt_bf16_f32 _)
  refine (truncf_apply (ψ := .bf16) _ bitsLt_bf16_f32 _).trans ?_
  -- the first aggregation
  refine (agg_apply dot_S128x32x32_S128x32x256_S128x32x256_1_1_2_2_0_0 rfl rfl rfl rfl rfl rfl _ _ b i k).trans ?_
  unfold h1G aggG
  refine congrArg relu (Finset.sum_congr rfl fun i' _ => ?_)
  refine congrArg₂ (· * ·) ((truncf_apply (ψ := .bf16) _ bitsLt_bf16_f32 _).trans (cast_same v3 _ _)) ?_
  refine (truncf_apply (ψ := .bf16) _ bitsLt_bf16_f32 _).trans ?_
  -- the first product with a weight matrix
  refine (feat_apply dot_S4096x128_S128x256_S4096x256_1_0_0_1_n_n rfl rfl rfl rfl rfl rfl _ _ _ _ b i' k).trans ?_
  unfold h0G
  refine Finset.sum_congr rfl fun k' _ => ?_
  exact congrArg₂ (· * ·) ((truncf_apply (ψ := .bf16) _ bitsLt_bf16_f32 _).trans (cast_same v0 _ _)) (truncf_apply (ψ := .bf16) v6 bitsLt_bf16_f32 _)

end Cert.KernelIdeal.Body

end
-- ==== Proof.KHostTerms.lean ====
/-
  The host operations before the kernel region, as pure terms of the argument arrays: the edge table's two rows; each
  endpoint's quotient and remainder by 25 (the group and the position in the group; the printed floor division and
  remainder carry sign corrections that never fire on node indices), negative indices wrapped; the three columns
  concatenated into the scatter's index array; the dense matrix scattered from the weights; its column sums, their
  power `-1/2` where positive, the matrix scaled by it on both sides and padded with zeros to 32 × 32; the features
  regrouped 2048 × 25 × 128 and padded with zero rows to 32.
-/
import proofs.«406615_j56642028699847_1_alg».proof.Proof.Gen.KernelIdeal.Launch
import proofs.«406615_j56642028699847_1_alg».proof.Proof.KEntry

noncomputable section

namespace Cert.KernelIdeal.Entry

open Idealize.ShloMosaic Idealize.ShloMosaic.TcCoe Idealize.SL.Sem Cert.KernelIdeal Cert.KernelIdeal.Gen

variable {F : FTy → Type} [FloatOps F]

/-- A scalar word splat over the edges. -/
abbrev splatE {w : Nat} (v : IVec S_ w) : IVec S512000 w := broadcastInDim S512000 ![] bcast_S_S512000 v

/-- Row 0 of the edge table: the sources. -/
def srcV (ei : IVec S2x512000 32) : IVec S512000 32 :=
  shapeCast S512000 (extractStridedSlice S1x512000 ![0, 0] ei slices_S2x512000_S1x512000_0_0) shapeCasts_S1x512000_S512000
/-- Row 1: the targets. -/
def tgtV (ei : IVec S2x512000 32) : IVec S512000 32 :=
  shapeCast S512000 (extractStridedSlice S1x512000 ![1, 0] ei slices_S2x512000_S1x512000_1_0) shapeCasts_S1x512000_S512000

/-- The printed floor division by 25: the truncated quotient, less one where the signs differ and the remainder is
    not zero. -/
def fdivV (v : IVec S512000 32) : IVec S512000 32 :=
  select
    (andi (cmpi .ne (signi v) (splatE (signi (id (constantI S_ 32 25#32)))))
      (cmpi .ne (Host.remsi v (splatE (id (constantI S_ 32 25#32)))) (splatE (constantI S_ 32 0#32))))
    (subi (Host.divsi v (splatE (id (constantI S_ 32 25#32)))) (splatE (constantI S_ 32 1#32)))
    (Host.divsi v (splatE (id (constantI S_ 32 25#32))))

/-- The divisor the printed remainder uses: 25, or 1 were it zero. -/
def remD : IVec S_ 32 :=
  select (cmpi .eq (id (constantI S_ 32 25#32)) (constantI S_ 32 0#32)) (constantI S_ 32 1#32) (id (constantI S_ 32 25#32))

/-- The printed remainder by 25: the truncated remainder, plus the divisor where its sign differs from the divisor's
    and it is not zero. -/
def remV (v : IVec S512000 32) : IVec S512000 32 :=
  select
    (andi (cmpi .ne (cmpi .slt (Host.remsi v (splatE remD)) (splatE (constantI S_ 32 0#32)))
        (splatE (cmpi .slt remD (constantI S_ 32 0#32))))
      (cmpi .ne (Host.remsi v (splatE remD)) (splatE (constantI S_ 32 0#32))))
    (addi (Host.remsi v (splatE remD)) (splatE remD))
    (Host.remsi v (splatE remD))

/-- A negative index counted from the end of an axis of extent `n`. -/
def wrapV (n : BitVec 32) (v : IVec S512000 32) : IVec S512000 32 :=
  select (cmpi .slt v (splatE (constantI S_ 32 0#32))) (addi v (splatE (constantI S_ 32 n))) v

/-- A vector of words as a column. -/
abbrev colE (v : IVec S512000 32) : IVec S512000x1 32 := broadcastInDim S512000x1 ![0] bcast_S512000_S512000x1_0 v

/-- The scatter's index array: per edge (group of the source, position of the source, position of the target). -/
def idxTerm (ei : IVec S2x512000 32) : IVec S512000x3 32 :=
  concatenate S512000x3 1
    [⟨S512000x1, colE (wrapV 2048#32 (fdivV (srcV ei)))⟩, ⟨S512000x1, colE (wrapV 25#32 (remV (srcV ei)))⟩,
     ⟨S512000x1, colE (wrapV 25#32 (remV (tgtV ei)))⟩]
    concatenates_S512000x1_S512000x1_S512000x1_S512000x3_d1

/-- The dense matrix: the weights scatter-added into zeros at the index array's cells. -/
def ATerm (w : FVec F S512000 .f32) (ei : IVec S2x512000 32) : FVec F S2048x25x25 .f32 :=
  Host.scatterAdd scatter_S2048x25x25_S512000x3_S512000_n_012_012_1
    (broadcastInDim S2048x25x25 ![] bcast_S_S2048x25x25 (constant S_ .f32 0x00000000#32)) (idxTerm ei) w

/-- The column sums of the dense matrix (over the source position). -/
def degTerm (A : FVec F S2048x25x25 .f32) : FVec F S2048x25 .f32 :=
  Host.reduceAdd A (constant S_ .f32 0x00000000#32) reducesTo_S2048x25x25_S2048x25_d1 h_S_

/-- `degree^(-1/2)` where the degree is positive, `0` elsewhere. -/
def dinvTerm (deg : FVec F S2048x25 .f32) : FVec F S2048x25 .f32 :=
  select (cmpf .ogt deg (broadcastInDim S2048x25 ![] bcast_S_S2048x25 (constant S_ .f32 0x00000000#32)))
    (Host.powf
      (select (cmpf .ogt deg (broadcastInDim S2048x25 ![] bcast_S_S2048x25 (constant S_ .f32 0x00000000#32))) deg
        (broadcastInDim S2048x25 ![] bcast_S_S2048x25 (id (constant S_ .f32 0x3F800000#32))))
      (broadcastInDim S2048x25 ![] bcast_S_S2048x25 (constant S_ .f32 0xBF000000#32)))
    (broadcastInDim S2048x25 ![] bcast_S_S2048x25 (id (constant S_ .f32 0x00000000#32)))

/-- The matrix scaled by `dinv` of its row index and of its column index. -/
def scaleTerm (A : FVec F S2048x25x25 .f32) (dinv : FVec F S2048x25 .f32) : FVec F S2048x25x25 .f32 :=
  mulf
    (mulf
      (broadcastInDim S2048x25x25 ![0, 1, 2] bcast_S2048x25x1_S2048x25x25_0_1_2
        (broadcastInDim S2048x25x1 ![0, 1] bcast_S2048x25_S2048x25x1_0_1 dinv)) A)
    (broadcastInDim S2048x25x25 ![0, 1, 2] bcast_S2048x1x25_S2048x25x25_0_1_2
      (broadcastInDim S2048x1x25 ![0, 2] bcast_S2048x25_S2048x1x25_0_2 dinv))

/-- The normalised matrix padded with zeros to 32 × 32. -/
def normTerm (A : FVec F S2048x25x25 .f32) : FVec F S2048x32x32 .f32 :=
  pad S2048x32x32 ![0, 0, 0] ![0, 7, 7] ![0, 0, 0] (scaleTerm A (dinvTerm (degTerm A)))
    (sitofp .f32 (constantI S_ 32 0#32)) pads_S2048x25x25_S2048x32x32_000_070_070 h_S_

def apTerm (w : FVec F S512000 .f32) (ei : IVec S2x512000 32) : FVec F S2048x32x32 .f32 := normTerm (ATerm w ei)

/-- The features regrouped and padded with zero rows. -/
def xpTerm (x : FVec F S51200x128 .f32) : FVec F S2048x32x128 .f32 :=
  pad S2048x32x128 ![0, 0, 0] ![0, 7, 0] ![0, 0, 0] (shapeCast S2048x25x128 x shapeCasts_S51200x128_S2048x25x128)
    (sitofp .f32 (constantI S_ 32 0#32)) pads_S2048x25x128_S2048x32x128_000_070_000 h_S_

/-- The concatenation of three arrays is a function of each of the three. -/
private theorem concatenate3_congr {α : Type} (t : Shape) (a : Fin t.rank) {s0 s1 s2 : Shape}
    {x0 x0' : s0.Idx → α} {x1 x1' : s1.Idx → α} {x2 x2' : s2.Idx → α}
    (h : Shape.Concatenates [s0, s1, s2] t a) (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

attribute [local congr] concatenate3_congr

variable (m : (ℓ : Loc nD τ sig) → Buf (Elt F) ℓ)

set_option maxRecDepth 8192 in
/-- The region finds the padded normalised matrix in `%43`. -/
theorem V_main_v43 (c : Dev nD) :
    V m c main_v43 = apTerm (m ((c : Thread nD τ).loc main_arg1)) (m ((c : Thread nD τ).loc main_arg5)) := by
  dsimp only [V]
  simp only [hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil,
    List.cons_append, List.nil_append]
  -- each buffer read holds its operation's value of the operands' buffers, down to the argument arrays
  after_results_simp
  -- the three columns of the index array, each at its own buffer
  dsimp only [Matrix.cons_val]
  after_results_simp
  -- a value moved to its buffer's type and back is the value
  simp only [StableHlo.TRef.toBuf, StableHlo.TRef.ofBuf, cast_eq]
  rfl

set_option maxRecDepth 8192 in
/-- The region finds the padded features in `%45`. -/
theorem V_main_v45 (c : Dev nD) : V m c main_v45 = xpTerm (m ((c : Thread nD τ).loc main_arg0)) := by
  dsimp only [V]
  simp only [hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil,
    List.cons_append, List.nil_append]
  after_results_simp
  rfl

end Cert.KernelIdeal.Entry

end
-- ==== Proof.KIndex.lean ====
/-
  The scatter's index array names, for every edge, the group of its source, the position of its source and the
  position of its target: on node indices (0 ≤ v < 51200) the printed floor division and remainder by 25 are the
  natural quotient and remainder, their sign corrections never fire and no negative index is wrapped. So the dense
  matrix's cell `(b, i, j)` holds the sum of the weights of the edges with exactly those three numbers.
-/
import proofs.«406615_j56642028699847_1_alg».proof.Proof.KHostTerms
import proofs.«406615_j56642028699847_1_alg».proof.Proof.Spec
import Idealize.ShloMosaic.PureOps.Ideal.Laws
import Idealize.ShloMosaic.Lib.ValueIdx
import Idealize.ShloMosaic.Lib.Pipeline.Value

noncomputable section

namespace Cert.KernelIdeal.Entry

open Idealize.ShloMosaic Idealize.ShloMosaic.ValueIdx Cert.KernelIdeal Cert.KernelIdeal.Gen Cert.Graph

/-! ### Words: a node index divided by 25 -/

/-- A word below 51200 has a clear sign bit. -/
private theorem msb_false_of_lt (v : BitVec 32) (hv : v.toNat < 51200) : v.msb = false := by
  rw [BitVec.msb_eq_decide]; simp; omega

private theorem msb25 : (25#32).msb = false := by decide

/-- The truncated signed quotient of a node index by 25 is the natural quotient. -/
private theorem sdiv25 (v : BitVec 32) (hv : v.toNat < 51200) : v.sdiv 25#32 = BitVec.ofNat 32 (v.toNat / 25) := by
  rw [BitVec.sdiv_eq, msb_false_of_lt v hv, msb25]
  apply BitVec.eq_of_toNat_eq
  simp
  omega

/-- The truncated signed remainder of a node index by 25 is the natural remainder. -/
private theorem srem25 (v : BitVec 32) (hv : v.toNat < 51200) : v.srem 25#32 = BitVec.ofNat 32 (v.toNat % 25) := by
  rw [BitVec.srem_eq, msb_false_of_lt v hv, msb25]
  apply BitVec.eq_of_toNat_eq
  simp
  omega

/-- Division by 25 is never at the signed division's corner. -/
private theorem not_corner25 (v : BitVec 32) : ¬ IntOp.SDivCorner v 25#32 := by
  rintro (h | ⟨_, h⟩) <;> exact absurd h (by decide)

private theorem divsi25 (v : BitVec 32) (hv : v.toNat < 51200) :
    IntOp.divsi .host v 25#32 = BitVec.ofNat 32 (v.toNat / 25) := by
  unfold IntOp.divsi
  rw [if_neg (not_corner25 v), sdiv25 v hv]

private theorem remsi25 (v : BitVec 32) (hv : v.toNat < 51200) :
    IntOp.remsi .host v 25#32 = BitVec.ofNat 32 (v.toNat % 25) := by
  unfold IntOp.remsi
  rw [if_neg (not_corner25 v), srem25 v hv]

/-- A small natural number's word is not negative. -/
private theorem slt_zero_ofNat (k : Nat) (hk : k < 2147483648) : IntOp.cmpi .slt (BitVec.ofNat 32 k) 0#32 = 0#1 := by
  have h : ¬ (BitVec.ofNat 32 k).toInt < (0#32).toInt := by
    rw [BitVec.toInt_eq_toNat_cond, BitVec.toNat_ofNat]
    simp only [BitVec.toInt_zero]
    split <;> omega
  unfold IntOp.cmpi
  simp only [BitVec.slt, decide_eq_false h]
  rfl

/-- The sign of a word: 0, -1 or 1. -/
private def sgnW (v : BitVec 32) : BitVec 32 := if v = 0 then 0 else if v.msb then -1 else 1

/-- The printed floor division by 25 at one word. -/
private def fdivW (v : BitVec 32) : BitVec 32 :=
  Scalar.select
    (IntOp.andi (IntOp.cmpi .ne (sgnW v) (sgnW 25#32)) (IntOp.cmpi .ne (IntOp.remsi .host v 25#32) 0#32))
    (IntOp.subi (IntOp.divsi .host v 25#32) 1#32) (IntOp.divsi .host v 25#32)

/-- On a node index the floor division's correction never fires: where the index is not zero its sign is the
    divisor's, and zero has remainder zero. -/
private theorem fdivW_eq (v : BitVec 32) (hv : v.toNat < 51200) : fdivW v = BitVec.ofNat 32 (v.toNat / 25) := by
  unfold fdivW
  rw [remsi25 v hv, divsi25 v hv]
  have hc : IntOp.andi (IntOp.cmpi .ne (sgnW v) (sgnW 25#32)) (IntOp.cmpi .ne (BitVec.ofNat 32 (v.toNat % 25)) 0#32) = 0#1 := by
    by_cases h0 : v = 0
    · subst h0; decide
    · have : sgnW v = sgnW 25#32 := by
        unfold sgnW
        rw [if_neg h0, msb_false_of_lt v hv]
        decide
      rw [this]
      have : IntOp.cmpi .ne (sgnW 25#32) (sgnW 25#32) = 0#1 := by decide
      rw [this]
      unfold IntOp.andi
      exact BitVec.zero_and
  rw [hc]
  exact select_zero _ _

/-- The printed remainder by 25 at one word. -/
private def remW (v : BitVec 32) : BitVec 32 :=
  Scalar.select
    (IntOp.andi (IntOp.cmpi .ne (IntOp.cmpi .slt (IntOp.remsi .host v 25#32) 0#32) (IntOp.cmpi .slt 25#32 0#32))
      (IntOp.cmpi .ne (IntOp.remsi .host v 25#32) 0#32))
    (IntOp.addi (IntOp.remsi .host v 25#32) 25#32) (IntOp.remsi .host v 25#32)

/-- On a node index the remainder is not negative, like the divisor: its correction never fires. -/
private theorem remW_eq (v : BitVec 32) (hv : v.toNat < 51200) : remW v = BitVec.ofNat 32 (v.toNat % 25) := by
  unfold remW
  rw [remsi25 v hv, slt_zero_ofNat _ (by omega)]
  have : IntOp.cmpi .ne (0#1) (IntOp.cmpi .slt 25#32 0#32) = 0#1 := by decide
  rw [this]
  unfold IntOp.andi
  rw [BitVec.zero_and]
  exact select_zero _ _

/-- A negative index counted from the end, at one word. -/
private def wrapW (n v : BitVec 32) : BitVec 32 := Scalar.select (IntOp.cmpi .slt v 0#32) (IntOp.addi v n) v

/-- A small natural number's word is not wrapped. -/
private theorem wrapW_ofNat (n : BitVec 32) (k : Nat) (hk : k < 2147483648) : wrapW n (BitVec.ofNat 32 k) = BitVec.ofNat 32 k := by
  unfold wrapW
  rw [slt_zero_ofNat k hk]
  exact select_zero _ _

/-! ### The vectors at one edge -/

private theorem fdivV_apply (v : IVec S512000 32) (i : S512000.Idx) : fdivV v i = fdivW (v i) := rfl
private theorem remD_apply (i : S_.Idx) : remD i = 25#32 := rfl
private theorem remV_apply (v : IVec S512000 32) (i : S512000.Idx) : remV v i = remW (v i) := rfl
private theorem wrapV_apply (n : BitVec 32) (v : IVec S512000 32) (i : S512000.Idx) : wrapV n v i = wrapW n (v i) := rfl

/-- Row 0 of the table at edge `e`. -/
private theorem srcV_apply (ei : IVec S2x512000 32) (e : Fin 512000) : srcV ei (ix1 e) = ei (ix2 (0 : Fin 2) e) := by
  unfold srcV
  rw [shapeCast_apply _ shapeCasts_S1x512000_S512000 (ix1 e) (ix2 (0 : Fin 1) e)
    (by rewrite [Shape.rowMajor_val_two, Shape.rowMajor_val_one]; show 0 * 512000 + e.val = e.val; omega)]
  exact extractStridedSlice_apply ![0, 0] ei slices_S2x512000_S1x512000_0_0 (ix2 (0 : Fin 1) e) (ix2 (0 : Fin 2) e)
    (fun a => match a with
      | ⟨0, _⟩ => by show 0 = 0 + 0; omega
      | ⟨1, _⟩ => by show e.val = 0 + e.val; omega)

/-- Row 1 of the table at edge `e`. -/
private theorem tgtV_apply (ei : IVec S2x512000 32) (e : Fin 512000) : tgtV ei (ix1 e) = ei (ix2 (1 : Fin 2) e) := by
  unfold tgtV
  rw [shapeCast_apply _ shapeCasts_S1x512000_S512000 (ix1 e) (ix2 (0 : Fin 1) e)
    (by rewrite [Shape.rowMajor_val_two, Shape.rowMajor_val_one]; show 0 * 512000 + e.val = e.val; omega)]
  exact extractStridedSlice_apply ![1, 0] ei slices_S2x512000_S1x512000_1_0 (ix2 (0 : Fin 1) e) (ix2 (1 : Fin 2) e)
    (fun a => match a with
      | ⟨0, _⟩ => by show 1 = 1 + 0; omega
      | ⟨1, _⟩ => by show e.val = 0 + e.val; omega)

/-- A column read at its row. -/
private theorem colE_apply (v : IVec S512000 32) (e : Fin 512000) : colE v (ix2 e (0 : Fin 1)) = v (ix1 e) := by
  exact broadcastInDim_apply _ bcast_S512000_S512000x1_0 v (ix2 e (0 : Fin 1)) (ix1 e) (fun a => match a with
    | ⟨0, _⟩ => by show e.val = if (512000 : Nat) = 1 then 0 else e.val; rw [if_neg (by decide)])

/-- Three columns laid side by side, read at column `c`. -/
private theorem concat3_apply (c0 c1 c2 : IVec S512000x1 32) (e : Fin 512000) (c : Fin 3) :
    concatenate S512000x3 1 [⟨S512000x1, c0⟩, ⟨S512000x1, c1⟩, ⟨S512000x1, c2⟩]
      concatenates_S512000x1_S512000x1_S512000x1_S512000x3_d1 (ix2 e c) = (![c0, c1, c2] c) (ix2 e (0 : Fin 1)) := by
  match c with
  | ⟨0, _⟩ =>
    exact concatenate_apply_piece (t := S512000x3) (1 : Fin 2) [⟨S512000x1, c0⟩, ⟨S512000x1, c1⟩, ⟨S512000x1, c2⟩]
      concatenates_S512000x1_S512000x1_S512000x1_S512000x3_d1 (ix2 e (0 : Fin 3))
      0 (by show 0 < 3; omega) S512000x1 c0 rfl rfl 0 rfl (ix2 e (0 : Fin 1))
      (fun b hb => match b, hb with
        | ⟨0, _⟩, _ => rfl
        | ⟨1, _⟩, hb => absurd rfl hb) rfl
  | ⟨1, _⟩ =>
    exact concatenate_apply_piece (t := S512000x3) (1 : Fin 2) [⟨S512000x1, c0⟩, ⟨S512000x1, c1⟩, ⟨S512000x1, c2⟩]
      concatenates_S512000x1_S512000x1_S512000x1_S512000x3_d1 (ix2 e (1 : Fin 3))
      1 (by show 1 < 3; omega) S512000x1 c1 rfl rfl 1 rfl (ix2 e (0 : Fin 1))
      (fun b hb => match b, hb with
        | ⟨0, _⟩, _ => rfl
        | ⟨1, _⟩, hb => absurd rfl hb) rfl
  | ⟨2, _⟩ =>
    exact concatenate_apply_piece (t := S512000x3) (1 : Fin 2) [⟨S512000x1, c0⟩, ⟨S512000x1, c1⟩, ⟨S512000x1, c2⟩]
      concatenates_S512000x1_S512000x1_S512000x1_S512000x3_d1 (ix2 e (2 : Fin 3))
      2 (by show 2 < 3; omega) S512000x1 c2 rfl rfl 2 rfl (ix2 e (0 : Fin 1))
      (fun b hb => match b, hb with
        | ⟨0, _⟩, _ => rfl
        | ⟨1, _⟩, hb => absurd rfl hb) rfl

/-- The index array's column `c` is the `c`-th of the three concatenated columns. -/
private theorem idxTerm_apply (ei : IVec S2x512000 32) (e : Fin 512000) (c : Fin 3) :
    idxTerm ei (ix2 e c) =
      (![wrapV 2048#32 (fdivV (srcV ei)), wrapV 25#32 (remV (srcV ei)), wrapV 25#32 (remV (tgtV ei))] c) (ix1 e) := by
  unfold idxTerm
  rw [concat3_apply]
  match c with
  | ⟨0, _⟩ => exact colE_apply (wrapV 2048#32 (fdivV (srcV ei))) e
  | ⟨1, _⟩ => exact colE_apply (wrapV 25#32 (remV (srcV ei))) e
  | ⟨2, _⟩ => exact colE_apply (wrapV 25#32 (remV (tgtV ei))) e

/-- Column 0 of the index array: the source's group. -/
theorem idxTerm_col0 (ei : IVec S2x512000 32) (he : EdgesOk ei) (e : Fin 512000) :
    idxTerm ei (ix2 e (0 : Fin 3)) = BitVec.ofNat 32 (srcN ei e / 25) := by
  have hs := he.src_lt e
  rw [idxTerm_apply]
  show wrapV 2048#32 (fdivV (srcV ei)) (ix1 e) = _
  rw [wrapV_apply, fdivV_apply, srcV_apply, fdivW_eq _ hs]
  exact wrapW_ofNat _ _ (by unfold srcN at hs; omega)

/-- Column 1: the source's position in its group. -/
theorem idxTerm_col1 (ei : IVec S2x512000 32) (he : EdgesOk ei) (e : Fin 512000) :
    idxTerm ei (ix2 e (1 : Fin 3)) = BitVec.ofNat 32 (srcN ei e % 25) := by
  have hs := he.src_lt e
  rw [idxTerm_apply]
  show wrapV 25#32 (remV (srcV ei)) (ix1 e) = _
  rw [wrapV_apply, remV_apply, srcV_apply, remW_eq _ hs]
  exact wrapW_ofNat _ _ (by unfold srcN at hs; omega)

/-- Column 2: the target's position in its group. -/
theorem idxTerm_col2 (ei : IVec S2x512000 32) (he : EdgesOk ei) (e : Fin 512000) :
    idxTerm ei (ix2 e (2 : Fin 3)) = BitVec.ofNat 32 (tgtN ei e % 25) := by
  have hs := he.tgt_lt e
  rw [idxTerm_apply]
  show wrapV 25#32 (remV (tgtV ei)) (ix1 e) = _
  rw [wrapV_apply, remV_apply, tgtV_apply, remW_eq _ hs]
  exact wrapW_ofNat _ _ (by unfold tgtN at hs; omega)

/-! ### The scatter: where an edge's weight lands -/

/-- The scatter's dimension numbers. -/
private abbrev dS : ScatterDims S2048x25x25 S512000x3 S512000 := scatter_S2048x25x25_S512000x3_S512000_n_012_012_1

/-- A small natural number's word read signed is the number. -/
private theorem toInt_ofNat_small (k : Nat) (hk : k < 2147483648) : (BitVec.ofNat 32 k).toInt = (k : Int) := by
  rw [BitVec.toInt_eq_toNat_cond, BitVec.toNat_ofNat]
  split <;> omega

/-- The start of edge `e`'s window on operand axis `a` is the index array's entry `(e, a)`, read signed. -/
private theorem start_eq (idx : IVec S512000x3 32) (e : Fin 512000) (a : Fin 3) :
    dS.start (ix1 e) idx a = (idx (ix2 e a)).toInt := by
  unfold ScatterDims.start
  have ha : a ∈ dS.scatterDimsToOperandDims := by
    exact (by decide : ∀ a : Fin 3, a ∈ ([0, 1, 2] : List (Fin 3))) a
  rw [dif_pos ha]
  congr 2
  funext b
  refine Fin.ext ?_
  match b with
  | ⟨0, _⟩ => rfl
  | ⟨1, _⟩ =>
    show List.idxOf a ([0, 1, 2] : List (Fin 3)) = a.val
    match a with
    | ⟨0, _⟩ => rfl
    | ⟨1, _⟩ => rfl
    | ⟨2, _⟩ => rfl

/-- All three operand axes are inserted: the window coordinate is 0. -/
private theorem window_eq (e : Fin 512000) (a : Fin 3) : dS.window (ix1 e) a = 0 := by
  unfold ScatterDims.window
  rw [dif_neg]
  exact (by decide : ∀ a : Fin 3, a ∉ (List.finRange 3).filter (· ∉ ([0, 1, 2] : List (Fin 3)))) a

/-- With the three entries the words of numbers inside the operand's extents, edge `e` lands at the cell they name. -/
private theorem resultIdx_iff (idx : IVec S512000x3 32) (e : Fin 512000) (q r t : Nat) (hq : q < 2048) (hr : r < 25)
    (ht : t < 25) (h0 : idx (ix2 e (0 : Fin 3)) = BitVec.ofNat 32 q) (h1 : idx (ix2 e (1 : Fin 3)) = BitVec.ofNat 32 r)
    (h2 : idx (ix2 e (2 : Fin 3)) = BitVec.ofNat 32 t) (b : Fin 2048) (i j : Fin 25) :
    dS.resultIdx? (ix1 e) idx = some (ix3 b i j) ↔ q = b.val ∧ r = i.val ∧ t = j.val := by
  have hs0 : dS.start (ix1 e) idx (0 : Fin 3) + (dS.window (ix1 e) (0 : Fin 3) : Int) = (q : Int) := by
    rw [start_eq, window_eq, h0, toInt_ofNat_small q (by omega)]; simp
  have hs1 : dS.start (ix1 e) idx (1 : Fin 3) + (dS.window (ix1 e) (1 : Fin 3) : Int) = (r : Int) := by
    rw [start_eq, window_eq, h1, toInt_ofNat_small r (by omega)]; simp
  have hs2 : dS.start (ix1 e) idx (2 : Fin 3) + (dS.window (ix1 e) (2 : Fin 3) : Int) = (t : Int) := by
    rw [start_eq, window_eq, h2, toInt_ofNat_small t (by omega)]; simp
  have H : ∀ a : Fin 3, 0 ≤ dS.start (ix1 e) idx a + (dS.window (ix1 e) a : Int) ∧
      dS.start (ix1 e) idx a + (dS.window (ix1 e) a : Int) < (S2048x25x25.size a : Int) := by
    intro a
    match a with
    | ⟨0, _⟩ =>
      show 0 ≤ dS.start (ix1 e) idx (0 : Fin 3) + (dS.window (ix1 e) (0 : Fin 3) : Int) ∧
        dS.start (ix1 e) idx (0 : Fin 3) + (dS.window (ix1 e) (0 : Fin 3) : Int) < ((2048 : Nat) : Int)
      rw [hs0]; omega
    | ⟨1, _⟩ =>
      show 0 ≤ dS.start (ix1 e) idx (1 : Fin 3) + (dS.window (ix1 e) (1 : Fin 3) : Int) ∧
        dS.start (ix1 e) idx (1 : Fin 3) + (dS.window (ix1 e) (1 : Fin 3) : Int) < ((25 : Nat) : Int)
      rw [hs1]; omega
    | ⟨2, _⟩ =>
      show 0 ≤ dS.start (ix1 e) idx (2 : Fin 3) + (dS.window (ix1 e) (2 : Fin 3) : Int) ∧
        dS.start (ix1 e) idx (2 : Fin 3) + (dS.window (ix1 e) (2 : Fin 3) : Int) < ((25 : Nat) : Int)
      rw [hs2]; omega
  unfold ScatterDims.resultIdx?
  rw [dif_pos H, Option.some.injEq]
  constructor
  · intro h
    have e0 : (dS.start (ix1 e) idx (0 : Fin 3) + (dS.window (ix1 e) (0 : Fin 3) : Int)).toNat = b.val :=
      congrArg Fin.val (congrFun h (0 : Fin 3))
    have e1 : (dS.start (ix1 e) idx (1 : Fin 3) + (dS.window (ix1 e) (1 : Fin 3) : Int)).toNat = i.val :=
      congrArg Fin.val (congrFun h (1 : Fin 3))
    have e2 : (dS.start (ix1 e) idx (2 : Fin 3) + (dS.window (ix1 e) (2 : Fin 3) : Int)).toNat = j.val :=
      congrArg Fin.val (congrFun h (2 : Fin 3))
    rw [hs0] at e0; rw [hs1] at e1; rw [hs2] at e2
    omega
  · rintro ⟨hb, hi, hj⟩
    funext a
    refine Fin.ext ?_
    match a with
    | ⟨0, _⟩ =>
      show (dS.start (ix1 e) idx (0 : Fin 3) + (dS.window (ix1 e) (0 : Fin 3) : Int)).toNat = b.val
      rw [hs0]; omega
    | ⟨1, _⟩ =>
      show (dS.start (ix1 e) idx (1 : Fin 3) + (dS.window (ix1 e) (1 : Fin 3) : Int)).toNat = i.val
      rw [hs1]; omega
    | ⟨2, _⟩ =>
      show (dS.start (ix1 e) idx (2 : Fin 3) + (dS.window (ix1 e) (2 : Fin 3) : Int)).toNat = j.val
      rw [hs2]; omega

/-- An edge as an index of the weights' array. -/
private def edgeEquiv : Fin 512000 ≃ S512000.Idx where
  toFun e := ix1 e
  invFun j := j 0
  left_inv _ := rfl
  right_inv j := (eq_ix1 j).symm

/-- The dense matrix, cell by cell. -/
theorem ATerm_apply (w : FVec Ideal S512000 .f32) (ei : IVec S2x512000 32) (he : EdgesOk ei) (b : Fin 2048)
    (i j : Fin 25) : ATerm (F := Ideal) w ei (ix3 b i j) = AK w ei b i j := by
  have hidx : ∀ e : Fin 512000, dS.resultIdx? (ix1 e) (idxTerm ei) = some (ix3 b i j) ↔
      (grp (srcF ei e) = b ∧ pos (srcF ei e) = i ∧ pos (tgtF ei e) = j) := by
    intro e
    have hs := he.src_lt e
    have ht := he.tgt_lt e
    rw [resultIdx_iff (idxTerm ei) e (srcN ei e / 25) (srcN ei e % 25) (tgtN ei e % 25) (by omega)
      (Nat.mod_lt _ (by decide)) (Nat.mod_lt _ (by decide)) (idxTerm_col0 ei he e) (idxTerm_col1 ei he e)
      (idxTerm_col2 ei he e) b i j]
    simp only [grp, pos, srcF, tgtF, Fin.ext_iff]
    rw [Nat.mod_eq_of_lt hs, Nat.mod_eq_of_lt ht]
  have hz : broadcastInDim S2048x25x25 ![] bcast_S_S2048x25x25 (constant (F := Ideal) S_ .f32 0x00000000#32) (ix3 b i j)
      = (0 : EReal) := by
    show Ideal.ofBits .f32 0x00000000#32 = 0
    exact Ideal.ofBits_zero_f32
  show Ideal.hostScatterAdd dS
    (broadcastInDim S2048x25x25 ![] bcast_S_S2048x25x25 (constant (F := Ideal) S_ .f32 0x00000000#32)) (idxTerm ei) w
    (ix3 b i j) = _
  unfold Ideal.hostScatterAdd AK
  rw [hz, zero_add, Finset.sum_filter, Finset.sum_filter, ← Equiv.sum_comp edgeEquiv]
  refine Finset.sum_congr rfl (fun e _ => ?_)
  exact if_congr (hidx e) rfl rfl

end Cert.KernelIdeal.Entry

end
-- ==== Proof.KNorm.lean ====
/-
  From the dense matrix to the padded normalised one, index by index: the column sum over the source position, its
  power `-1/2` where positive, the product with the row's and the column's factor, zeros outside 25 × 25; and the
  features regrouped (row `25·b + i` is row `i` of group `b`) with zero rows 25 … 31.
-/
import proofs.«406615_j56642028699847_1_alg».proof.Proof.KHostTerms
import proofs.«406615_j56642028699847_1_alg».proof.Proof.KIndex
import proofs.«406615_j56642028699847_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Entry

open Idealize.ShloMosaic Idealize.ShloMosaic.ValueIdx Cert.KernelIdeal Cert.KernelIdeal.Gen Cert.Graph

/-- The power `-1/2` where positive, entry by entry. -/
theorem dinvTerm_apply (deg : FVec Ideal S2048x25 .f32) (i : S2048x25.Idx) :
    dinvTerm (F := Ideal) deg i = dinvOf (deg i) := rfl

/-- The column sum over the source position. -/
theorem degTerm_apply (A : FVec Ideal S2048x25x25 .f32) (b : Fin 2048) (j : Fin 25) :
    degTerm (F := Ideal) A (ix2 b j) = ∑ i' : Fin 25, A (ix3 b i' j) := by
  have h : S2048x25x25.Reduces [1] S2048x25 := by decide
  show Ideal.hostReduceAdd reducesTo_S2048x25x25_S2048x25_d1 A (Ideal.ofBits .f32 0x00000000#32) (ix2 b j) = _
  rw [Ideal.hostReduceAdd_single reducesTo_S2048x25x25_S2048x25_d1 h, Ideal.ofBits_zero_f32, zero_add]
  refine Finset.sum_congr rfl fun k _ => ?_
  refine congrArg A (funext fun a => Fin.ext ?_)
  match a with
  | ⟨0, _⟩ => rfl
  | ⟨1, _⟩ => rfl
  | ⟨2, _⟩ => rfl

/-- The matrix scaled on both sides, entry by entry. -/
theorem scaleTerm_apply (A : FVec Ideal S2048x25x25 .f32) (d : FVec Ideal S2048x25 .f32) (b : Fin 2048) (i j : Fin 25) :
    scaleTerm (F := Ideal) A d (ix3 b i j) = (d (ix2 b i) * A (ix3 b i j)) * d (ix2 b j) := by
  unfold scaleTerm
  rw [mulf_apply, mulf_apply]
  have e1 : broadcastInDim S2048x25x25 ![0, 1, 2] bcast_S2048x25x1_S2048x25x25_0_1_2
        (broadcastInDim S2048x25x1 ![0, 1] bcast_S2048x25_S2048x25x1_0_1 d) (ix3 b i j) = d (ix2 b i) := by
    refine (broadcastInDim_apply _ _ _ (ix3 b i j) (ix3 b i (0 : Fin 1)) (fun a => ?_)).trans ?_
    · match a with
      | ⟨0, _⟩ => rfl
      | ⟨1, _⟩ => rfl
      | ⟨2, _⟩ => rfl
    · refine broadcastInDim_apply _ _ _ (ix3 b i (0 : Fin 1)) (ix2 b i) (fun a => ?_)
      match a with
      | ⟨0, _⟩ => rfl
      | ⟨1, _⟩ => rfl
  have e2 : broadcastInDim S2048x25x25 ![0, 1, 2] bcast_S2048x1x25_S2048x25x25_0_1_2
        (broadcastInDim S2048x1x25 ![0, 2] bcast_S2048x25_S2048x1x25_0_2 d) (ix3 b i j) = d (ix2 b j) := by
    refine (broadcastInDim_apply _ _ _ (ix3 b i j) (ix3 b (0 : Fin 1) j) (fun a => ?_)).trans ?_
    · match a with
      | ⟨0, _⟩ => rfl
      | ⟨1, _⟩ => rfl
      | ⟨2, _⟩ => rfl
    · refine broadcastInDim_apply _ _ _ (ix3 b (0 : Fin 1) j) (ix2 b j) (fun a => ?_)
      match a with
      | ⟨0, _⟩ => rfl
      | ⟨1, _⟩ => rfl
  rw [e1, e2]

/-- The padding value: the integer zero as an extended real. -/
theorem padValue_eq_zero :
    (sitofp (F := Ideal) .f32 (constantI S_ 32 0#32) : FVec Ideal S_ .f32) (Shape.Idx.first h_S_) = 0 := by
  show (((0#32 : BitVec 32).toInt : ℝ) : EReal) = 0
  simp

/-- The padded normalised matrix of ANY dense matrix `A`, at an index. -/
theorem normTerm_apply (A : FVec Ideal S2048x25x25 .f32) (b : Fin 2048) (i j : Fin 32) :
    normTerm (F := Ideal) A (ix3 b i j)
      = if h : i.val < 25 ∧ j.val < 25 then
          (dinvOf (∑ i' : Fin 25, A (ix3 b i' ⟨i.val, h.1⟩)) * A (ix3 b ⟨i.val, h.1⟩ ⟨j.val, h.2⟩))
            * dinvOf (∑ i' : Fin 25, A (ix3 b i' ⟨j.val, h.2⟩))
        else 0 := by
  unfold normTerm
  by_cases h : i.val < 25 ∧ j.val < 25
  · rw [dif_pos h]
    refine (pad_apply_of_inside _ _ _ _ _ pads_S2048x25x25_S2048x32x32_000_070_070 h_S_ (ix3 b i j)
      (ix3 b ⟨i.val, h.1⟩ ⟨j.val, h.2⟩) (fun a => ?_)).trans ?_
    · match a with
      | ⟨0, _⟩ => show b.val = 0 + b.val * (0 + 1); omega
      | ⟨1, _⟩ => show i.val = 0 + i.val * (0 + 1); omega
      | ⟨2, _⟩ => show j.val = 0 + j.val * (0 + 1); omega
    · rw [scaleTerm_apply, dinvTerm_apply, dinvTerm_apply, degTerm_apply, degTerm_apply]
  · rw [dif_neg h]
    by_cases hi : i.val < 25
    · have hj : ¬ j.val < 25 := fun hj => h ⟨hi, hj⟩
      refine (pad_apply_of_not_inside _ _ _ _ _ pads_S2048x25x25_S2048x32x32_000_070_070 h_S_ (ix3 b i j)
        (2 : Fin 3) ?_).trans padValue_eq_zero
      show ¬ (0 ≤ j.val ∧ (j.val - 0) % (0 + 1) = 0 ∧ (j.val - 0) / (0 + 1) < 25)
      omega
    · refine (pad_apply_of_not_inside _ _ _ _ _ pads_S2048x25x25_S2048x32x32_000_070_070 h_S_ (ix3 b i j)
        (1 : Fin 3) ?_).trans padValue_eq_zero
      show ¬ (0 ≤ i.val ∧ (i.val - 0) % (0 + 1) = 0 ∧ (i.val - 0) / (0 + 1) < 25)
      omega

/-- The padded features at an index. -/
theorem xpTerm_apply (x : FVec Ideal S51200x128 .f32) (b : Fin 2048) (i : Fin 32) (k : Fin 128) :
    xpTerm (F := Ideal) x (ix3 b i k) = xP x b i k := by
  unfold xpTerm xP
  by_cases h : i.val < 25
  · rw [dif_pos h]
    refine (pad_apply_of_inside _ _ _ _ _ pads_S2048x25x128_S2048x32x128_000_070_000 h_S_ (ix3 b i k)
      (ix3 b ⟨i.val, h⟩ k) (fun a => ?_)).trans ?_
    · match a with
      | ⟨0, _⟩ => show b.val = 0 + b.val * (0 + 1); omega
      | ⟨1, _⟩ => show i.val = 0 + i.val * (0 + 1); omega
      | ⟨2, _⟩ => show k.val = 0 + k.val * (0 + 1); omega
    · refine shapeCast_apply _ _ (ix3 b ⟨i.val, h⟩ k) (ix2 (node b ⟨i.val, h⟩) k) ?_
      rw [Shape.rowMajor_val_two, Shape.rowMajor_val_three]
      show (25 * b.val + i.val) * 128 + k.val = (b.val * 25 + i.val) * 128 + k.val
      omega
  · rw [dif_neg h]
    refine (pad_apply_of_not_inside _ _ _ _ _ pads_S2048x25x128_S2048x32x128_000_070_000 h_S_ (ix3 b i k)
      (1 : Fin 3) ?_).trans padValue_eq_zero
    show ¬ (0 ≤ i.val ∧ (i.val - 0) % (0 + 1) = 0 ∧ (i.val - 0) / (0 + 1) < 25)
    omega

theorem apTerm_eq (w : FVec Ideal S512000 .f32) (ei : IVec S2x512000 32) (he : EdgesOk ei) :
    apTerm (F := Ideal) w ei = fun j => anormP w ei (j 0) (j 1) (j 2) := by
  funext j
  obtain ⟨b, i, k, rfl⟩ : ∃ (b : Fin 2048) (i k : Fin 32), j = ix3 b i k := ⟨j 0, j 1, j 2, eq_ix3 j⟩
  show normTerm (F := Ideal) (ATerm w ei) (ix3 b i k) = anormP w ei b i k
  rw [normTerm_apply]
  unfold anormP anorm dinvK degK
  by_cases h : i.val < 25 ∧ k.val < 25
  · rw [dif_pos h, dif_pos h]
    simp only [ATerm_apply w ei he]
  · rw [dif_neg h, dif_neg h]

theorem xpTerm_eq (x : FVec Ideal S51200x128 .f32) :
    xpTerm (F := Ideal) x = fun j => xP x (j 0) (j 1) (j 2) := by
  funext j
  obtain ⟨b, i, k, rfl⟩ : ∃ (b : Fin 2048) (i : Fin 32) (k : Fin 128), j = ix3 b i k := ⟨j 0, j 1, j 2, eq_ix3 j⟩
  exact xpTerm_apply x b i k

end Cert.KernelIdeal.Entry

end
-- ==== Proof.KValue.lean ====
/-
  The kernel program's result array. Each grid step `t` writes rows `128·t … 128·t + 127` of the 2048 × 1 result from
  groups `128·t …` of the padded features and of the padded normalised matrices and from the three weight matrices
  whole; a group's row is the block form's read-out for that group, so the result array is the block form `GK`.
-/
import proofs.«406615_j56642028699847_1_alg».proof.Proof.KFrame
import proofs.«406615_j56642028699847_1_alg».proof.Proof.KBody
import proofs.«406615_j56642028699847_1_alg».proof.Proof.KHostTerms
import proofs.«406615_j56642028699847_1_alg».proof.Proof.KNorm
import proofs.«406615_j56642028699847_1_alg».proof.Proof.Spec
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Entry Cert.KernelIdeal.Frm Cert.Graph

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The windows' block indices at grid point `t`: the two batched inputs and the result move with `t` on their first
    axis, the three weight matrices stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The padded features' block at point `t` is groups `128·t … 128·t + 127` of the array. -/
theorem iblk0_apply (c : Dev nD) (t : Fin cfg0.N) (x : S128x32x128.Idx) (k : S2048x32x128.Idx)
    (hk0 : (k 0).val = 128 * t.val + (x 0).val) (hk1 : (k 1).val = (x 1).val) (hk2 : (k 2).val = (x 2).val) :
    (iblk m c 0 t : Vec Ideal S128x32x128 .f32) x = (V m c main_v45 : S2048x32x128.Idx → Elt Ideal .f32) k := by
  obtain ⟨e0, e1, e2, -⟩ := idx_facts t
  unfold iblk
  rw [View.read_apply]
  show V m c main_v45 _ = V m c main_v45 _
  congr 1
  funext a
  apply Fin.ext
  match a with
  | ⟨0, _⟩ => show win0_0.index t 0 * 128 + 1 * (x 0).val = (k 0).val; rw [e0, hk0]; omega
  | ⟨1, _⟩ => show win0_0.index t 1 * 32 + 1 * (x 1).val = (k 1).val; rw [e1, hk1]; omega
  | ⟨2, _⟩ => show win0_0.index t 2 * 128 + 1 * (x 2).val = (k 2).val; rw [e2, hk2]; omega

/-- The padded normalised matrices' block at point `t` is groups `128·t … 128·t + 127` of the array. -/
theorem iblk1_apply (c : Dev nD) (t : Fin cfg0.N) (x : S128x32x32.Idx) (k : S2048x32x32.Idx)
    (hk0 : (k 0).val = 128 * t.val + (x 0).val) (hk1 : (k 1).val = (x 1).val) (hk2 : (k 2).val = (x 2).val) :
    (iblk m c 1 t : Vec Ideal S128x32x32 .f32) x = (V m c main_v43 : S2048x32x32.Idx → Elt Ideal .f32) k := by
  obtain ⟨-, -, -, e0, e1, e2, -⟩ := idx_facts t
  unfold iblk
  rw [View.read_apply]
  show V m c main_v43 _ = V m c main_v43 _
  congr 1
  funext a
  apply Fin.ext
  match a with
  | ⟨0, _⟩ => show win0_1.index t 0 * 128 + 1 * (x 0).val = (k 0).val; rw [e0, hk0]; omega
  | ⟨1, _⟩ => show win0_1.index t 1 * 32 + 1 * (x 1).val = (k 1).val; rw [e1, hk1]; omega
  | ⟨2, _⟩ => show win0_1.index t 2 * 32 + 1 * (x 2).val = (k 2).val; rw [e2, hk2]; omega

/-- Each weight matrix's block is the whole matrix at every point. -/
theorem iblk2_eq (c : Dev nD) (t : Fin cfg0.N) :
    (iblk m c 2 t : Vec Ideal S128x256 .f32) = (V m c main_arg2 : S128x256.Idx → Elt Ideal .f32) := by
  obtain ⟨-, -, -, -, -, -, e0, e1, -⟩ := idx_facts t
  funext x
  unfold iblk
  rw [View.read_apply]
  show V m c main_arg2 _ = V m c main_arg2 _
  congr 1
  funext a
  apply Fin.ext
  match a with
  | ⟨0, _⟩ => show win0_2.index t 0 * 128 + 1 * (x 0).val = (x 0).val; rw [e0]; omega
  | ⟨1, _⟩ => show win0_2.index t 1 * 256 + 1 * (x 1).val = (x 1).val; rw [e1]; omega
theorem iblk3_eq (c : Dev nD) (t : Fin cfg0.N) :
    (iblk m c 3 t : Vec Ideal S256x256 .f32) = (V m c main_arg3 : S256x256.Idx → Elt Ideal .f32) := by
  obtain ⟨-, -, -, -, -, -, -, -, e0, e1, -⟩ := idx_facts t
  funext x
  unfold iblk
  rw [View.read_apply]
  show V m c main_arg3 _ = V m c main_arg3 _
  congr 1
  funext a
  apply Fin.ext
  match a with
  | ⟨0, _⟩ => show win0_3.index t 0 * 256 + 1 * (x 0).val = (x 0).val; rw [e0]; omega
  | ⟨1, _⟩ => show win0_3.index t 1 * 256 + 1 * (x 1).val = (x 1).val; rw [e1]; omega
theorem iblk4_eq (c : Dev nD) (t : Fin cfg0.N) :
    (iblk m c 4 t : Vec Ideal S256x1 .f32) = (V m c main_arg4 : S256x1.Idx → Elt Ideal .f32) := by
  obtain ⟨-, -, -, -, -, -, -, -, -, -, e0, e1, -⟩ := idx_facts t
  funext x
  unfold iblk
  rw [View.read_apply]
  show V m c main_arg4 _ = V m c main_arg4 _
  congr 1
  funext a
  apply Fin.ext
  match a with
  | ⟨0, _⟩ => show win0_4.index t 0 * 256 + 1 * (x 0).val = (x 0).val; rw [e0]; omega
  | ⟨1, _⟩ => show win0_4.index t 1 * 1 + 1 * (x 1).val = (x 1).val; rw [e1]; omega

/-- No grid point is past the sixteenth. -/
theorem t_lt : ∀ t : Fin cfg0.N, t.val < 16 := (by decide +kernel : ∀ t : Fin grid0.N, t.val < 16)

/-- Row `i` of group `p` of the features' block at point `t` is row `i` of group `128·t + p` of the padded features. -/
theorem rows0 (c : Dev nD) (t : Fin cfg0.N) (p : Fin 128) (i : Fin 32) (k : Fin 128) :
    (iblk m c 0 t : Vec Ideal S128x32x128 .f32) (ix3 p i k)
      = xP (m ((c.tc : Thread nD τ).loc main_arg0)) ⟨128 * t.val + p.val, by have := t_lt t; omega⟩ i k := by
  rw [iblk0_apply m c t (ix3 p i k) (ix3 ⟨128 * t.val + p.val, by have := t_lt t; omega⟩ i k) rfl rfl rfl, V_main_v45, xpTerm_eq]

/-- Row `i` of group `p` of the matrices' block at point `t` is row `i` of the padded normalised matrix of group `128·t + p`. -/
theorem rows1 (c : Dev nD) (he : EdgesOk (m ((c.tc : Thread nD τ).loc main_arg5))) (t : Fin cfg0.N) (p : Fin 128) (i j : Fin 32) :
    (iblk m c 1 t : Vec Ideal S128x32x32 .f32) (ix3 p i j)
      = anormP (m ((c.tc : Thread nD τ).loc main_arg1)) (m ((c.tc : Thread nD τ).loc main_arg5))
          ⟨128 * t.val + p.val, by have := t_lt t; omega⟩ i j := by
  rw [iblk1_apply m c t (ix3 p i j) (ix3 ⟨128 * t.val + p.val, by have := t_lt t; omega⟩ i j) rfl rfl rfl, V_main_v43, apTerm_eq _ _ he]

/-- One grid step's payload at row `y`, from blocks whose groups are groups `128·t …` of the padded arrays, is the block
    form's read-out of group `128·t + y`. -/
theorem pay_row (X : SX.Idx → EReal) (w : SE.Idx → EReal) (ei : IVec SEI 32)
    (x0 : Vec Ideal S128x32x128 .f32) (x1 : Vec Ideal S128x32x32 .f32) (x2 : Vec Ideal S128x256 .f32)
    (x3 : Vec Ideal S256x256 .f32) (x4 : Vec Ideal S256x1 .f32) (t : ℕ) (ht : t < 16)
    (h0 : ∀ (p : Fin 128) (i : Fin 32) (k : Fin 128), x0 (ix3 p i k) = xP X ⟨128 * t + p.val, by omega⟩ i k)
    (h1 : ∀ (p : Fin 128) (i j : Fin 32), x1 (ix3 p i j) = anormP w ei ⟨128 * t + p.val, by omega⟩ i j)
    (y : S128x1.Idx) (b : Fin 2048) (hb : b.val = 128 * t + (y 0).val) :
    k0_pay1 (F := Ideal) x0 x1 x2 x3 x4 y = outG (xP X) (anormP w ei) x2 x3 x4 b := by
  obtain ⟨p, q, rfl⟩ : ∃ p q, y = ix2 p q := ⟨y 0, y 1, eq_ix2 y⟩
  obtain rfl : q = 0 := Subsingleton.elim _ _
  have hlt : 128 * t + p.val < 2048 := by clear hb; omega
  obtain rfl : b = ⟨128 * t + p.val, hlt⟩ := Fin.ext hb
  rw [Body.pay_apply]
  exact outG_congr _ _ _ _ _ _ _ p _ (funext fun i => funext fun k => h0 p i k) (funext fun i => funext fun j => h1 p i j)

/-- What point `t` writes back is block `t` of the block form of the argument arrays. -/
theorem flushed_eq (c : Dev nD) (he : EdgesOk (m ((c.tc : Thread nD τ).loc main_arg5))) (t : Fin cfg0.N) :
    (dats m 0 c).flushed 5 t = ((cfg0.win 5).blk t).view.read (Elt Ideal)
      (GK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  show (cfg0.win 5).cut (grid0.coords t) ((dats m 0 c).after 5 t) = _
  rw [after0_5]
  unfold out5
  rw [View.canon_unit_zero hz2]
  simp only [View.ld_unit_zero (S := S128x32x128) hz3, View.ld_unit_zero (S := S128x32x32) hz3,
    View.ld_unit_zero (S := S128x256) hz2, View.ld_unit_zero (S := S256x256) hz2, View.ld_unit_zero (S := S256x1) hz2]
  rw [iblk2_eq, iblk3_eq, iblk4_eq, V_main_arg2, V_main_arg3, V_main_arg4]
  obtain ⟨-, -, -, -, -, -, -, -, -, -, -, -, e0, e1⟩ := idx_facts t
  funext y
  refine pay_row _ _ _ _ _ _ _ _ t.val (t_lt t) (rows0 m c t) (rows1 m c he t) y _ ?_
  show win0_5.index t (0 : Fin 2) * 128 + 1 * (y 0).val = 128 * t.val + (y 0).val
  rw [e0]; omega

/-- An index of the result array is in point `t`'s block iff each coordinate is in the block's range on its axis. -/
theorem mem_blk (t : Fin cfg0.N) (i : S2048x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v46).slice (win0_5.rect t)).set ↔ _
  rw [View.set_slice_whole, Rect.mem_set_unit]
  exact Iff.rfl

/-- Every block of rows of the result is some point's. -/
theorem idx_onto : ∀ q : Fin 16, ∃ t : Fin cfg0.N, win0_5.index t = ![q.val, 0] :=
  (by decide +kernel : ∀ q : Fin 16, ∃ t : Fin grid0.N, win0_5.index t = ![q.val, 0])

/-- Row `r` of the result is written back by point `r / 128`. -/
theorem cover (i : S2048x1.Idx) : ∃ t : Fin cfg0.N, (cfg0.win 5).flush t = true ∧ i ∈ ((cfg0.win 5).blk t).view.set := by
  have hi0 : (i 0).val < 2048 := (i 0).isLt
  have hi1 : (i 1).val < 1 := (i 1).isLt
  obtain ⟨t, ht⟩ := idx_onto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1 ≤ (i 1).val ∧ (i 1).val < win0_5.index t (1 : Fin 2) * 1 + 1; omega

/-- The result array after the run is the block form of the argument arrays. -/
theorem final5 (c : Dev nD) (he : EdgesOk (m ((c.tc : Thread nD τ).loc main_arg5))) :
    (dats m 0 c).arrAt 5 cfg0.N
      = GK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (dats m 0 c).arrAt_eq_of_cover 5 _ (fun t _ => flushed_eq m c he t) cover

/-- The kernel program runs to its end with the result at the block form and the arguments unchanged. -/
theorem run (he : ∀ c : Dev nD, EdgesOk (m ((c.tc : Thread nD τ).loc main_arg5))) :
    θ_run defs (onTc (τ := τ) (main (F := Ideal))) ⟨m, fun _ => 0, ρ⟩ (fun r => ∀ c : Dev nD,
      r.2.mem ((c.tc : Thread nD τ).loc main_v46)
        = GK (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 5).trans (final5 m c (he c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.KValue

end
-- ==== Proof.RefNorm.lean ====
/-
  The reference's edge coefficients. Its weighted in-degree is a scatter-add of the weights at the target indices: at
  node `n` the sum of the weights of the edges ending there; `dinv` is `degree^(-1/2)` where positive and `0`
  elsewhere; an edge's coefficient gathers `dinv` at its two ends around its weight.
-/
import proofs.«406615_j56642028699847_1_alg».proof.Proof.Gen.ReferenceIdeal.Read
import proofs.«406615_j56642028699847_1_alg».proof.Proof.Spec

noncomputable section

namespace Cert.ReferenceIdeal.RefValue

open Idealize.ShloMosaic Idealize.ShloMosaic.ValueIdx Cert.ReferenceIdeal Cert.ReferenceIdeal.Gen Cert.ReferenceIdeal.Read Cert.Graph

/-- A 32-bit word below 51200 is its own value read signed. -/
private theorem toInt_of_lt (v : BitVec 32) (h : v.toNat < 51200) : v.toInt = (v.toNat : Int) :=
  BitVec.toInt_eq_toNat_of_lt (by omega)

/-- Such a word is not below zero read signed. -/
private theorem slt_zero_of_lt (v : BitVec 32) (h : v.toNat < 51200) : IntOp.cmpi .slt v 0#32 = 0#1 := by
  have h1 := toInt_of_lt v h
  have : v.slt 0#32 = false := by
    rw [BitVec.slt_eq_decide]
    simp only [BitVec.toInt_zero, decide_eq_false_iff_not, not_lt]
    omega
  show BitVec.ofBool (v.slt 0#32) = 0#1
  rw [this]; rfl

/-- Row 1 of the table, broadcast to a column, read at an edge. -/
private theorem v5_at (x5 : (⟨S2x512000, .i32⟩ : BufTy).Contents (Elt Ideal)) (j : S512000x1.Idx) :
    val_main_v5 (F := Ideal) x5 j = x5 (ix2 (1 : Fin 2) (j 0)) := by
  rw [val_main_v5_apply, val_main_v3_apply, val_main_v2_apply]
  congr 1
  funext a
  match a with
  | ⟨0, _⟩ => rfl
  | ⟨1, _⟩ => exact Fin.ext (Nat.mod_eq_of_lt (j 0).isLt)

/-- Where an update lands: update `e` of the degree scatter, its index word reading `t` signed, lands at node `t`. -/
private theorem scatter_lands (idx : IVec S512000x1 32) (e : Fin 512000) (t : Fin 51200)
    (h : (idx (ix2 e (0 : Fin 1))).toInt = (t.val : Int)) :
    scatter_S51200_S512000x1_S512000_n_0_0_1.resultIdx? (ix1 e) idx = some (ix1 t) := by
  have hs : ∀ a, scatter_S51200_S512000x1_S512000_n_0_0_1.start (ix1 e) idx a = (t.val : Int) := by
    intro a
    obtain rfl : a = 0 := Subsingleton.elim _ _
    unfold ScatterDims.start
    rw [dif_pos (show (0 : Fin 1) ∈ scatter_S51200_S512000x1_S512000_n_0_0_1.scatterDimsToOperandDims from
      List.mem_singleton.mpr rfl)]
    have hsi : scatter_S51200_S512000x1_S512000_n_0_0_1.siIdx (ix1 e)
        ⟨List.idxOf (0 : Fin 1) scatter_S51200_S512000x1_S512000_n_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    exact h
  have hw : ∀ a, scatter_S51200_S512000x1_S512000_n_0_0_1.window (ix1 e) a = 0 := by
    intro a
    obtain rfl : a = 0 := Subsingleton.elim _ _
    unfold ScatterDims.window
    rw [dif_neg (by decide)]
  unfold ScatterDims.resultIdx?
  have hall : ∀ a, 0 ≤ scatter_S51200_S512000x1_S512000_n_0_0_1.start (ix1 e) idx a + scatter_S51200_S512000x1_S512000_n_0_0_1.window (ix1 e) a ∧
      scatter_S51200_S512000x1_S512000_n_0_0_1.start (ix1 e) idx a + scatter_S51200_S512000x1_S512000_n_0_0_1.window (ix1 e) a < S51200.size a := by
    intro a
    rw [hs a, hw a]
    obtain rfl : a = 0 := Subsingleton.elim _ _
    have := t.isLt
    show 0 ≤ (t.val : Int) + ((0 : Nat) : Int) ∧ (t.val : Int) + ((0 : Nat) : Int) < ((51200 : Nat) : Int)
    omega
  rw [dif_pos hall]
  congr 1
  funext a
  obtain rfl : a = 0 := Subsingleton.elim _ _
  refine Fin.ext ?_
  show (scatter_S51200_S512000x1_S512000_n_0_0_1.start (ix1 e) idx 0 + scatter_S51200_S512000x1_S512000_n_0_0_1.window (ix1 e) 0).toNat = t.val
  rw [hs, hw]
  omega

/-- The edges as the indices of the weight vector. -/
private def edgeEquiv : Fin 512000 ≃ S512000.Idx where
  toFun e := ix1 e
  invFun j := j 0
  left_inv _ := rfl
  right_inv j := (eq_ix1 j).symm

private theorem ix1_inj {n : Nat} {a b : Fin n} (h : (ix1 a : (⟨1, ![n]⟩ : Shape).Idx) = ix1 b) : a = b :=
  congrFun h 0

/-- Under `EdgesOk` the target word of an edge reads, signed, the edge's target node. -/
private theorem tgt_toInt (x5 : (⟨S2x512000, .i32⟩ : BufTy).Contents (Elt Ideal)) (he : EdgesOk x5) (e : Fin 512000) :
    (x5 (ix2 (1 : Fin 2) e)).toInt = ((tgtF x5 e).val : Int) := by
  have h := he.tgt_lt e
  unfold tgtN at h
  rw [toInt_of_lt _ h]
  show ((x5 (ix2 (1 : Fin 2) e)).toNat : Int) = (((x5 (ix2 (1 : Fin 2) e)).toNat % 51200 : Nat) : Int)
  rw [Nat.mod_eq_of_lt h]

theorem deg_eq (x1 : (⟨S512000, .f32⟩ : BufTy).Contents (Elt Ideal)) (x5 : (⟨S2x512000, .i32⟩ : BufTy).Contents (Elt Ideal))
    (he : EdgesOk x5) (n : Fin 51200) : val_main_v6 (F := Ideal) x1 x5 (ix1 n) = degR x1 x5 n := by
  have hland : ∀ e : Fin 512000,
      scatter_S51200_S512000x1_S512000_n_0_0_1.resultIdx? (ix1 e) (val_main_v5 (F := Ideal) x5) = some (ix1 (tgtF x5 e)) := by
    intro e
    refine scatter_lands _ e _ ?_
    rw [v5_at]
    exact tgt_toInt x5 he e
  show Ideal.hostScatterAdd scatter_S51200_S512000x1_S512000_n_0_0_1 (val_main_v4 (F := Ideal)) (val_main_v5 (F := Ideal) x5) x1 (ix1 n) = _
  unfold Ideal.hostScatterAdd degR
  rw [val_main_v4_apply, val_main_cst_apply]
  show Ideal.ofBits .f32 0x00000000#32 + _ = _
  rw [Ideal.ofBits_zero_f32, zero_add]
  refine (Finset.sum_equiv edgeEquiv ?_ ?_).symm
  · intro e
    simp only [Finset.mem_filter, Finset.mem_univ, true_and]
    show tgtF x5 e = n ↔ scatter_S51200_S512000x1_S512000_n_0_0_1.resultIdx? (ix1 e) (val_main_v5 (F := Ideal) x5) = some (ix1 n)
    rw [hland e]
    constructor
    · intro h; rw [h]
    · intro h; exact ix1_inj (Option.some.inj h)
  · intro e _
    rfl

theorem dinv_eq (x1 : (⟨S512000, .f32⟩ : BufTy).Contents (Elt Ideal)) (x5 : (⟨S2x512000, .i32⟩ : BufTy).Contents (Elt Ideal))
    (he : EdgesOk x5) (n : Fin 51200) : val_main_v14 (F := Ideal) x1 x5 (ix1 n) = dinvR x1 x5 n := by
  rw [val_main_v14_apply, val_main_v8_apply, val_main_v13_apply, val_main_v11_apply, val_main_v10_apply,
    val_main_v7_apply, val_main_cst_0_apply, val_main_v9_apply, val_main_cst_1_apply,
    val_main_call0_v1_apply, val_main_call0_v0_apply, val_main_cst_2_apply,
    val_main_v12_apply, val_main_cst_3_apply,
    val_main_call1_v1_apply, val_main_call1_v0_apply, val_main_cst_4_apply,
    deg_eq x1 x5 he n]
  rfl

/-- Row 0 of the table read at an edge. -/
private theorem v1_at (x5 : (⟨S2x512000, .i32⟩ : BufTy).Contents (Elt Ideal)) (i : S512000.Idx) :
    val_main_v1 (F := Ideal) x5 i = x5 (ix2 (0 : Fin 2) (i 0)) := by
  rw [val_main_v1_apply, val_main_v0_apply]
  congr 1
  funext a
  match a with
  | ⟨0, _⟩ => rfl
  | ⟨1, _⟩ => exact Fin.ext (Nat.mod_eq_of_lt (i 0).isLt)

/-- Row 1 of the table read at an edge. -/
private theorem v3_at (x5 : (⟨S2x512000, .i32⟩ : BufTy).Contents (Elt Ideal)) (i : S512000.Idx) :
    val_main_v3 (F := Ideal) x5 i = x5 (ix2 (1 : Fin 2) (i 0)) := by
  rw [val_main_v3_apply, val_main_v2_apply]
  congr 1
  funext a
  match a with
  | ⟨0, _⟩ => rfl
  | ⟨1, _⟩ => exact Fin.ext (Nat.mod_eq_of_lt (i 0).isLt)

/-- The wrapped source column at an edge is the source word: it is not negative. -/
private theorem v20_at (x5 : (⟨S2x512000, .i32⟩ : BufTy).Contents (Elt Ideal)) (he : EdgesOk x5) (e : Fin 512000) :
    val_main_v20 (F := Ideal) x5 (ix2 e (0 : Fin 1)) = x5 (ix2 (0 : Fin 2) e) := by
  have h := he.src_lt e
  unfold srcN at h
  rw [val_main_v20_apply, val_main_v19_apply, val_main_v16_apply, val_main_v15_apply, val_main_c_apply, v1_at]
  show Scalar.select (IntOp.cmpi .slt (x5 (ix2 (0 : Fin 2) e)) 0#32) _ _ = _
  rw [slt_zero_of_lt _ h, select_zero]
  rfl

/-- The wrapped target column at an edge is the target word. -/
private theorem v28_at (x5 : (⟨S2x512000, .i32⟩ : BufTy).Contents (Elt Ideal)) (he : EdgesOk x5) (e : Fin 512000) :
    val_main_v28 (F := Ideal) x5 (ix2 e (0 : Fin 1)) = x5 (ix2 (1 : Fin 2) e) := by
  have h := he.tgt_lt e
  unfold tgtN at h
  rw [val_main_v28_apply, val_main_v27_apply, val_main_v24_apply, val_main_v23_apply, val_main_c_6_apply, v3_at]
  show Scalar.select (IntOp.cmpi .slt (x5 (ix2 (1 : Fin 2) e)) 0#32) _ _ = _
  rw [slt_zero_of_lt _ h, select_zero]
  rfl

/-- Under `EdgesOk` the source word of an edge reads, signed, the edge's source node. -/
private theorem src_toInt (x5 : (⟨S2x512000, .i32⟩ : BufTy).Contents (Elt Ideal)) (he : EdgesOk x5) (e : Fin 512000) :
    (x5 (ix2 (0 : Fin 2) e)).toInt = ((srcF x5 e).val : Int) := by
  have h := he.src_lt e
  unfold srcN at h
  rw [toInt_of_lt _ h]
  show ((x5 (ix2 (0 : Fin 2) e)).toNat : Int) = (((x5 (ix2 (0 : Fin 2) e)).toNat % 51200 : Nat) : Int)
  rw [Nat.mod_eq_of_lt h]

/-- Which node a gather reads: result `e`, its index word reading `t` signed, reads node `t` (no clamp binds). -/
private theorem gather_reads (idx : IVec S512000x1 32) (e : Fin 512000) (t : Fin 51200)
    (h : (idx (ix2 e (0 : Fin 1))).toInt = (t.val : Int)) :
    gather_S51200_S512000x1_S512000_n_0_n_n_0_1_1.operandIdx (ix1 e) idx = ix1 t := by
  funext a
  obtain rfl : a = 0 := Subsingleton.elim _ _
  refine Fin.ext ?_
  show gather_S51200_S512000x1_S512000_n_0_n_n_0_1_1.start (ix1 e) idx 0
    + gather_S51200_S512000x1_S512000_n_0_n_n_0_1_1.batchCoord (ix1 e) 0
    + gather_S51200_S512000x1_S512000_n_0_n_n_0_1_1.offCoord (ix1 e) 0 = t.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S51200_S512000x1_S512000_n_0_n_n_0_1_1.startIndexMap from
    List.mem_singleton.mpr rfl)]
  have hsi : gather_S51200_S512000x1_S512000_n_0_n_n_0_1_1.siIdx (ix1 e)
      ⟨List.idxOf (0 : Fin 1) gather_S51200_S512000x1_S512000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  have ht := t.isLt
  show min (idx (ix2 e (0 : Fin 1))).toInt.toNat (51200 - 1) = t.val
  rw [h]
  omega

theorem norm_eq (x1 : (⟨S512000, .f32⟩ : BufTy).Contents (Elt Ideal)) (x5 : (⟨S2x512000, .i32⟩ : BufTy).Contents (Elt Ideal))
    (he : EdgesOk x5) (e : Fin 512000) : val_main_v30 (F := Ideal) x1 x5 (ix1 e) = normR x1 x5 e := by
  have hsrc : val_main_v21 (F := Ideal) x1 x5 (ix1 e) = dinvR x1 x5 (srcF x5 e) := by
    show val_main_v14 (F := Ideal) x1 x5
      (gather_S51200_S512000x1_S512000_n_0_n_n_0_1_1.operandIdx (ix1 e) (val_main_v20 (F := Ideal) x5)) = _
    rw [gather_reads _ e (srcF x5 e) (by rw [v20_at x5 he e]; exact src_toInt x5 he e)]
    exact dinv_eq x1 x5 he _
  have htgt : val_main_v29 (F := Ideal) x1 x5 (ix1 e) = dinvR x1 x5 (tgtF x5 e) := by
    show val_main_v14 (F := Ideal) x1 x5
      (gather_S51200_S512000x1_S512000_n_0_n_n_0_1_1.operandIdx (ix1 e) (val_main_v28 (F := Ideal) x5)) = _
    rw [gather_reads _ e (tgtF x5 e) (by rw [v28_at x5 he e]; exact tgt_toInt x5 he e)]
    exact dinv_eq x1 x5 he _
  rw [val_main_v30_apply, val_main_v22_apply, hsrc, htgt]
  rfl

end Cert.ReferenceIdeal.RefValue

end
-- ==== Proof.RefLayers.lean ====
/-
  The reference's two layers and read-out. A layer multiplies the features by a weight matrix, gathers the rows at
  the edges' sources, scales each by the edge's coefficient and scatter-adds them at the targets: at node `n` and
  feature `d` the sum over the edges ending at `n`. After `max · 0` twice, the rows of the groups' first nodes are
  multiplied by the read-out column.
-/
import proofs.«406615_j56642028699847_1_alg».proof.Proof.Gen.ReferenceIdeal.Read
import proofs.«406615_j56642028699847_1_alg».proof.Proof.Spec
import proofs.«406615_j56642028699847_1_alg».proof.Proof.RefNorm

noncomputable section

namespace Cert.ReferenceIdeal.RefValue

open Idealize.ShloMosaic Idealize.ShloMosaic.ValueIdx Cert.ReferenceIdeal Cert.ReferenceIdeal.Gen Cert.ReferenceIdeal.Read Cert.Graph

namespace Layers

/-- A word below 51200 read as a signed integer is its natural number. -/
theorem toInt_small (v : BitVec 32) (hv : v.toNat < 51200) : v.toInt = (v.toNat : Int) := by
  have e := BitVec.toInt_eq_toNat_cond v
  omega

/-- Such a word is not below zero as a signed integer. -/
theorem not_slt_zero (v : BitVec 32) (hv : v.toNat < 51200) : IntOp.cmpi .slt v 0#32 = 0#1 := by
  unfold IntOp.cmpi
  have e := toInt_small v hv
  have : v.slt 0#32 = false := by
    rw [BitVec.slt, e]; simp
  rw [this]; rfl

abbrev dS := scatter_S51200x256_S512000x1_S512000x256_1_0_0_1
abbrev dG := gather_S51200x256_S512000x1_S512000x256_1_0_n_n_0_1_1256

theorem dS_siIdx (j : S512000x256.Idx) (c : Fin dS.scatterDimsToOperandDims.length) :
    dS.siIdx j c = (ix2 (j 0) (0 : Fin 1) : S512000x1.Idx) := by
  funext b; refine Fin.ext ?_
  match b with
  | ⟨0, _⟩ => rfl
  | ⟨1, _⟩ =>
    have := c.isLt
    show c.val = 0
    simp [dS, scatter_S51200x256_S512000x1_S512000x256_1_0_0_1] at this
    omega

theorem dS_start0 (j : S512000x256.Idx) (idx : IVec S512000x1 32) :
    dS.start j idx 0 = (idx (ix2 (j 0) (0 : Fin 1))).toInt := by
  unfold ScatterDims.start
  rw [dif_pos (show (0 : Fin S51200x256.rank) ∈ dS.scatterDimsToOperandDims by decide), dS_siIdx]

theorem dS_start1 (j : S512000x256.Idx) (idx : IVec S512000x1 32) :
    dS.start j idx 1 = 0 := by
  unfold ScatterDims.start
  rw [dif_neg (show ¬ (1 : Fin S51200x256.rank) ∈ dS.scatterDimsToOperandDims by decide)]

theorem dS_window0 (j : S512000x256.Idx) : dS.window j 0 = 0 := by
  unfold ScatterDims.window
  rw [dif_neg (show ¬ (0 : Fin S51200x256.rank) ∈ dS.sKept by decide)]

theorem dS_window1 (j : S512000x256.Idx) : dS.window j 1 = (j 1).val := by
  unfold ScatterDims.window
  rw [dif_pos (show (1 : Fin S51200x256.rank) ∈ dS.sKept by decide)]
  rfl

/-- The update at `(e, d')` of an edge whose target word reads as the node `t` lands at `(t, d')`: inside the array, so it is
    not dropped. -/
theorem dS_resultIdx (idx : IVec S512000x1 32) (j : S512000x256.Idx) (t : Fin 51200)
    (ht : (idx (ix2 (j 0) (0 : Fin 1))).toInt = (t.val : Int)) :
    dS.resultIdx? j idx = some (ix2 t (j 1)) := by
  unfold ScatterDims.resultIdx?
  have hj := (j 1).isLt
  have ht' := t.isLt
  rw [dif_pos (by
    intro a
    match a with
    | ⟨0, _⟩ =>
      show 0 ≤ dS.start j idx 0 + dS.window j 0 ∧ dS.start j idx 0 + dS.window j 0 < (51200 : Nat)
      rw [dS_start0, dS_window0, ht]; omega
    | ⟨1, _⟩ =>
      show 0 ≤ dS.start j idx 1 + dS.window j 1 ∧ dS.start j idx 1 + dS.window j 1 < (256 : Nat)
      rw [dS_start1, dS_window1]
      have : (j 1).val < 256 := hj
      omega)]
  congr 1
  funext a; refine Fin.ext ?_
  match a with
  | ⟨0, _⟩ =>
    show (dS.start j idx 0 + dS.window j 0).toNat = t.val
    rw [dS_start0, dS_window0, ht]; omega
  | ⟨1, _⟩ =>
    show (dS.start j idx 1 + dS.window j 1).toNat = (j 1).val
    rw [dS_start1, dS_window1]; omega

theorem dG_siIdx (j : S512000x256.Idx) (c : Fin dG.startIndexMap.length) :
    dG.siIdx j c = (ix2 (j 0) (0 : Fin 1) : S512000x1.Idx) := by
  funext b; refine Fin.ext ?_
  match b with
  | ⟨0, _⟩ => rfl
  | ⟨1, _⟩ =>
    have := c.isLt
    show c.val = 0
    simp [dG, gather_S51200x256_S512000x1_S512000x256_1_0_n_n_0_1_1256] at this
    omega

/-- The gathered array at `(e, d')` is the operand at the row the edge's source word names (no clamp binds) and
    column `d'`. -/
theorem dG_apply {α : Type} (h : S51200x256.Idx → α) (idx : IVec S512000x1 32) (j : S512000x256.Idx) (s : Fin 51200)
    (hs : (idx (ix2 (j 0) (0 : Fin 1))).toInt = (s.val : Int)) :
    Host.gather dG h idx j = h (ix2 s (j 1)) := by
  unfold Host.gather
  congr 1
  funext a; refine Fin.ext ?_
  have hs' := s.isLt
  match a with
  | ⟨0, _⟩ =>
    show dG.start j idx 0 + dG.batchCoord j 0 + dG.offCoord j 0 = s.val
    rw [GatherDims.batchCoord_eq_zero _ _ _ List.not_mem_nil,
      GatherDims.offCoord_eq_zero _ _ _ (show ¬ (0 : Fin S51200x256.rank) ∈ dG.sKept by decide)]
    unfold GatherDims.start
    rw [dif_pos (show (0 : Fin S51200x256.rank) ∈ dG.startIndexMap by decide), dG_siIdx, hs]
    show min ((s.val : Int)).toNat (51200 - 1) + 0 + 0 = s.val
    omega
  | ⟨1, _⟩ =>
    show dG.start j idx 1 + dG.batchCoord j 1 + dG.offCoord j 1 = (j 1).val
    rw [GatherDims.batchCoord_eq_zero _ _ _ List.not_mem_nil]
    unfold GatherDims.start GatherDims.offCoord
    rw [dif_neg (show ¬ (1 : Fin S51200x256.rank) ∈ dG.startIndexMap by decide),
      dif_pos (show (1 : Fin S51200x256.rank) ∈ dG.sKept by decide)]
    show 0 + 0 + (j 1).val = (j 1).val
    omega

/-- Under the table's bounds an edge's source word, read signed, is its source node … -/
theorem srcF_val (x5 : IVec SEI 32) (he : EdgesOk x5) (e : Fin 512000) :
    ((x5 (ix2 (0 : Fin 2) e)).toInt) = ((srcF x5 e).val : Int) := by
  have h := he.src_lt e
  unfold srcN at h
  rw [toInt_small _ h]
  show _ = (((x5 (ix2 (0 : Fin 2) e)).toNat % 51200 : Nat) : Int)
  rw [Nat.mod_eq_of_lt h]

/-- … and its target word its target node. -/
theorem tgtF_val (x5 : IVec SEI 32) (he : EdgesOk x5) (e : Fin 512000) :
    ((x5 (ix2 (1 : Fin 2) e)).toInt) = ((tgtF x5 e).val : Int) := by
  have h := he.tgt_lt e
  unfold tgtN at h
  rw [toInt_small _ h]
  show _ = (((x5 (ix2 (1 : Fin 2) e)).toNat % 51200 : Nat) : Int)
  rw [Nat.mod_eq_of_lt h]

theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- One layer's aggregation: the scatter-add, at the edges' targets, of the rows gathered at the edges' sources and
    scaled by the edges' coefficients, is at node `n` and feature `d` the sum over the edges ending at `n`. -/
theorem layer_apply (x5 : IVec SEI 32) (he : EdgesOk x5)
    (z h : S51200x256.Idx → EReal) (tI sI : IVec S512000x1 32) (nb : S512000x256.Idx → EReal)
    (nrm : Fin 512000 → EReal)
    (hz : ∀ i, z i = 0)
    (htI : ∀ e : Fin 512000, tI (ix2 e (0 : Fin 1)) = x5 (ix2 (1 : Fin 2) e))
    (hsI : ∀ e : Fin 512000, sI (ix2 e (0 : Fin 1)) = x5 (ix2 (0 : Fin 2) e))
    (hnb : ∀ (e : Fin 512000) (d : Fin 256), nb (ix2 e d) = nrm e)
    (n : Fin 51200) (d : Fin 256) :
    Host.scatterAdd (F := Ideal) (φ := .f32) dS z tI (mulf (F := Ideal) (φ := .f32) (Host.gather dG h sI) nb) (ix2 n d)
      = ∑ e ∈ Finset.univ.filter (fun e => tgtF x5 e = n), h (ix2 (srcF x5 e) d) * nrm e := by
  show z (ix2 n d) + ∑ j ∈ Finset.univ.filter (fun j => dS.resultIdx? j tI = some (ix2 n d)),
      (Host.gather dG h sI j * nb j) = _
  rw [hz, zero_add, Finset.sum_filter, sum_idx2, Finset.sum_filter]
  refine Finset.sum_congr rfl fun e _ => ?_
  have hres : ∀ d' : Fin 256, dS.resultIdx? (ix2 e d') tI = some (ix2 (tgtF x5 e) d') := fun d' =>
    dS_resultIdx tI (ix2 e d') (tgtF x5 e) (by rw [show (ix2 e d' : S512000x256.Idx) 0 = e from rfl, htI]; exact tgtF_val x5 he e)
  have hg : ∀ d' : Fin 256, Host.gather dG h sI (ix2 e d') = h (ix2 (srcF x5 e) d') := fun d' =>
    dG_apply h sI (ix2 e d') (srcF x5 e) (by rw [show (ix2 e d' : S512000x256.Idx) 0 = e from rfl, hsI]; exact srcF_val x5 he e)
  simp only [hres, hg, hnb, Option.some.injEq, ix2_inj]
  by_cases hn : tgtF x5 e = n
  · simp only [hn, true_and, if_true, Finset.sum_ite_eq', Finset.mem_univ]
  · simp only [hn, false_and, if_false, Finset.sum_const_zero]

section
variable (x0 : (⟨S51200x128, .f32⟩ : BufTy).Contents (Elt Ideal)) (x1 : (⟨S512000, .f32⟩ : BufTy).Contents (Elt Ideal))
  (x2 : (⟨S128x256, .f32⟩ : BufTy).Contents (Elt Ideal)) (x3 : (⟨S256x256, .f32⟩ : BufTy).Contents (Elt Ideal))
  (x4 : (⟨S256x1, .f32⟩ : BufTy).Contents (Elt Ideal)) (x5 : (⟨S2x512000, .i32⟩ : BufTy).Contents (Elt Ideal))

/-- The table's row 0, flattened. -/
theorem v1_at (e : Fin 512000) : val_main_v1 (F := Ideal) x5 (ix1 e) = x5 (ix2 (0 : Fin 2) e) := by
  rw [val_main_v1_apply, val_main_v0_apply]
  congr 1
  funext a; refine Fin.ext ?_
  match a with
  | ⟨0, _⟩ => rfl
  | ⟨1, _⟩ => exact Nat.mod_eq_of_lt e.isLt

/-- The table's row 1, flattened. -/
theorem v3_at (e : Fin 512000) : val_main_v3 (F := Ideal) x5 (ix1 e) = x5 (ix2 (1 : Fin 2) e) := by
  rw [val_main_v3_apply, val_main_v2_apply]
  congr 1
  funext a; refine Fin.ext ?_
  match a with
  | ⟨0, _⟩ => rfl
  | ⟨1, _⟩ => exact Nat.mod_eq_of_lt e.isLt

/-- A node index is not negative: wrapping it leaves it. -/
theorem wrap_id (v : BitVec 32) (hv : v.toNat < 51200) :
    Scalar.select (IntOp.cmpi .slt v 0#32) (IntOp.addi v 51200#32) v = v := by
  rw [not_slt_zero v hv, select_zero]

theorem zero_word : (FloatOps.ofBits (F := Ideal) .f32 0x00000000#32 : EReal) = 0 := Ideal.ofBits_zero_f32

/-- The features times the first weight matrix. -/
theorem h0_at (n : Fin 51200) (d : Fin 256) : val_main_v31 (F := Ideal) x0 x2 (ix2 n d) = h0R x0 x2 n d := by
  rw [val_main_v31_apply]
  unfold h0R
  refine Finset.sum_congr rfl fun k _ => ?_
  congr 2
  · funext a; match a with
    | ⟨0, _⟩ => rfl
    | ⟨1, _⟩ => rfl
  · funext a; match a with
    | ⟨0, _⟩ => rfl
    | ⟨1, _⟩ => rfl

theorem v37_at (he : EdgesOk x5) (e : Fin 512000) : val_main_v37 (F := Ideal) x5 (ix2 e (0 : Fin 1)) = x5 (ix2 (0 : Fin 2) e) := by
  rw [val_main_v37_apply, val_main_v36_apply, val_main_v33_apply, val_main_v35_apply, val_main_v32_apply, val_main_c_8_apply,
    val_main_v34_apply, val_main_c_9_apply]
  rw [show idx_main_v37 (ix2 e (0 : Fin 1)) = ix1 e from by funext a; match a with | ⟨0, _⟩ => rfl]
  rw [v1_at]
  exact wrap_id _ (he.src_lt e)

theorem v43_at (e : Fin 512000) : val_main_v43 (F := Ideal) x5 (ix2 e (0 : Fin 1)) = x5 (ix2 (1 : Fin 2) e) := by
  rw [val_main_v43_apply]
  rw [show idx_main_v43 (ix2 e (0 : Fin 1)) = ix1 e from by funext a; match a with | ⟨0, _⟩ => rfl]
  exact v3_at x5 e

theorem v40_at (he : EdgesOk x5) (e : Fin 512000) (d : Fin 256) :
    val_main_v40 (F := Ideal) x1 x5 (ix2 e d) = normR x1 x5 e := by
  rw [val_main_v40_apply, val_main_v39_apply]
  rw [show idx_main_v39 (idx_main_v40 (ix2 e d)) = ix1 e from by funext a; match a with | ⟨0, _⟩ => rfl]
  exact norm_eq x1 x5 he e

theorem v42_at (i : S51200x256.Idx) : val_main_v42 (F := Ideal) i = (0 : EReal) := by
  rw [val_main_v42_apply, val_main_cst_10_apply]; exact zero_word

/-- The first layer's aggregation. -/
theorem agg0_at (he : EdgesOk x5) (n : Fin 51200) (d : Fin 256) :
    val_main_v44 (F := Ideal) x0 x1 x2 x5 (ix2 n d) = aggR x1 x5 (h0R x0 x2) n d := by
  unfold val_main_v44 val_main_v41 val_main_v38
  rw [layer_apply x5 he _ _ _ _ _ (normR x1 x5) v42_at (v43_at x5) (v37_at x5 he) (v40_at x1 x5 he) n d]
  unfold aggR
  refine Finset.sum_congr rfl fun e _ => ?_
  rw [h0_at]

/-- The maximum with the zero word is `max · 0`. -/
theorem relu_zero (v : EReal) : FloatOps.maximumf (F := Ideal) (φ := .f32) v (FloatOps.ofBits (F := Ideal) .f32 0x00000000#32) = relu v := by
  rw [zero_word]; rfl

theorem h1_at (he : EdgesOk x5) (n : Fin 51200) (d : Fin 256) :
    val_main_v45 (F := Ideal) x0 x1 x2 x5 (ix2 n d) = h1R x0 x1 x2 x5 n d := by
  rw [val_main_v45_apply, val_main_call2_v0_apply, val_main_call2_cst_apply, agg0_at x0 x1 x2 x5 he, relu_zero]
  rfl

/-- The first layer's output times the second weight matrix. -/
theorem h1p_at (he : EdgesOk x5) (n : Fin 51200) (d : Fin 256) :
    val_main_v46 (F := Ideal) x0 x1 x2 x3 x5 (ix2 n d) = h1pR x0 x1 x2 x3 x5 n d := by
  rw [val_main_v46_apply]
  unfold h1pR
  refine Finset.sum_congr rfl fun k _ => ?_
  rw [show lidx_main_v46 (ix2 n d) k = ix2 n k from by funext a; match a with | ⟨0, _⟩ => rfl | ⟨1, _⟩ => rfl,
    show ridx_main_v46 (ix2 n d) k = ix2 k d from by funext a; match a with | ⟨0, _⟩ => rfl | ⟨1, _⟩ => rfl,
    h1_at x0 x1 x2 x5 he]
end

section
variable (x0 : (⟨S51200x128, .f32⟩ : BufTy).Contents (Elt Ideal)) (x1 : (⟨S512000, .f32⟩ : BufTy).Contents (Elt Ideal))
  (x2 : (⟨S128x256, .f32⟩ : BufTy).Contents (Elt Ideal)) (x3 : (⟨S256x256, .f32⟩ : BufTy).Contents (Elt Ideal))
  (x4 : (⟨S256x1, .f32⟩ : BufTy).Contents (Elt Ideal)) (x5 : (⟨S2x512000, .i32⟩ : BufTy).Contents (Elt Ideal))

theorem v52_at (he : EdgesOk x5) (e : Fin 512000) : val_main_v52 (F := Ideal) x5 (ix2 e (0 : Fin 1)) = x5 (ix2 (0 : Fin 2) e) := by
  rw [val_main_v52_apply, val_main_v51_apply, val_main_v48_apply, val_main_v50_apply, val_main_v47_apply, val_main_c_11_apply,
    val_main_v49_apply, val_main_c_12_apply]
  rw [show idx_main_v52 (ix2 e (0 : Fin 1)) = ix1 e from by funext a; match a with | ⟨0, _⟩ => rfl]
  rw [v1_at]
  exact wrap_id _ (he.src_lt e)

theorem v58_at (e : Fin 512000) : val_main_v58 (F := Ideal) x5 (ix2 e (0 : Fin 1)) = x5 (ix2 (1 : Fin 2) e) := by
  rw [val_main_v58_apply]
  rw [show idx_main_v58 (ix2 e (0 : Fin 1)) = ix1 e from by funext a; match a with | ⟨0, _⟩ => rfl]
  exact v3_at x5 e

theorem v55_at (he : EdgesOk x5) (e : Fin 512000) (d : Fin 256) :
    val_main_v55 (F := Ideal) x1 x5 (ix2 e d) = normR x1 x5 e := by
  rw [val_main_v55_apply, val_main_v54_apply]
  rw [show idx_main_v54 (idx_main_v55 (ix2 e d)) = ix1 e from by funext a; match a with | ⟨0, _⟩ => rfl]
  exact norm_eq x1 x5 he e

theorem v57_at (i : S51200x256.Idx) : val_main_v57 (F := Ideal) i = (0 : EReal) := by
  rw [val_main_v57_apply, val_main_cst_13_apply]; exact zero_word

/-- The second layer's aggregation. -/
theorem agg1_at (he : EdgesOk x5) (n : Fin 51200) (d : Fin 256) :
    val_main_v59 (F := Ideal) x0 x1 x2 x3 x5 (ix2 n d) = aggR x1 x5 (h1pR x0 x1 x2 x3 x5) n d := by
  unfold val_main_v59 val_main_v56 val_main_v53
  rw [layer_apply x5 he _ _ _ _ _ (normR x1 x5) v57_at (v58_at x5) (v52_at x5 he) (v55_at x1 x5 he) n d]
  unfold aggR
  refine Finset.sum_congr rfl fun e _ => ?_
  rw [h1p_at x0 x1 x2 x3 x5 he]

theorem h2_at (he : EdgesOk x5) (n : Fin 51200) (d : Fin 256) :
    val_main_v60 (F := Ideal) x0 x1 x2 x3 x5 (ix2 n d) = h2R x0 x1 x2 x3 x5 n d := by
  rw [val_main_v60_apply, val_main_call3_v0_apply, val_main_call3_cst_apply, agg1_at x0 x1 x2 x3 x5 he, relu_zero]
  rfl

/-- The read-out's rows: group `b`'s first node. -/
theorem v63_at (he : EdgesOk x5) (b : Fin 2048) (d : Fin 256) :
    val_main_v63 (F := Ideal) x0 x1 x2 x3 x5 (ix2 b d) = h2R x0 x1 x2 x3 x5 (node b 0) d := by
  rw [val_main_v63_apply, val_main_v62_apply, val_main_v61_apply]
  rw [show idx_main_v61 (idx_main_v62 (idx_main_v63 (ix2 b d))) = ix2 (node b 0) d from by
    have hb := b.isLt
    have hd := d.isLt
    funext a; refine Fin.ext ?_
    match a with
    | ⟨0, _⟩ =>
      show (((b.val * 256 + d.val) / 256 * 25 + 0) * 256 + (b.val * 256 + d.val) % 256) / 256 = 25 * b.val + 0
      omega
    | ⟨1, _⟩ =>
      show (((b.val * 256 + d.val) / 256 * 25 + 0) * 256 + (b.val * 256 + d.val) % 256) % 256 = d.val
      omega]
  exact h2_at x0 x1 x2 x3 x5 he _ _

/-- The read-out: the first nodes' rows times the read-out column. -/
theorem out_at (he : EdgesOk x5) (b : Fin 2048) (c : Fin 1) :
    val_main_v64 (F := Ideal) x0 x1 x2 x3 x4 x5 (ix2 b c) = outR x0 x1 x2 x3 x4 x5 b := by
  rw [val_main_v64_apply]
  unfold outR
  refine Finset.sum_congr rfl fun k _ => ?_
  rw [show lidx_main_v64 (ix2 b c) k = ix2 b k from by funext a; match a with | ⟨0, _⟩ => rfl | ⟨1, _⟩ => rfl,
    show ridx_main_v64 (ix2 b c) k = ix2 k (0 : Fin 1) from by
      funext a; match a with
      | ⟨0, _⟩ => rfl
      | ⟨1, _⟩ => exact Fin.ext (by have h := c.isLt; show c.val = 0; omega),
    v63_at x0 x1 x2 x3 x5 he]
end

end Layers

open Layers in
theorem result_eq (x0 : (⟨S51200x128, .f32⟩ : BufTy).Contents (Elt Ideal)) (x1 : (⟨S512000, .f32⟩ : BufTy).Contents (Elt Ideal))
    (x2 : (⟨S128x256, .f32⟩ : BufTy).Contents (Elt Ideal)) (x3 : (⟨S256x256, .f32⟩ : BufTy).Contents (Elt Ideal))
    (x4 : (⟨S256x1, .f32⟩ : BufTy).Contents (Elt Ideal)) (x5 : (⟨S2x512000, .i32⟩ : BufTy).Contents (Elt Ideal))
    (he : EdgesOk x5) : val_main_v64 (F := Ideal) x0 x1 x2 x3 x4 x5 = GR x0 x1 x2 x3 x4 x5 := by
  funext i
  obtain ⟨b, c, rfl⟩ : ∃ (b : Fin 2048) (c : Fin 1), i = ix2 b c := ⟨i 0, i 1, eq_ix2 i⟩
  exact out_at x0 x1 x2 x3 x4 x5 he b c

end Cert.ReferenceIdeal.RefValue

end
-- ==== Proof.PreFacts.lean ====
/-
  What the precondition says: every float input is a real number, the index table names nodes (0 ≤ index < 51200), and
  the two ends of every edge have the same quotient by 25.
-/
import proofs.«406615_j56642028699847_1_alg».proof.Pre_finite_inputs
import proofs.«406615_j56642028699847_1_alg».proof.Proof.Gen.Pre_finite_inputs
import proofs.«406615_j56642028699847_1_alg».proof.Proof.Spec
import Idealize.ShloMosaic.Lib.ReduceAll
import Idealize.ShloMosaic.Lib.StableHlo.Predicate
import Idealize.ShloMosaic.Lib.Pipeline.Value

noncomputable section

namespace Cert.Graph

open Idealize.ShloMosaic Idealize.ShloMosaic.ValueIdx

/-- The scalar shape has exactly one index. -/
private instance : Subsingleton Cert.Pre_finite_inputs.S_.Idx := ⟨fun a b => funext fun d => d.elim0⟩

/-! ### Floats: a number whose absolute value is below +∞ is real -/

/-- The word 0x7F800000 denotes +∞. -/
private theorem inf_bits : Ideal.ofBits .f32 0x7F800000#32 = (⊤ : EReal) := by
  simp [Ideal.ofBits, Ideal.ieee]

/-- max x (-x) < +∞ excludes both infinities, so x is real. -/
private theorem real_of_abs_lt (x : EReal)
    (h : Ideal.cmp .olt (max x (-x)) (Ideal.ofBits .f32 0x7F800000#32) = 1#1) : ∃ r : ℝ, x = (r : EReal) := by
  rw [inf_bits] at h
  simp only [Ideal.cmp, StableHlo.Predicate.ofBool_eq_one_iff, decide_eq_true_eq, max_lt_iff] at h
  induction x using EReal.rec with
  | bot => simp at h
  | top => simp at h
  | coe r => exact ⟨r, rfl⟩

/-- If the conjunction over all entries of |x| < +∞ holds, every entry of x is real. -/
private theorem isReal_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf (F := Ideal) (φ := .f32) .olt (Host.absf x)
          (broadcastInDim s ![] hb (constant Cert.Pre_finite_inputs.S_ .f32 0x7F800000#32)))
        (constantI Cert.Pre_finite_inputs.S_ 1 1#1) hr hu ix0 = 1#1) : IsReal x := by
  intro i
  have hi := Host.reduce_andi_all _ _ hr hu ix0 e i
  exact real_of_abs_lt (x i) hi

/-! ### Words: a 32-bit word that is signed-nonnegative and signed-below 51200 is a natural number below 51200 -/

private theorem toNat_lt_of_cmp (a : BitVec 32) (h0 : IntOp.cmpi .sge a 0#32 = 1#1)
    (h1 : IntOp.cmpi .slt a 51200#32 = 1#1) : a.toNat < 51200 := by
  have z0 : (0#32 : BitVec 32).toInt = 0 := by decide
  have z1 : (51200#32 : BitVec 32).toInt = 51200 := by decide
  simp only [IntOp.cmpi, StableHlo.Predicate.ofBool_eq_one_iff, BitVec.sle, BitVec.slt, decide_eq_true_eq, z0, z1] at h0 h1
  have hlt := a.isLt
  rw [BitVec.toInt_eq_toNat_cond] at h0 h1
  split at h0 <;> omega

/-- On a word below 51200 the signed quotient by 25 is the quotient of the natural numbers. -/
private theorem divsi25_toNat (u : ArithUnit) (a : BitVec 32) (ha : a.toNat < 51200) :
    (IntOp.divsi u a 25#32).toNat = a.toNat / 25 := by
  have hc : ¬ IntOp.SDivCorner a 25#32 := by
    rintro (hz | ⟨-, hm⟩)
    · exact absurd hz (by decide)
    · exact absurd hm (by decide)
  have ma : a.msb = false := BitVec.msb_eq_false_iff_two_mul_lt.mpr (by omega)
  have mb : (25#32 : BitVec 32).msb = false := by decide
  unfold IntOp.divsi
  rw [if_neg hc, BitVec.sdiv_eq, ma, mb]
  simp only [BitVec.udiv_eq, BitVec.toNat_udiv, BitVec.toNat_ofNat]

/-! ### The two rows of the table, read through the slice and the reshape -/

private theorem row0_apply (ei : IVec SEI 32)
    (hs : Cert.Pre_finite_inputs.S2x512000.Slices ![0, 0] Cert.Pre_finite_inputs.S1x512000)
    (hc : Cert.Pre_finite_inputs.S1x512000.ShapeCasts Cert.Pre_finite_inputs.S512000) (e : Fin 512000) :
    shapeCast Cert.Pre_finite_inputs.S512000 (extractStridedSlice Cert.Pre_finite_inputs.S1x512000 ![0, 0] ei hs) hc (ix1 e)
      = ei (ix2 (0 : Fin 2) e) := by
  refine (shapeCast_apply _ hc (ix1 e) (ix2 (0 : Fin 1) e) ?_).trans ?_
  · rw [Shape.rowMajor_val_two, Shape.rowMajor_val_one]
    show 0 * 512000 + e.val = e.val
    omega
  · exact extractStridedSlice_apply ![0, 0] ei hs (ix2 (0 : Fin 1) e) (ix2 (0 : Fin 2) e) (fun a => match a with
      | ⟨0, _⟩ => by show (0 : Nat) = 0 + 0; omega
      | ⟨1, _⟩ => by show e.val = 0 + e.val; omega)

private theorem row1_apply (ei : IVec SEI 32)
    (hs : Cert.Pre_finite_inputs.S2x512000.Slices ![1, 0] Cert.Pre_finite_inputs.S1x512000)
    (hc : Cert.Pre_finite_inputs.S1x512000.ShapeCasts Cert.Pre_finite_inputs.S512000) (e : Fin 512000) :
    shapeCast Cert.Pre_finite_inputs.S512000 (extractStridedSlice Cert.Pre_finite_inputs.S1x512000 ![1, 0] ei hs) hc (ix1 e)
      = ei (ix2 (1 : Fin 2) e) := by
  refine (shapeCast_apply _ hc (ix1 e) (ix2 (0 : Fin 1) e) ?_).trans ?_
  · rw [Shape.rowMajor_val_two, Shape.rowMajor_val_one]
    show 0 * 512000 + e.val = e.val
    omega
  · exact extractStridedSlice_apply ![1, 0] ei hs (ix2 (0 : Fin 1) e) (ix2 (1 : Fin 2) e) (fun a => match a with
      | ⟨0, _⟩ => by show (1 : Nat) = 1 + 0; omega
      | ⟨1, _⟩ => by show e.val = 0 + e.val; omega)

theorem of_pre (x : SX.Idx → EReal) (w : SE.Idx → EReal) (W0 : SW0.Idx → EReal) (W1 : SW1.Idx → EReal)
    (Wl : SWl.Idx → EReal) (ei : IVec SEI 32)
    (h : Cert.Pre_finite_inputs.fn (F := Ideal) x w W0 W1 Wl ei = fun _ => 1#1) :
    IsReal x ∧ IsReal w ∧ IsReal W0 ∧ IsReal W1 ∧ IsReal Wl ∧ EdgesOk ei := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨hx, hw⟩, hW0⟩, hW1⟩, hWl⟩, hge⟩, hlt⟩, hsame⟩ := h0
  -- the index table's entries are natural numbers below 51200
  have hnat : ∀ i : SEI.Idx, (ei i).toNat < 51200 := fun i =>
    toNat_lt_of_cmp (ei i) (Host.reduce_andi_all _ _ _ _ ix0 hge i) (Host.reduce_andi_all _ _ _ _ ix0 hlt i)
  refine ⟨isReal_of_all x _ _ _ hx, isReal_of_all w _ _ _ hw, isReal_of_all W0 _ _ _ hW0, isReal_of_all W1 _ _ _ hW1,
    isReal_of_all Wl _ _ _ hWl, ⟨fun e => hnat _, fun e => hnat _, fun e => ?_⟩⟩
  -- the two quotients by 25 are equal words, hence equal natural numbers
  have hq := StableHlo.Predicate.cmpi_eq_iff.1 (Host.reduce_andi_all _ _ _ _ ix0 hsame (ix1 e))
  simp only [Host.divsi, row0_apply, row1_apply, broadcastInDim, constantI] at hq
  have hn := congrArg BitVec.toNat hq
  rw [divsi25_toNat _ _ (hnat _), divsi25_toNat _ _ (hnat _)] at hn
  exact hn

end Cert.Graph

end
-- ==== Proof.AgreeCount.lean ====
/-
  Counting edges by group. When every edge joins two nodes of one group of 25 (`EdgesOk`), the edges that END at node
  `j` of group `b` are exactly the edges that START in group `b` and whose target has position `j`, and splitting them by
  the position `i` of the source gives the 25 cells `(b, i, j)` of the dense matrix. Only sums are regrouped here:
  nothing needs the summands to be finite.
-/
import proofs.«406615_j56642028699847_1_alg».proof.Proof.Spec

noncomputable section

namespace Cert.Graph

open Idealize.ShloMosaic Idealize.ShloMosaic.ValueIdx

variable {ei : IVec SEI 32}

/-- The edges of the cell `(b, i, j)`. -/
def cell (ei : IVec SEI 32) (b : Fin 2048) (i j : Fin 25) : Finset (Fin 512000) :=
  Finset.univ.filter (fun e => grp (srcF ei e) = b ∧ pos (srcF ei e) = i ∧ pos (tgtF ei e) = j)

theorem node_grp_pos (n : Fin 51200) : node (grp n) (pos n) = n := by
  apply Fin.ext
  show 25 * (n.val / 25) + n.val % 25 = n.val
  exact Nat.div_add_mod n.val 25

theorem grp_node (b : Fin 2048) (i : Fin 25) : grp (node b i) = b := by
  apply Fin.ext
  show (25 * b.val + i.val) / 25 = b.val
  have := i.isLt
  omega

theorem pos_node (b : Fin 2048) (i : Fin 25) : pos (node b i) = i := by
  apply Fin.ext
  show (25 * b.val + i.val) % 25 = i.val
  have := i.isLt
  omega

/-- Under `EdgesOk` an edge's two ends have the same group. -/
theorem grp_tgt_eq (he : EdgesOk ei) (e : Fin 512000) : grp (tgtF ei e) = grp (srcF ei e) := by
  apply Fin.ext
  show tgtN ei e % 51200 / 25 = srcN ei e % 51200 / 25
  rw [Nat.mod_eq_of_lt (he.tgt_lt e), Nat.mod_eq_of_lt (he.src_lt e)]
  exact (he.same e).symm

/-- On a cell the source is node `i` and the target node `j` of group `b`. -/
theorem mem_cell_iff (he : EdgesOk ei) (b : Fin 2048) (i j : Fin 25) (e : Fin 512000) :
    e ∈ cell ei b i j ↔ srcF ei e = node b i ∧ tgtF ei e = node b j := by
  unfold cell
  rw [Finset.mem_filter]
  constructor
  · rintro ⟨-, hb, hi, hj⟩
    constructor
    · rw [← node_grp_pos (srcF ei e), hb, hi]
    · rw [← node_grp_pos (tgtF ei e), grp_tgt_eq he e, hb, hj]
  · rintro ⟨hs, ht⟩
    refine ⟨Finset.mem_univ _, ?_, ?_, ?_⟩
    · rw [hs, grp_node]
    · rw [hs, pos_node]
    · rw [ht, pos_node]

/-- A sum over the edges ending at node `j` of group `b`, split by the position of the source. -/
theorem sum_into_node (he : EdgesOk ei) (b : Fin 2048) (j : Fin 25) (f : Fin 512000 → EReal) :
    ∑ e ∈ Finset.univ.filter (fun e => tgtF ei e = node b j), f e = ∑ i : Fin 25, ∑ e ∈ cell ei b i j, f e := by
  -- split the edges ending at the node by the position of their source; each fibre is one cell
  rw [← Finset.sum_fiberwise_of_maps_to (s := Finset.univ.filter (fun e => tgtF ei e = node b j))
    (t := (Finset.univ : Finset (Fin 25))) (g := fun e => pos (srcF ei e)) (fun _ _ => Finset.mem_univ _) f]
  refine Finset.sum_congr rfl (fun i _ => Finset.sum_congr ?_ (fun _ _ => rfl))
  ext e
  rw [Finset.mem_filter, Finset.mem_filter, mem_cell_iff he]
  constructor
  · rintro ⟨⟨-, ht⟩, hi⟩
    refine ⟨?_, ht⟩
    have hg : grp (srcF ei e) = b := by rw [← grp_tgt_eq he e, ht, grp_node]
    rw [← node_grp_pos (srcF ei e), hg, hi]
  · rintro ⟨hs, ht⟩
    refine ⟨⟨Finset.mem_univ _, ht⟩, ?_⟩
    rw [hs, pos_node]

/-- The dense matrix's column sums are the in-degrees. -/
theorem degK_eq_degR (w : SE.Idx → EReal) (he : EdgesOk ei) (b : Fin 2048) (j : Fin 25) :
    degK w ei b j = degR w ei (node b j) := by
  unfold degK degR
  rw [sum_into_node he b j (fun e => w (ix1 e))]
  rfl

theorem dinvK_eq_dinvR (w : SE.Idx → EReal) (he : EdgesOk ei) (b : Fin 2048) (j : Fin 25) :
    dinvK w ei b j = dinvR w ei (node b j) := by
  unfold dinvK dinvR
  rw [degK_eq_degR w he b j]

theorem AK_eq_sum_cell (w : SE.Idx → EReal) (b : Fin 2048) (i j : Fin 25) :
    AK w ei b i j = ∑ e ∈ cell ei b i j, w (ix1 e) := rfl

end Cert.Graph

end
-- ==== Proof.Agree.lean ====
/-
  The block form and the edge form agree. With every number real, `a · Σ w = Σ a · w`, so a group's matrix product
  `Σ_i anorm b i j · h(b, i)` is the edge sum `Σ_{e → (b, j)} h(source e) · coefficient e`; the zero padding adds
  nothing; `relu` and the dense products keep numbers real; two layers and the read-out follow.
-/
import proofs.«406615_j56642028699847_1_alg».proof.Proof.Spec
import proofs.«406615_j56642028699847_1_alg».proof.Proof.AgreeCount
import Idealize.ShloMosaic.PureOps.Ideal.Laws

noncomputable section

namespace Cert.Graph

open Idealize.ShloMosaic Idealize.ShloMosaic.ValueIdx

/-- A finite sum of reals, computed in the extended reals, is the real sum. -/
private theorem coe_sum_real {ι : Type} (s : Finset ι) (g : ι → ℝ) :
    ∑ e ∈ s, ((g e : ℝ) : EReal) = ((∑ e ∈ s, g e : ℝ) : EReal) := by
  classical
  induction s using Finset.induction_on with
  | empty => simp
  | insert a s ha ih => rw [Finset.sum_insert ha, Finset.sum_insert ha, ih, EReal.coe_add]

/-- A finite sum of real numbers is a real number. -/
private theorem real_sum {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum_real]; exact Finset.sum_congr rfl (fun i _ => hg i)⟩

private theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

private theorem real_relu {a : EReal} (ha : ∃ r : ℝ, a = (r : EReal)) : ∃ r : ℝ, relu a = (r : EReal) := by
  obtain ⟨r, rfl⟩ := ha
  unfold relu
  rcases le_total (r : EReal) 0 with h | h
  · exact ⟨0, by rw [max_eq_right h]; rfl⟩
  · exact ⟨r, by rw [max_eq_left h]⟩

private theorem real_half : ∃ r : ℝ, Ideal.ofBits .f32 0xBF000000#32 = (r : EReal) := by
  simp only [Ideal.ofBits, Ideal.ieee]
  norm_num
  exact ⟨_, (EReal.coe_neg _).symm⟩

private theorem real_one : ∃ r : ℝ, Ideal.ofBits .f32 0x3F800000#32 = (r : EReal) := by
  simp [Ideal.ofBits, Ideal.ieee, -EReal.coe_mul]

private theorem real_dinvOf {a : EReal} (ha : ∃ r : ℝ, a = (r : EReal)) : ∃ r : ℝ, dinvOf a = (r : EReal) := by
  obtain ⟨r, rfl⟩ := ha
  obtain ⟨c1, h1⟩ := real_one
  obtain ⟨ch, hh⟩ := real_half
  unfold dinvOf
  rw [Ideal.ofBits_zero_f32, h1, hh]
  by_cases hc : Ideal.cmp .ogt (r : EReal) 0 = 1
  · simp only [Scalar.select, hc, if_true]
    exact ⟨_, Ideal.pow_coe_coe r ch⟩
  · simp only [Scalar.select, hc, if_false]
    exact ⟨0, rfl⟩

section
variable {w : SE.Idx → EReal} {ei : IVec SEI 32}

private theorem real_degR (hw : IsReal w) (n : Fin 51200) : ∃ r : ℝ, degR w ei n = (r : EReal) :=
  real_sum _ _ (fun e => hw (ix1 e))

private theorem real_dinvR (hw : IsReal w) (n : Fin 51200) : ∃ r : ℝ, dinvR w ei n = (r : EReal) :=
  real_dinvOf (real_degR hw n)

private theorem real_normR (hw : IsReal w) (e : Fin 512000) : ∃ r : ℝ, normR w ei e = (r : EReal) :=
  real_mul (real_mul (real_dinvR hw _) (hw (ix1 e))) (real_dinvR hw _)

/-- A layer's aggregation keeps real features real. -/
private theorem real_aggR (hw : IsReal w) {h : Fin 51200 → Fin 256 → EReal} (hh : ∀ n d, ∃ r : ℝ, h n d = (r : EReal))
    (n : Fin 51200) (d : Fin 256) : ∃ r : ℝ, aggR w ei h n d = (r : EReal) :=
  real_sum _ _ (fun e => real_mul (hh _ _) (real_normR hw e))

/-- With real numbers, `(a · Σ g · c) · t = Σ t · (a · g · c)`. -/
private theorem cell_alg {ι : Type} (s : Finset ι) (g : ι → ℝ) (a c t : ℝ) :
    (((a : EReal) * ∑ e ∈ s, ((g e : ℝ) : EReal)) * (c : EReal)) * (t : EReal)
      = ∑ e ∈ s, (t : EReal) * (((a : EReal) * ((g e : ℝ) : EReal)) * (c : EReal)) := by
  rw [coe_sum_real]
  simp only [← EReal.coe_mul]
  rw [coe_sum_real, Finset.mul_sum, Finset.sum_mul, Finset.sum_mul]
  congr 1
  exact Finset.sum_congr rfl (fun e _ => by ring)

/-- A sum over 32 rows whose rows from 25 on are zero is the sum over the first 25. -/
private theorem sum_pad (G : Fin 25 → EReal) :
    ∑ i : Fin 32, (if h : i.val < 25 then G ⟨i.val, h⟩ else 0) = ∑ i : Fin 25, G i := by
  have h := Fin.sum_univ_add (M := EReal) (a := 25) (b := 7)
    (fun i : Fin (25 + 7) => if h : i.val < 25 then G ⟨i.val, h⟩ else 0)
  refine h.trans ?_
  have h2 : ∑ i : Fin 7, (fun i : Fin (25 + 7) => if h : i.val < 25 then G ⟨i.val, h⟩ else 0) (Fin.natAdd 25 i) = 0 :=
    Finset.sum_eq_zero (fun i _ => by simp [Fin.natAdd])
  rw [h2, add_zero]
  exact Finset.sum_congr rfl (fun i _ => by simp [Fin.castAdd])

/-- One cell of the matrix product is that cell's edge sum. -/
private theorem cell_eq (hw : IsReal w) (he : EdgesOk ei) (hR : Fin 51200 → Fin 256 → EReal)
    (hreal : ∀ n d, ∃ r : ℝ, hR n d = (r : EReal)) (b : Fin 2048) (i j : Fin 25) (d : Fin 256) :
    anorm w ei b i j * hR (node b i) d = ∑ e ∈ cell ei b i j, hR (srcF ei e) d * normR w ei e := by
  obtain ⟨a, ha⟩ := real_dinvR (ei := ei) hw (node b i)
  obtain ⟨c, hc⟩ := real_dinvR (ei := ei) hw (node b j)
  obtain ⟨t, ht⟩ := hreal (node b i) d
  choose g hg using (fun e : Fin 512000 => hw (ix1 e))
  have hr : ∑ e ∈ cell ei b i j, hR (srcF ei e) d * normR w ei e
      = ∑ e ∈ cell ei b i j, (t : EReal) * (((a : EReal) * ((g e : ℝ) : EReal)) * (c : EReal)) := by
    refine Finset.sum_congr rfl (fun e hmem => ?_)
    obtain ⟨hs, htg⟩ := (mem_cell_iff he b i j e).1 hmem
    rw [normR, hs, htg, ht, ha, hc, hg]
  rw [hr, anorm, dinvK_eq_dinvR w he, dinvK_eq_dinvR w he, AK_eq_sum_cell, ha, hc, ht]
  simp only [hg]
  exact cell_alg _ g a c t

/-- The layer lemma. If the block features agree with the edge features on the 25 true rows of each group, the padded
    matrix product at a true row is the edge aggregation at that node. -/
private theorem aggG_eq_aggR (hw : IsReal w) (he : EdgesOk ei) (hK : Fin 2048 → Fin 32 → Fin 256 → EReal)
    (hR : Fin 51200 → Fin 256 → EReal) (hreal : ∀ n d, ∃ r : ℝ, hR n d = (r : EReal))
    (hKR : ∀ b (i : Fin 32) (h : i.val < 25) d, hK b i d = hR (node b ⟨i.val, h⟩) d)
    (b : Fin 2048) (j : Fin 32) (hj : j.val < 25) (d : Fin 256) :
    aggG (anormP w ei) hK b j d = aggR w ei hR (node b ⟨j.val, hj⟩) d := by
  have h1 : aggG (anormP w ei) hK b j d
      = ∑ i : Fin 32, (if h : i.val < 25 then anorm w ei b ⟨i.val, h⟩ ⟨j.val, hj⟩ * hR (node b ⟨i.val, h⟩) d else 0) := by
    refine Finset.sum_congr rfl (fun i _ => ?_)
    by_cases h : i.val < 25
    · rw [dif_pos h, anormP, dif_pos ⟨h, hj⟩, hKR b i h d]
    · rw [dif_neg h, anormP, dif_neg (fun hh => h hh.1), zero_mul]
  rw [h1, sum_pad (fun i => anorm w ei b i ⟨j.val, hj⟩ * hR (node b i) d), aggR, sum_into_node he]
  exact Finset.sum_congr rfl (fun i _ => cell_eq hw he hR hreal b i ⟨j.val, hj⟩ d)

end

section
variable {x : SX.Idx → EReal} {w : SE.Idx → EReal} {W0 : SW0.Idx → EReal} {W1 : SW1.Idx → EReal}
  {Wl : SWl.Idx → EReal} {ei : IVec SEI 32}

private theorem real_h0R (hx : IsReal x) (hW0 : IsReal W0) (n : Fin 51200) (d : Fin 256) :
    ∃ r : ℝ, h0R x W0 n d = (r : EReal) :=
  real_sum _ _ (fun k => real_mul (hx _) (hW0 _))

private theorem real_h1R (hx : IsReal x) (hw : IsReal w) (hW0 : IsReal W0) (n : Fin 51200) (d : Fin 256) :
    ∃ r : ℝ, h1R x w W0 ei n d = (r : EReal) :=
  real_relu (real_aggR hw (real_h0R hx hW0) n d)

private theorem real_h1pR (hx : IsReal x) (hw : IsReal w) (hW0 : IsReal W0) (hW1 : IsReal W1) (n : Fin 51200)
    (d : Fin 256) : ∃ r : ℝ, h1pR x w W0 W1 ei n d = (r : EReal) :=
  real_sum _ _ (fun k => real_mul (real_h1R hx hw hW0 n k) (hW1 _))

/-- The first dense product agrees on the true rows. -/
private theorem h0G_eq (b : Fin 2048) (i : Fin 32) (h : i.val < 25) (d : Fin 256) :
    h0G (xP x) W0 b i d = h0R x W0 (node b ⟨i.val, h⟩) d := by
  unfold h0G h0R xP
  exact Finset.sum_congr rfl (fun k _ => by rw [dif_pos h])

/-- The first layer agrees on the true rows. -/
private theorem h1G_eq (hx : IsReal x) (hw : IsReal w) (hW0 : IsReal W0) (he : EdgesOk ei) (b : Fin 2048) (j : Fin 32)
    (hj : j.val < 25) (d : Fin 256) :
    h1G (xP x) (anormP w ei) W0 b j d = h1R x w W0 ei (node b ⟨j.val, hj⟩) d := by
  unfold h1G h1R
  rw [aggG_eq_aggR hw he (h0G (xP x) W0) (h0R x W0) (real_h0R hx hW0) (fun b i h d => h0G_eq b i h d) b j hj d]

/-- The second dense product agrees on the true rows. -/
private theorem h1pG_eq (hx : IsReal x) (hw : IsReal w) (hW0 : IsReal W0) (he : EdgesOk ei) (b : Fin 2048) (i : Fin 32)
    (h : i.val < 25) (d : Fin 256) :
    h1pG (xP x) (anormP w ei) W0 W1 b i d = h1pR x w W0 W1 ei (node b ⟨i.val, h⟩) d := by
  unfold h1pG h1pR
  exact Finset.sum_congr rfl (fun k _ => by rw [h1G_eq hx hw hW0 he b i h k])

/-- The second layer agrees on the true rows. -/
private theorem h2G_eq (hx : IsReal x) (hw : IsReal w) (hW0 : IsReal W0) (hW1 : IsReal W1) (he : EdgesOk ei) (b : Fin 2048)
    (j : Fin 32) (hj : j.val < 25) (d : Fin 256) :
    h2G (xP x) (anormP w ei) W0 W1 b j d = h2R x w W0 W1 ei (node b ⟨j.val, hj⟩) d := by
  unfold h2G h2R
  rw [aggG_eq_aggR hw he (h1pG (xP x) (anormP w ei) W0 W1) (h1pR x w W0 W1 ei) (real_h1pR hx hw hW0 hW1)
    (fun b i h d => h1pG_eq hx hw hW0 he b i h d) b j hj d]

end

theorem GK_eq_GR (x : SX.Idx → EReal) (w : SE.Idx → EReal) (W0 : SW0.Idx → EReal) (W1 : SW1.Idx → EReal)
    (Wl : SWl.Idx → EReal) (ei : IVec SEI 32) (hx : IsReal x) (hw : IsReal w) (hW0 : IsReal W0) (hW1 : IsReal W1)
    (hWl : IsReal Wl) (he : EdgesOk ei) : GK x w W0 W1 Wl ei = GR x w W0 W1 Wl ei := by
  funext i
  unfold GK GR outG outR
  exact Finset.sum_congr rfl (fun d _ => by
    rw [h2G_eq hx hw hW0 hW1 he (i 0) (0 : Fin 32) (by decide) d]; rfl)

end Cert.Graph

end
-- ==== Proof.lean ====
/-
  A two-layer graph convolution on 2048 groups of 25 nodes, computed by the kernel group by group from a dense,
  normalised 25 × 25 matrix per group (padded to 32 × 32) and by the reference edge by edge with gathers and
  scatter-adds over all 512000 edges. Over the extended reals the two results are equal when every float input is
  finite, the edge table names nodes, and each edge joins two nodes of one group (the precondition): a group's
  matrix product `Σ_i A[i, j] · h[i]` is then the edge sum `Σ_{e → j} h[source e] · coefficient e` by distributing
  the finite factors over the sum of the weights in each cell (module `Agree`).

  The kernel program's frame (it runs to its end, faults nowhere, leaves its arguments unchanged) is proved at both
  instances from the body's one run (`KFrame`, `KFrameBits`); its result array is read off that run block by block
  (`KValue`, over `KBody` for the body's value and `KHostTerms` / `KIndex` / `KNorm` for the arrays the host
  operations hand the region); the reference's result is read off its run operation by operation (`RefNorm`,
  `RefLayers`); the precondition is decoded in `PreFacts`.
-/
import proofs.«406615_j56642028699847_1_alg».proof.Defs
import proofs.«406615_j56642028699847_1_alg».proof.Proof.Gen.Kernel
import proofs.«406615_j56642028699847_1_alg».proof.Proof.Gen.KernelIdeal
import proofs.«406615_j56642028699847_1_alg».proof.Proof.Gen.ReferenceIdeal
import proofs.«406615_j56642028699847_1_alg».proof.Proof.Gen.Pre_finite_inputs
import proofs.«406615_j56642028699847_1_alg».proof.Proof.Gen.ReferenceIdeal.Run
import proofs.«406615_j56642028699847_1_alg».proof.Proof.Gen.ReferenceIdeal.Read
import proofs.«406615_j56642028699847_1_alg».proof.Proof.KFrame
import proofs.«406615_j56642028699847_1_alg».proof.Proof.KFrameBits
import proofs.«406615_j56642028699847_1_alg».proof.Proof.KValue
import proofs.«406615_j56642028699847_1_alg».proof.Proof.RefLayers
import proofs.«406615_j56642028699847_1_alg».proof.Proof.PreFacts
import proofs.«406615_j56642028699847_1_alg».proof.Proof.Agree
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the block form of the argument arrays: the kernel's run names it, the reference's run
    names the edge form, and under the precondition the two forms agree. -/
theorem algebraic : Cert.algebraic_KernelIdeal_ReferenceIdeal := by
  intro m ρ m' ρ' hpre hagree
  have hp := fun c => Cert.Graph.of_pre _ _ _ _ _ _ (hpre c)
  refine ⟨_, Cert.KernelIdeal.KValue.run m ρ (fun c => (hp c).2.2.2.2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2]
  rw [Cert.ReferenceIdeal.RefValue.result_eq _ _ _ _ _ _ (hp c).2.2.2.2.2]
  exact (Cert.Graph.GK_eq_GR _ _ _ _ _ _ (hp c).1 (hp c).2.1 (hp c).2.2.1 (hp c).2.2.2.1 (hp c).2.2.2.2.1
    (hp c).2.2.2.2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
